-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x6 : Shape := ⟨2, ![100000, 6]⟩
abbrev S500000x42 : Shape := ⟨2, ![500000, 42]⟩
abbrev S500000x294 : Shape := ⟨2, ![500000, 294]⟩
abbrev S100000x1 : Shape := ⟨2, ![100000, 1]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S294x8 : Shape := ⟨2, ![294, 8]⟩
abbrev S6x128 : Shape := ⟨2, ![6, 128]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x128x128 : Shape := ⟨3, ![1, 128, 128]⟩
abbrev S1x128 : Shape := ⟨2, ![1, 128]⟩
abbrev S2x128x128 : Shape := ⟨3, ![2, 128, 128]⟩
abbrev S2x128 : Shape := ⟨2, ![2, 128]⟩
abbrev S500000 : Shape := ⟨1, ![500000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x6 : S_.BroadcastsInDim S100000x6 (![] : Fin 0 → Fin S100000x6.rank)
  reducesTo_S100000x6_S_d0_1 : S100000x6.ReducesTo [0, 1] S_
  bcast_S_S500000x42 : S_.BroadcastsInDim S500000x42 (![] : Fin 0 → Fin S500000x42.rank)
  reducesTo_S500000x42_S_d0_1 : S500000x42.ReducesTo [0, 1] S_
  bcast_S_S500000x294 : S_.BroadcastsInDim S500000x294 (![] : Fin 0 → Fin S500000x294.rank)
  reducesTo_S500000x294_S_d0_1 : S500000x294.ReducesTo [0, 1] S_
  bcast_S_S100000x1 : S_.BroadcastsInDim S100000x1 (![] : Fin 0 → Fin S100000x1.rank)
  reducesTo_S100000x1_S_d0_1 : S100000x1.ReducesTo [0, 1] S_
  bcast_S_S6x8 : S_.BroadcastsInDim S6x8 (![] : Fin 0 → Fin S6x8.rank)
  reducesTo_S6x8_S_d0_1 : S6x8.ReducesTo [0, 1] S_
  bcast_S_S8x128 : S_.BroadcastsInDim S8x128 (![] : Fin 0 → Fin S8x128.rank)
  reducesTo_S8x128_S_d0_1 : S8x128.ReducesTo [0, 1] S_
  bcast_S_S42x8 : S_.BroadcastsInDim S42x8 (![] : Fin 0 → Fin S42x8.rank)
  reducesTo_S42x8_S_d0_1 : S42x8.ReducesTo [0, 1] S_
  bcast_S_S8x64 : S_.BroadcastsInDim S8x64 (![] : Fin 0 → Fin S8x64.rank)
  reducesTo_S8x64_S_d0_1 : S8x64.ReducesTo [0, 1] S_
  bcast_S_S294x8 : S_.BroadcastsInDim S294x8 (![] : Fin 0 → Fin S294x8.rank)
  reducesTo_S294x8_S_d0_1 : S294x8.ReducesTo [0, 1] S_
  bcast_S_S6x128 : S_.BroadcastsInDim S6x128 (![] : Fin 0 → Fin S6x128.rank)
  reducesTo_S6x128_S_d0_1 : S6x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x128 : S_.BroadcastsInDim S64x128 (![] : Fin 0 → Fin S64x128.rank)
  reducesTo_S64x128_S_d0_1 : S64x128.ReducesTo [0, 1] S_
  bcast_S_S1x128x128 : S_.BroadcastsInDim S1x128x128 (![] : Fin 0 → Fin S1x128x128.rank)
  reducesTo_S1x128x128_S_d0_1_2 : S1x128x128.ReducesTo [0, 1, 2] S_
  bcast_S_S1x128 : S_.BroadcastsInDim S1x128 (![] : Fin 0 → Fin S1x128.rank)
  reducesTo_S1x128_S_d0_1 : S1x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S500000 : S_.BroadcastsInDim S500000 (![] : Fin 0 → Fin S500000.rank)
  reducesTo_S500000_S_d0 : S500000.ReducesTo [0] S_

variable [Facts]

def fn_part8 {F : FTy → Type} [FloatOps F] (main_arg28 : IVec S500000 32) (main_v133 : IVec S_ 1) (main_v136 : IVec S2x128 1) : IVec S_ 1 :=
  let main_c_53 : IVec S_ 1 := constantI S_ 1 1#1
  let main_v137 : IVec S_ 1 := (fun x v => Host.reduce IntOp.andi x v reducesTo_S2x128_S_d0_1 h_S_) main_v136 main_c_53
  let main_v138 : IVec S_ 1 := andi main_v133 main_v137
  let main_c_54 : IVec S_ 32 := constantI S_ 32 0#32
  let main_v139 : IVec S500000 32 := broadcastInDim S500000 ![] bcast_S_S500000 main_c_54
  let main_v140 : IVec S500000 1 := cmpi .sge main_arg28 main_v139
  let main_c_55 : IVec S_ 1 := constantI S_ 1 1#1
  let main_v141 : IVec S_ 1 := (fun x v => Host.reduce IntOp.andi x v reducesTo_S500000_S_d0 h_S_) main_v140 main_c_55
  let main_v142 : IVec S_ 1 := andi main_v138 main_v141
  let main_c_56 : IVec S_ 32 := constantI S_ 32 100000#32
  let main_v143 : IVec S500000 32 := broadcastInDim S500000 ![] bcast_S_S500000 main_c_56
  let main_v144 : IVec S500000 1 := cmpi .slt main_arg28 main_v143
  let main_c_57 : IVec S_ 1 := constantI S_ 1 1#1
  let main_v145 : IVec S_ 1 := (fun x v => Host.reduce IntOp.andi x v reducesTo_S500000_S_d0 h_S_) main_v144 main_c_57
  let main_v146 : IVec S_ 1 := andi main_v142 main_v145
  main_v146

def fn_part7 {F : FTy → Type} [FloatOps F] (main_arg25 : FVec F S2x128 .f32) (main_arg26 : FVec F S2x128x128 .f32) (main_arg27 : FVec F S2x128 .f32) (main_arg28 : IVec S500000 32) (main_v118 : IVec S_ 1) (main_v119 : FVec F S2x128x128 .f32) : IVec S_ 1 :=
  let main_cst_46 : FVec F S_ .f32 := constant S_ .f32 0x7F800000#32
  let main_v120 : FVec F S2x128x128 .f32 := broadcastInDim S2x128x128 ![] bcast_S_S2x128x128 main_cst_46
  let main_v121 : IVec S2x128x128 1 := cmpf .olt main_v119 main_v120
  let main_c_47 : IVec S_ 1 := constantI S_ 1 1#1
  let main_v122 : IVec S_ 1 := (fun x v => Host.reduce IntOp.andi x v reducesTo_S2x128x128_S_d0_1_2 h_S_) main_v121 main_c_47
  let main_v123 : IVec S_ 1 := andi main_v118 main_v122
  let main_v124 : FVec F S2x128 .f32 := Host.absf main_arg25
  let main_cst_48 : FVec F S_ .f32 := constant S_ .f32 0x7F800000#32
  let main_v125 : FVec F S2x128 .f32 := broadcastInDim S2x128 ![] bcast_S_S2x128 main_cst_48
  let main_v126 : IVec S2x128 1 := cmpf .olt main_v124 main_v125
  let main_c_49 : IVec S_ 1 := constantI S_ 1 1#1
  let main_v127 : IVec S_ 1 := (fun x v => Host.reduce IntOp.andi x v reducesTo_S2x128_S_d0_1 h_S_) main_v126 main_c_49
  let main_v128 : IVec S_ 1 := andi main_v123 main_v127
  let main_v129 : FVec F S2x128x128 .f32 := Host.absf main_arg26
  let main_cst_50 : FVec F S_ .f32 := constant S_ .f32 0x7F800000#32
  let main_v130 : FVec F S2x128x128 .f32 := broadcastInDim S2x128x128 ![] bcast_S_S2x128x128 main_cst_50
  let main_v131 : IVec S2x128x128 1 := cmpf .olt main_v129 main_v130
  let main_c_51 : IVec S_ 1 := constantI S_ 1 1#1
  let main_v132 : IVec S_ 1 := (fun x v => Host.reduce IntOp.andi x v reducesTo_S2x128x128_S_d0_1_2 h_S_) main_v131 main_c_51
  let main_v133 : IVec S_ 1 := andi main_v128 main_v132
  let main_v134 : FVec F S2x128 .f32 := Host.absf main_arg27
  let main_cst_52 : FVec F S_ .f32 := constant S_ .f32 0x7F800000#32
  let main_v135 : FVec F S2x128 .f32 := broadcastInDim S2x128 ![] bcast_S_S2x128 main_cst_52
  let main_v136 : IVec S2x128 1 := cmpf .olt main_v134 main_v135
  fn_part8 (F := F) main_arg28 main_v133 main_v136

def fn_part6 {F : FTy → Type} [FloatOps F] (main_arg21 : FVec F S1x128 .f32) (main_arg22 : FVec F S1x128x128 .f32) (main_arg23 : FVec F S1x128 .f32) (main_arg24 : FVec F S2x128x128 .f32) (main_arg25 : FVec F S2x128 .f32) (main_arg26 : FVec F S2x128x128 .f32) (main_arg27 : FVec F S2x128 .f32) (main_arg28 : IVec S500000 32) (main_v98 : IVec S_ 1) (main_v101 : IVec S1x128x128 1) (main_c_39 : IVec S_ 1) : IVec S_ 1 :=
  let main_v102 : IVec S_ 1 := (fun x v => Host.reduce IntOp.andi x v reducesTo_S1x128x128_S_d0_1_2 h_S_) main_v101 main_c_39
  let main_v103 : IVec S_ 1 := andi main_v98 main_v102
  let main_v104 : FVec F S1x128 .f32 := Host.absf main_arg21
  let main_cst_40 : FVec F S_ .f32 := constant S_ .f32 0x7F800000#32
  let main_v105 : FVec F S1x128 .f32 := broadcastInDim S1x128 ![] bcast_S_S1x128 main_cst_40
  let main_v106 : IVec S1x128 1 := cmpf .olt main_v104 main_v105
  let main_c_41 : IVec S_ 1 := constantI S_ 1 1#1
  let main_v107 : IVec S_ 1 := (fun x v => Host.reduce IntOp.andi x v reducesTo_S1x128_S_d0_1 h_S_) main_v106 main_c_41
  let main_v108 : IVec S_ 1 := andi main_v103 main_v107
  let main_v109 : FVec F S1x128x128 .f32 := Host.absf main_arg22
  let main_cst_42 : FVec F S_ .f32 := constant S_ .f32 0x7F800000#32
  let main_v110 : FVec F S1x128x128 .f32 := broadcastInDim S1x128x128 ![] bcast_S_S1x128x128 main_cst_42
  let main_v111 : IVec S1x128x128 1 := cmpf .olt main_v109 main_v110
  let main_c_43 : IVec S_ 1 := constantI S_ 1 1#1
  let main_v112 : IVec S_ 1 := (fun x v => Host.reduce IntOp.andi x v reducesTo_S1x128x128_S_d0_1_2 h_S_) main_v111 main_c_43
  let main_v113 : IVec S_ 1 := andi main_v108 main_v112
  let main_v114 : FVec F S1x128 .f32 := Host.absf main_arg23
  let main_cst_44 : FVec F S_ .f32 := constant S_ .f32 0x7F800000#32
  let main_v115 : FVec F S1x128 .f32 := broadcastInDim S1x128 ![] bcast_S_S1x128 main_cst_44
  let main_v116 : IVec S1x128 1 := cmpf .olt main_v114 main_v115
  let main_c_45 : IVec S_ 1 := constantI S_ 1 1#1
  let main_v117 : IVec S_ 1 := (fun x v => Host.reduce IntOp.andi x v reducesTo_S1x128_S_d0_1 h_S_) main_v116 main_c_45
  let main_v118 : IVec S_ 1 := andi main_v113 main_v117
  let main_v119 : FVec F S2x128x128 .f32 := Host.absf main_arg24
  fn_part7 (F := F) main_arg25 main_arg26 main_arg27 main_arg28 main_v118 main_v119

def fn_part5 {F : FTy → Type} [FloatOps F] (main_arg18 : FVec F S128x128 .f32) (main_arg19 : FVec F S128 .f32) (main_arg20 : FVec F S1x128x128 .f32) (main_arg21 : FVec F S1x128 .f32) (main_arg22 : FVec F S1x128x128 .f32) (main_arg23 : FVec F S1x128 .f32) (main_arg24 : FVec F S2x128x128 .f32) (main_arg25 : FVec F S2x128 .f32) (main_arg26 : FVec F S2x128x128 .f32) (main_arg27 : FVec F S2x128 .f32) (main_arg28 : IVec S500000 32) (main_v83 : IVec S_ 1) (main_v84 : FVec F S64x128 .f32) (main_cst_32 : FVec F S_ .f32) : IVec S_ 1 :=
  let main_v85 : FVec F S64x128 .f32 := broadcastInDim S64x128 ![] bcast_S_S64x128 main_cst_32
  let main_v86 : IVec S64x128 1 := cmpf .olt main_v84 main_v85
  let main_c_33 : IVec S_ 1 := constantI S_ 1 1#1
  let main_v87 : IVec S_ 1 := (fun x v => Host.reduce IntOp.andi x v reducesTo_S64x128_S_d0_1 h_S_) main_v86 main_c_33
  let main_v88 : IVec S_ 1 := andi main_v83 main_v87
  let main_v89 : FVec F S128x128 .f32 := Host.absf main_arg18
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S1x128x128 .f32 := Host.absf main_arg20
  let main_cst_38 : FVec F S_ .f32 := constant S_ .f32 0x7F800000#32
  let main_v100 : FVec F S1x128x128 .f32 := broadcastInDim S1x128x128 ![] bcast_S_S1x128x128 main_cst_38
  let main_v101 : IVec S1x128x128 1 := cmpf .olt main_v99 main_v100
  let main_c_39 : IVec S_ 1 := constantI S_ 1 1#1
  fn_part6 (F := F) main_arg21 main_arg22 main_arg23 main_arg24 main_arg25 main_arg26 main_arg27 main_arg28 main_v98 main_v101 main_c_39

def fn_part4 {F : FTy → Type} [FloatOps F] (main_arg14 : FVec F S128x128 .f32) (main_arg15 : FVec F S128 .f32) (main_arg16 : FVec F S128x64 .f32) (main_arg17 : FVec F S64x128 .f32) (main_arg18 : FVec F S128x128 .f32) (main_arg19 : FVec F S128 .f32) (main_arg20 : FVec F S1x128x128 .f32) (main_arg21 : FVec F S1x128 .f32) (main_arg22 : FVec F S1x128x128 .f32) (main_arg23 : FVec F S1x128 .f32) (main_arg24 : FVec F S2x128x128 .f32) (main_arg25 : FVec F S2x128 .f32) (main_arg26 : FVec F S2x128x128 .f32) (main_arg27 : FVec F S2x128 .f32) (main_arg28 : IVec S500000 32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x64 .f32 := Host.absf main_arg16
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64x128 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_v83 main_v84 main_cst_32

def fn_part3 {F : FTy → Type} [FloatOps F] (main_arg11 : FVec F S6x128 .f32) (main_arg12 : FVec F S128x128 .f32) (main_arg13 : FVec F S128 .f32) (main_arg14 : FVec F S128x128 .f32) (main_arg15 : FVec F S128 .f32) (main_arg16 : FVec F S128x64 .f32) (main_arg17 : FVec F S64x128 .f32) (main_arg18 : FVec F S128x128 .f32) (main_arg19 : FVec F S128 .f32) (main_arg20 : FVec F S1x128x128 .f32) (main_arg21 : FVec F S1x128 .f32) (main_arg22 : FVec F S1x128x128 .f32) (main_arg23 : FVec F S1x128 .f32) (main_arg24 : FVec F S2x128x128 .f32) (main_arg25 : FVec F S2x128 .f32) (main_arg26 : FVec F S2x128x128 .f32) (main_arg27 : FVec F S2x128 .f32) (main_arg28 : IVec S500000 32) (main_v48 : IVec S_ 1) (main_v49 : FVec F S8x64 .f32) (main_v50 : FVec F S8x64 .f32) : IVec S_ 1 :=
  let main_v51 : IVec S8x64 1 := cmpf .olt main_v49 main_v50
  let main_c_19 : IVec S_ 1 := constantI S_ 1 1#1
  let main_v52 : IVec S_ 1 := (fun x v => Host.reduce IntOp.andi x v reducesTo_S8x64_S_d0_1 h_S_) main_v51 main_c_19
  let main_v53 : IVec S_ 1 := andi main_v48 main_v52
  let main_v54 : FVec F S6x128 .f32 := Host.absf main_arg11
  let main_cst_20 : FVec F S_ .f32 := constant S_ .f32 0x7F800000#32
  let main_v55 : FVec F S6x128 .f32 := broadcastInDim S6x128 ![] bcast_S_S6x128 main_cst_20
  let main_v56 : IVec S6x128 1 := cmpf .olt main_v54 main_v55
  let main_c_21 : IVec S_ 1 := constantI S_ 1 1#1
  let main_v57 : IVec S_ 1 := (fun x v => Host.reduce IntOp.andi x v reducesTo_S6x128_S_d0_1 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_v63 main_v67

def fn_part2 {F : FTy → Type} [FloatOps F] (main_arg7 : FVec F S42x8 .f32) (main_arg8 : FVec F S8x64 .f32) (main_arg9 : FVec F S294x8 .f32) (main_arg10 : FVec F S8x64 .f32) (main_arg11 : FVec F S6x128 .f32) (main_arg12 : FVec F S128x128 .f32) (main_arg13 : FVec F S128 .f32) (main_arg14 : FVec F S128x128 .f32) (main_arg15 : FVec F S128 .f32) (main_arg16 : FVec F S128x64 .f32) (main_arg17 : FVec F S64x128 .f32) (main_arg18 : FVec F S128x128 .f32) (main_arg19 : FVec F S128 .f32) (main_arg20 : FVec F S1x128x128 .f32) (main_arg21 : FVec F S1x128 .f32) (main_arg22 : FVec F S1x128x128 .f32) (main_arg23 : FVec F S1x128 .f32) (main_arg24 : FVec F S2x128x128 .f32) (main_arg25 : FVec F S2x128 .f32) (main_arg26 : FVec F S2x128x128 .f32) (main_arg27 : FVec F S2x128 .f32) (main_arg28 : IVec S500000 32) (main_v33 : IVec S_ 1) : IVec S_ 1 :=
  let main_v34 : FVec F S42x8 .f32 := Host.absf main_arg7
  let main_cst_12 : FVec F S_ .f32 := constant S_ .f32 0x7F800000#32
  let main_v35 : FVec F S42x8 .f32 := broadcastInDim S42x8 ![] bcast_S_S42x8 main_cst_12
  let main_v36 : IVec S42x8 1 := cmpf .olt main_v34 main_v35
  let main_c_13 : IVec S_ 1 := constantI S_ 1 1#1
  let main_v37 : IVec S_ 1 := (fun x v => Host.reduce IntOp.andi x v reducesTo_S42x8_S_d0_1 h_S_) main_v36 main_c_13
  let main_v38 : IVec S_ 1 := andi main_v33 main_v37
  let main_v39 : FVec F S8x64 .f32 := Host.absf main_arg8
  let main_cst_14 : FVec F S_ .f32 := constant S_ .f32 0x7F800000#32
  let main_v40 : FVec F S8x64 .f32 := broadcastInDim S8x64 ![] bcast_S_S8x64 main_cst_14
  let main_v41 : IVec S8x64 1 := cmpf .olt main_v39 main_v40
  let main_c_15 : IVec S_ 1 := constantI S_ 1 1#1
  let main_v42 : IVec S_ 1 := (fun x v => Host.reduce IntOp.andi x v reducesTo_S8x64_S_d0_1 h_S_) main_v41 main_c_15
  let main_v43 : IVec S_ 1 := andi main_v38 main_v42
  let main_v44 : FVec F S294x8 .f32 := Host.absf main_arg9
  let main_cst_16 : FVec F S_ .f32 := constant S_ .f32 0x7F800000#32
  let main_v45 : FVec F S294x8 .f32 := broadcastInDim S294x8 ![] bcast_S_S294x8 main_cst_16
  let main_v46 : IVec S294x8 1 := cmpf .olt main_v44 main_v45
  let main_c_17 : IVec S_ 1 := constantI S_ 1 1#1
  let main_v47 : IVec S_ 1 := (fun x v => Host.reduce IntOp.andi x v reducesTo_S294x8_S_d0_1 h_S_) main_v46 main_c_17
  let main_v48 : IVec S_ 1 := andi main_v43 main_v47
  let main_v49 : FVec F S8x64 .f32 := Host.absf main_arg10
  let main_cst_18 : FVec F S_ .f32 := constant S_ .f32 0x7F800000#32
  let main_v50 : FVec F S8x64 .f32 := broadcastInDim S8x64 ![] bcast_S_S8x64 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg4 : FVec F S100000x1 .f32) (main_arg5 : FVec F S6x8 .f32) (main_arg6 : FVec F S8x128 .f32) (main_arg7 : FVec F S42x8 .f32) (main_arg8 : FVec F S8x64 .f32) (main_arg9 : FVec F S294x8 .f32) (main_arg10 : FVec F S8x64 .f32) (main_arg11 : FVec F S6x128 .f32) (main_arg12 : FVec F S128x128 .f32) (main_arg13 : FVec F S128 .f32) (main_arg14 : FVec F S128x128 .f32) (main_arg15 : FVec F S128 .f32) (main_arg16 : FVec F S128x64 .f32) (main_arg17 : FVec F S64x128 .f32) (main_arg18 : FVec F S128x128 .f32) (main_arg19 : FVec F S128 .f32) (main_arg20 : FVec F S1x128x128 .f32) (main_arg21 : FVec F S1x128 .f32) (main_arg22 : FVec F S1x128x128 .f32) (main_arg23 : FVec F S1x128 .f32) (main_arg24 : FVec F S2x128x128 .f32) (main_arg25 : FVec F S2x128 .f32) (main_arg26 : FVec F S2x128x128 .f32) (main_arg27 : FVec F S2x128 .f32) (main_arg28 : IVec S500000 32) (main_v13 : IVec S_ 1) (main_v16 : IVec S500000x294 1) : IVec S_ 1 :=
  let main_c_5 : IVec S_ 1 := constantI S_ 1 1#1
  let main_v17 : IVec S_ 1 := (fun x v => Host.reduce IntOp.andi x v reducesTo_S500000x294_S_d0_1 h_S_) main_v16 main_c_5
  let main_v18 : IVec S_ 1 := andi main_v13 main_v17
  let main_v19 : FVec F S100000x1 .f32 := Host.absf main_arg4
  let main_cst_6 : FVec F S_ .f32 := constant S_ .f32 0x7F800000#32
  let main_v20 : FVec F S100000x1 .f32 := broadcastInDim S100000x1 ![] bcast_S_S100000x1 main_cst_6
  let main_v21 : IVec S100000x1 1 := cmpf .olt main_v19 main_v20
  let main_c_7 : IVec S_ 1 := constantI S_ 1 1#1
  let main_v22 : IVec S_ 1 := (fun x v => Host.reduce IntOp.andi x v reducesTo_S100000x1_S_d0_1 h_S_) main_v21 main_c_7
  let main_v23 : IVec S_ 1 := andi main_v18 main_v22
  let main_v24 : FVec F S6x8 .f32 := Host.absf main_arg5
  let main_cst_8 : FVec F S_ .f32 := constant S_ .f32 0x7F800000#32
  let main_v25 : FVec F S6x8 .f32 := broadcastInDim S6x8 ![] bcast_S_S6x8 main_cst_8
  let main_v26 : IVec S6x8 1 := cmpf .olt main_v24 main_v25
  let main_c_9 : IVec S_ 1 := constantI S_ 1 1#1
  let main_v27 : IVec S_ 1 := (fun x v => Host.reduce IntOp.andi x v reducesTo_S6x8_S_d0_1 h_S_) main_v26 main_c_9
  let main_v28 : IVec S_ 1 := andi main_v23 main_v27
  let main_v29 : FVec F S8x128 .f32 := Host.absf main_arg6
  let main_cst_10 : FVec F S_ .f32 := constant S_ .f32 0x7F800000#32
  let main_v30 : FVec F S8x128 .f32 := broadcastInDim S8x128 ![] bcast_S_S8x128 main_cst_10
  let main_v31 : IVec S8x128 1 := cmpf .olt main_v29 main_v30
  let main_c_11 : IVec S_ 1 := constantI S_ 1 1#1
  let main_v32 : IVec S_ 1 := (fun x v => Host.reduce IntOp.andi x v reducesTo_S8x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S100000x128 .f32) (main_arg1 : FVec F S100000x6 .f32) (main_arg2 : FVec F S500000x42 .f32) (main_arg3 : FVec F S500000x294 .f32) (main_arg4 : FVec F S100000x1 .f32) (main_arg5 : FVec F S6x8 .f32) (main_arg6 : FVec F S8x128 .f32) (main_arg7 : FVec F S42x8 .f32) (main_arg8 : FVec F S8x64 .f32) (main_arg9 : FVec F S294x8 .f32) (main_arg10 : FVec F S8x64 .f32) (main_arg11 : FVec F S6x128 .f32) (main_arg12 : FVec F S128x128 .f32) (main_arg13 : FVec F S128 .f32) (main_arg14 : FVec F S128x128 .f32) (main_arg15 : FVec F S128 .f32) (main_arg16 : FVec F S128x64 .f32) (main_arg17 : FVec F S64x128 .f32) (main_arg18 : FVec F S128x128 .f32) (main_arg19 : FVec F S128 .f32) (main_arg20 : FVec F S1x128x128 .f32) (main_arg21 : FVec F S1x128 .f32) (main_arg22 : FVec F S1x128x128 .f32) (main_arg23 : FVec F S1x128 .f32) (main_arg24 : FVec F S2x128x128 .f32) (main_arg25 : FVec F S2x128 .f32) (main_arg26 : FVec F S2x128x128 .f32) (main_arg27 : FVec F S2x128 .f32) (main_arg28 : IVec S500000 32) (main_arg29 : IVec S500000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x6 .f32 := Host.absf main_arg1
  let main_cst_0 : FVec F S_ .f32 := constant S_ .f32 0x7F800000#32
  let main_v5 : FVec F S100000x6 .f32 := broadcastInDim S100000x6 ![] bcast_S_S100000x6 main_cst_0
  let main_v6 : IVec S100000x6 1 := cmpf .olt main_v4 main_v5
  let main_c_1 : IVec S_ 1 := constantI S_ 1 1#1
  let main_v7 : IVec S_ 1 := (fun x v => Host.reduce IntOp.andi x v reducesTo_S100000x6_S_d0_1 h_S_) main_v6 main_c_1
  let main_v8 : IVec S_ 1 := andi main_v3 main_v7
  let main_v9 : FVec F S500000x42 .f32 := Host.absf main_arg2
  let main_cst_2 : FVec F S_ .f32 := constant S_ .f32 0x7F800000#32
  let main_v10 : FVec F S500000x42 .f32 := broadcastInDim S500000x42 ![] bcast_S_S500000x42 main_cst_2
  let main_v11 : IVec S500000x42 1 := cmpf .olt main_v9 main_v10
  let main_c_3 : IVec S_ 1 := constantI S_ 1 1#1
  let main_v12 : IVec S_ 1 := (fun x v => Host.reduce IntOp.andi x v reducesTo_S500000x42_S_d0_1 h_S_) main_v11 main_c_3
  let main_v13 : IVec S_ 1 := andi main_v8 main_v12
  let main_v14 : FVec F S500000x294 .f32 := Host.absf main_arg3
  let main_cst_4 : FVec F S_ .f32 := constant S_ .f32 0x7F800000#32
  let main_v15 : FVec F S500000x294 .f32 := broadcastInDim S500000x294 ![] bcast_S_S500000x294 main_cst_4
  let main_v16 : IVec S500000x294 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S100000x128 : Shape := ⟨2, ![100000, 128]⟩
abbrev S100000x6 : Shape := ⟨2, ![100000, 6]⟩
abbrev S500000x42 : Shape := ⟨2, ![500000, 42]⟩
abbrev S500000x294 : Shape := ⟨2, ![500000, 294]⟩
abbrev S100000x1 : Shape := ⟨2, ![100000, 1]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S294x8 : Shape := ⟨2, ![294, 8]⟩
abbrev S6x128 : Shape := ⟨2, ![6, 128]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x128x128 : Shape := ⟨3, ![1, 128, 128]⟩
abbrev S1x128 : Shape := ⟨2, ![1, 128]⟩
abbrev S2x128x128 : Shape := ⟨3, ![2, 128, 128]⟩
abbrev S2x128 : Shape := ⟨2, ![2, 128]⟩
abbrev S500000 : Shape := ⟨1, ![500000]⟩
abbrev S100000x64 : Shape := ⟨2, ![100000, 64]⟩
abbrev S2000x128 : Shape := ⟨2, ![2000, 128]⟩
abbrev S2000x6 : Shape := ⟨2, ![2000, 6]⟩
abbrev S2000x64 : Shape := ⟨2, ![2000, 64]⟩
abbrev S2000x8 : Shape := ⟨2, ![2000, 8]⟩
abbrev S500000x1 : Shape := ⟨2, ![500000, 1]⟩
abbrev S500000x64 : Shape := ⟨2, ![500000, 64]⟩
abbrev S4000x42 : Shape := ⟨2, ![4000, 42]⟩
abbrev S4000x294 : Shape := ⟨2, ![4000, 294]⟩
abbrev S4000x64 : Shape := ⟨2, ![4000, 64]⟩
abbrev S4000x8 : Shape := ⟨2, ![4000, 8]⟩
abbrev S_ : Shape := ⟨0, ![]⟩

abbrev nBuf : Space → Nat
  | .hbm => 40
  | .vmem => 47
  | .smem => 0
  | _ => 0

abbrev bufTy : (tb : Table) → Fin (tcTables nBuf tb) → BufTy
  | .hbm, ⟨0, _⟩ => ⟨S100000x128, .f32⟩
  | .hbm, ⟨1, _⟩ => ⟨S100000x6, .f32⟩
  | .hbm, ⟨2, _⟩ => ⟨S500000x42, .f32⟩
  | .hbm, ⟨3, _⟩ => ⟨S500000x294, .f32⟩
  | .hbm, ⟨4, _⟩ => ⟨S100000x1, .f32⟩
  | .hbm, ⟨5, _⟩ => ⟨S6x8, .f32⟩
  | .hbm, ⟨6, _⟩ => ⟨S8x128, .f32⟩
  | .hbm, ⟨7, _⟩ => ⟨S42x8, .f32⟩
  | .hbm, ⟨8, _⟩ => ⟨S8x64, .f32⟩
  | .hbm, ⟨9, _⟩ => ⟨S294x8, .f32⟩
  | .hbm, ⟨10, _⟩ => ⟨S8x64, .f32⟩
  | .hbm, ⟨11, _⟩ => ⟨S6x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x64, .f32⟩
  | .hbm, ⟨17, _⟩ => ⟨S64x128, .f32⟩
  | .hbm, ⟨18, _⟩ => ⟨S128x128, .f32⟩
  | .hbm, ⟨19, _⟩ => ⟨S128, .f32⟩
  | .hbm, ⟨20, _⟩ => ⟨S1x128x128, .f32⟩
  | .hbm, ⟨21, _⟩ => ⟨S1x128, .f32⟩
  | .hbm, ⟨22, _⟩ => ⟨S1x128x128, .f32⟩
  | .hbm, ⟨23, _⟩ => ⟨S1x128, .f32⟩
  | .hbm, ⟨24, _⟩ => ⟨S2x128x128, .f32⟩
  | .hbm, ⟨25, _⟩ => ⟨S2x128, .f32⟩
  | .hbm, ⟨26, _⟩ => ⟨S2x128x128, .f32⟩
  | .hbm, ⟨27, _⟩ => ⟨S2x128, .f32⟩
  | .hbm, ⟨28, _⟩ => ⟨S500000, .i32⟩
  | .hbm, ⟨29, _⟩ => ⟨S500000, .i32⟩
  | .hbm, ⟨30, _⟩ => ⟨S100000x64, .f32⟩
  | .hbm, ⟨31, _⟩ => ⟨S500000x1, .i32⟩
  | .hbm, ⟨32, _⟩ => ⟨S500000x64, .f32⟩
  | .hbm, ⟨33, _⟩ => ⟨S500000x64, .f32⟩
  | .hbm, ⟨34, _⟩ => ⟨S_, .f32⟩
  | .hbm, ⟨35, _⟩ => ⟨S100000x64, .f32⟩
  | .hbm, ⟨36, _⟩ => ⟨S500000x1, .i32⟩
  | .hbm, ⟨37, _⟩ => ⟨S100000x64, .f32⟩
  | .hbm, ⟨38, _⟩ => ⟨S100000x128, .f32⟩
  | .hbm, ⟨39, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x6, .f32⟩
  | .local _ .vmem, ⟨3, _⟩ => ⟨S2000x6, .f32⟩
  | .local _ .vmem, ⟨4, _⟩ => ⟨S128x128, .f32⟩
  | .local _ .vmem, ⟨5, _⟩ => ⟨S128, .f32⟩
  | .local _ .vmem, ⟨6, _⟩ => ⟨S6x8, .f32⟩
  | .local _ .vmem, ⟨7, _⟩ => ⟨S8x128, .f32⟩
  | .local _ .vmem, ⟨8, _⟩ => ⟨S128x64, .f32⟩
  | .local _ .vmem, ⟨9, _⟩ => ⟨S2000x64, .f32⟩
  | .local _ .vmem, ⟨10, _⟩ => ⟨S2000x64, .f32⟩
  | .local _ .vmem, ⟨11, _⟩ => ⟨S4000x42, .f32⟩
  | .local _ .vmem, ⟨12, _⟩ => ⟨S4000x42, .f32⟩
  | .local _ .vmem, ⟨13, _⟩ => ⟨S4000x294, .f32⟩
  | .local _ .vmem, ⟨14, _⟩ => ⟨S4000x294, .f32⟩
  | .local _ .vmem, ⟨15, _⟩ => ⟨S4000x64, .f32⟩
  | .local _ .vmem, ⟨16, _⟩ => ⟨S4000x64, .f32⟩
  | .local _ .vmem, ⟨17, _⟩ => ⟨S42x8, .f32⟩
  | .local _ .vmem, ⟨18, _⟩ => ⟨S8x64, .f32⟩
  | .local _ .vmem, ⟨19, _⟩ => ⟨S294x8, .f32⟩
  | .local _ .vmem, ⟨20, _⟩ => ⟨S8x64, .f32⟩
  | .local _ .vmem, ⟨21, _⟩ => ⟨S4000x64, .f32⟩
  | .local _ .vmem, ⟨22, _⟩ => ⟨S4000x64, .f32⟩
  | .local _ .vmem, ⟨23, _⟩ => ⟨S2000x64, .f32⟩
  | .local _ .vmem, ⟨24, _⟩ => ⟨S2000x64, .f32⟩
  | .local _ .vmem, ⟨25, _⟩ => ⟨S2000x128, .f32⟩
  | .local _ .vmem, ⟨26, _⟩ => ⟨S2000x128, .f32⟩
  | .local _ .vmem, ⟨27, _⟩ => ⟨S2000x6, .f32⟩
  | .local _ .vmem, ⟨28, _⟩ => ⟨S2000x6, .f32⟩
  | .local _ .vmem, ⟨29, _⟩ => ⟨S128x128, .f32⟩
  | .local _ .vmem, ⟨30, _⟩ => ⟨S128, .f32⟩
  | .local _ .vmem, ⟨31, _⟩ => ⟨S64x128, .f32⟩
  | .local _ .vmem, ⟨32, _⟩ => ⟨S1x128x128, .f32⟩
  | .local _ .vmem, ⟨33, _⟩ => ⟨S1x128, .f32⟩
  | .local _ .vmem, ⟨34, _⟩ => ⟨S1x128x128, .f32⟩
  | .local _ .vmem, ⟨35, _⟩ => ⟨S1x128, .f32⟩
  | .local _ .vmem, ⟨36, _⟩ => ⟨S128x128, .f32⟩
  | .local _ .vmem, ⟨37, _⟩ => ⟨S128, .f32⟩
  | .local _ .vmem, ⟨38, _⟩ => ⟨S2x128x128, .f32⟩
  | .local _ .vmem, ⟨39, _⟩ => ⟨S2x128, .f32⟩
  | .local _ .vmem, ⟨40, _⟩ => ⟨S2x128x128, .f32⟩
  | .local _ .vmem, ⟨41, _⟩ => ⟨S2x128, .f32⟩
  | .local _ .vmem, ⟨42, _⟩ => ⟨S6x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_call0_v0 : Ref sig .tc := ⟨.hbm, 31, rfl⟩
abbrev main_v1 : Ref sig .tc := ⟨.hbm, 32, rfl⟩
abbrev main_v2 : Ref sig .tc := ⟨.hbm, 33, rfl⟩
abbrev main_cst : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6_0 : Ref sig .tc := ⟨.hbm, 38, rfl⟩
abbrev main_v6_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_stg11_0 : Ref sig .tc := ⟨.vmem, 37, rfl⟩
abbrev cc2_stg12_0 : Ref sig .tc := ⟨.vmem, 38, rfl⟩
abbrev cc2_stg13_0 : Ref sig .tc := ⟨.vmem, 39, rfl⟩
abbrev cc2_stg14_0 : Ref sig .tc := ⟨.vmem, 40, rfl⟩
abbrev cc2_stg15_0 : Ref sig .tc := ⟨.vmem, 41, rfl⟩
abbrev cc2_stg16_0 : Ref sig .tc := ⟨.vmem, 42, rfl⟩
abbrev cc2_stg17_0 : Ref sig .tc := ⟨.vmem, 43, rfl⟩
abbrev cc2_stg17_1 : Ref sig .tc := ⟨.vmem, 44, rfl⟩
abbrev cc2_stg18_0 : Ref sig .tc := ⟨.vmem, 45, rfl⟩
abbrev cc2_stg18_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem10_0 : DmaSem sig := 36
abbrev cc2_sem11_0 : DmaSem sig := 37
abbrev cc2_sem12_0 : DmaSem sig := 38
abbrev cc2_sem13_0 : DmaSem sig := 39
abbrev cc2_sem14_0 : DmaSem sig := 40
abbrev cc2_sem15_0 : DmaSem sig := 41
abbrev cc2_sem16_0 : DmaSem sig := 42
abbrev cc2_sem17_0 : DmaSem sig := 43
abbrev cc2_sem17_1 : DmaSem sig := 44
abbrev cc2_sem18_0 : DmaSem sig := 45
abbrev cc2_sem18_1 : DmaSem sig := 46

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x42 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x294 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S42x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S294x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_12 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_18 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x6 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S2x128x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S2x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S2x128x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S2x128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S6x128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 2 → Memref sig .tc .vmem S2000x128 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

abbrev stage2_18 : Fin 2 → Memref sig .tc .vmem S2000x128 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]

class Facts₀ : Prop where
  inb_S2000x128_S2000x128_0_0 : ∀ a, (![0, 0] : Fin 2 → Nat) a + S2000x128.size a ≤ S2000x128.size a
  h_S2000x128 : 0 < S2000x128.numel
  inb_S2000x6_S2000x6_0_0 : ∀ a, (![0, 0] : Fin 2 → Nat) a + S2000x6.size a ≤ S2000x6.size a
  h_S2000x6 : 0 < S2000x6.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S6x8_S6x8_0_0 : ∀ a, (![0, 0] : Fin 2 → Nat) a + S6x8.size a ≤ S6x8.size a
  h_S6x8 : 0 < S6x8.numel
  inb_S8x128_S8x128_0_0 : ∀ a, (![0, 0] : Fin 2 → Nat) a + S8x128.size a ≤ S8x128.size a
  h_S8x128 : 0 < S8x128.numel
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S500000_S500000x1_0 : S500000.BroadcastsInDim S500000x1 (![0] : Fin 1 → Fin S500000x1.rank)
  inb_S4000x42_S4000x42_0_0 : ∀ a, (![0, 0] : Fin 2 → Nat) a + S4000x42.size a ≤ S4000x42.size a
  h_S4000x42 : 0 < S4000x42.numel
  inb_S4000x294_S4000x294_0_0 : ∀ a, (![0, 0] : Fin 2 → Nat) a + S4000x294.size a ≤ S4000x294.size a
  h_S4000x294 : 0 < S4000x294.numel
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S42x8_S42x8_0_0 : ∀ a, (![0, 0] : Fin 2 → Nat) a + S42x8.size a ≤ S42x8.size a
  h_S42x8 : 0 < S42x8.numel
  inb_S8x64_S8x64_0_0 : ∀ a, (![0, 0] : Fin 2 → Nat) a + S8x64.size a ≤ S8x64.size a
  h_S8x64 : 0 < S8x64.numel
  inb_S294x8_S294x8_0_0 : ∀ a, (![0, 0] : Fin 2 → Nat) a + S294x8.size a ≤ S294x8.size a
  h_S294x8 : 0 < S294x8.numel
  bcast_S_S100000x64 : S_.BroadcastsInDim S100000x64 (![] : Fin 0 → Fin S100000x64.rank)
  shapeCasts_S2000x64_S2000x64 : S2000x64.ShapeCasts S2000x64
  inb_S64x128_S64x128_0_0 : ∀ a, (![0, 0] : Fin 2 → Nat) a + S64x128.size a ≤ S64x128.size a
  h_S64x128 : 0 < S64x128.numel
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x128_S1x128_0_0 : ∀ a, (![0, 0] : Fin 2 → Nat) a + S1x128.size a ≤ S1x128.size a
  h_S1x128 : 0 < S1x128.numel
  shapeCasts_S1x128_S128 : S1x128.ShapeCasts S128
  inb_S2x128x128_S1x128x128_0_0_0 : ∀ a, (![0, 0, 0] : Fin 3 → Nat) a + S1x128x128.size a ≤ S2x128x128.size a
  inb_S2x128_S1x128_0_0 : ∀ a, (![0, 0] : Fin 2 → Nat) a + S1x128.size a ≤ S2x128.size a
  inb_S2x128x128_S1x128x128_1_0_0 : ∀ a, (![1, 0, 0] : Fin 3 → Nat) a + S1x128x128.size a ≤ S2x128x128.size a
  inb_S2x128_S1x128_1_0 : ∀ a, (![1, 0] : Fin 2 → Nat) a + S1x128.size a ≤ S2x128.size a
  inb_S6x128_S6x128_0_0 : ∀ a, (![0, 0] : Fin 2 → Nat) a + S6x128.size a ≤ S6x128.size a
  h_S6x128 : 0 < S6x128.numel
  dot_S2000x128_S128x128_S2000x128_1_0_0_1_n_n_wf : DotDims.WF S2000x128 S128x128 S2000x128 [1] [0] [0] [1] [] []
  dot_S2000x6_S6x8_S2000x8_1_0_0_1_n_n_wf : DotDims.WF S2000x6 S6x8 S2000x8 [1] [0] [0] [1] [] []
  dot_S2000x8_S8x128_S2000x128_1_0_0_1_n_n_wf : DotDims.WF S2000x8 S8x128 S2000x128 [1] [0] [0] [1] [] []
  dot_S2000x128_S128x64_S2000x64_1_0_0_1_n_n_wf : DotDims.WF S2000x128 S128x64 S2000x64 [1] [0] [0] [1] [] []
  gather_S100000x64_S500000x1_S500000x64_1_0_n_n_0_1_164_wf : GatherDims.WF S100000x64 S500000x1 S500000x64 [1] [0] [] [0] [] 1 ![1, 64]
  dot_S4000x42_S42x8_S4000x8_1_0_0_1_n_n_wf : DotDims.WF S4000x42 S42x8 S4000x8 [1] [0] [0] [1] [] []
  dot_S4000x8_S8x64_S4000x64_1_0_0_1_n_n_wf : DotDims.WF S4000x8 S8x64 S4000x64 [1] [0] [0] [1] [] []
  dot_S4000x294_S294x8_S4000x8_1_0_0_1_n_n_wf : DotDims.WF S4000x294 S294x8 S4000x8 [1] [0] [0] [1] [] []
  scatter_S100000x64_S500000x1_S500000x64_1_0_0_1_wf : ScatterDims.WF S100000x64 S500000x1 S500000x64 [1] [0] [0] 1
  dot_S2000x64_S64x128_S2000x128_1_0_0_1_n_n_wf : DotDims.WF S2000x64 S64x128 S2000x128 [1] [0] [0] [1] [] []
  dot_S2000x6_S6x128_S2000x128_1_0_0_1_n_n_wf : DotDims.WF S2000x6 S6x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x6.size a ≤ S100000x6.size a
  hwx0_1 : ∀ i : grid0.Coords, EltTy.bits .f32 = 32 ∨ (Rect.block (s := S100000x6) S2000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x8.size a ≤ S6x8.size a
  hwx0_4 : ∀ i : grid0.Coords, EltTy.bits .f32 = 32 ∨ (Rect.block (s := S6x8) S6x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S8x128.size a
  hwx0_5 : ∀ i : grid0.Coords, EltTy.bits .f32 = 32 ∨ (Rect.block (s := S8x128) S8x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x64.size a ≤ S100000x64.size a
  hwx0_7 : ∀ i : grid0.Coords, EltTy.bits .f32 = 32 ∨ (Rect.block (s := S100000x64) S2000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x42.size a ≤ S500000x42.size a
  hwx1_0 : ∀ i : grid1.Coords, EltTy.bits .f32 = 32 ∨ (Rect.block (s := S500000x42) S4000x42.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x294.size a ≤ S500000x294.size a
  hwx1_1 : ∀ i : grid1.Coords, EltTy.bits .f32 = 32 ∨ (Rect.block (s := S500000x294) S4000x294.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S500000x64.size a
  hwx1_2 : ∀ i : grid1.Coords, EltTy.bits .f32 = 32 ∨ (Rect.block (s := S500000x64) S4000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S42x8.size a ≤ S42x8.size a
  hwx1_3 : ∀ i : grid1.Coords, EltTy.bits .f32 = 32 ∨ (Rect.block (s := S42x8) S42x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x64.size a ≤ S8x64.size a
  hwx1_4 : ∀ i : grid1.Coords, EltTy.bits .f32 = 32 ∨ (Rect.block (s := S8x64) S8x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S294x8.size a ≤ S294x8.size a
  hwx1_5 : ∀ i : grid1.Coords, EltTy.bits .f32 = 32 ∨ (Rect.block (s := S294x8) S294x8.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x64.size a ≤ S8x64.size a
  hwx1_6 : ∀ i : grid1.Coords, EltTy.bits .f32 = 32 ∨ (Rect.block (s := S8x64) S8x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x64.size a ≤ S500000x64.size a
  hwx1_7 : ∀ i : grid1.Coords, EltTy.bits .f32 = 32 ∨ (Rect.block (s := S500000x64) S4000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x6.size a ≤ S100000x6.size a
  hwx2_2 : ∀ i : grid2.Coords, EltTy.bits .f32 = 32 ∨ (Rect.block (s := S100000x6) S2000x6.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x128.size a ≤ S64x128.size a
  hwx2_5 : ∀ i : grid2.Coords, EltTy.bits .f32 = 32 ∨ (Rect.block (s := S64x128) S64x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128x128.size a ≤ S1x128x128.size a
  hwx2_6 : ∀ i : grid2.Coords, EltTy.bits .f32 = 32 ∨ (Rect.block (s := S1x128x128) S1x128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128x128.size a ≤ S1x128x128.size a
  hwx2_8 : ∀ i : grid2.Coords, EltTy.bits .f32 = 32 ∨ (Rect.block (s := S1x128x128) S1x128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x128.size a ≤ S128x128.size a
  hwx2_10 : ∀ i : grid2.Coords, EltTy.bits .f32 = 32 ∨ (Rect.block (s := S128x128) S128x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128.size a ≤ S128.size a
  hwx2_11 : ∀ i : grid2.Coords, EltTy.bits .f32 = 32 ∨ (Rect.block (s := S128) S128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S2x128x128.size a ≤ S2x128x128.size a
  hwx2_12 : ∀ i : grid2.Coords, EltTy.bits .f32 = 32 ∨ (Rect.block (s := S2x128x128) S2x128x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S2x128.size a ≤ S2x128.size a
  hwx2_13 : ∀ i : grid2.Coords, EltTy.bits .f32 = 32 ∨ (Rect.block (s := S2x128) S2x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S2x128x128.size a ≤ S2x128x128.size a
  hwx2_14 : ∀ i : grid2.Coords, EltTy.bits .f32 = 32 ∨ (Rect.block (s := S2x128x128) S2x128x128.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S2x128.size a ≤ S2x128.size a
  hwx2_15 : ∀ i : grid2.Coords, EltTy.bits .f32 = 32 ∨ (Rect.block (s := S2x128) S2x128.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S6x128.size a ≤ S6x128.size a
  hwx2_16 : ∀ i : grid2.Coords, EltTy.bits .f32 = 32 ∨ (Rect.block (s := S6x128) S6x128.size (cc2_transform_16 i) (hinb2_16 i)).WholeWords (EltTy.packing .f32)
  hstage2_17 : ∀ j, (stage2_17 j).IsWhole
  nbuf2_17 : grid2.bufCount reads2_17 false = 2
  hreads2_17 : ∀ i i' : grid2.Coords, (∀ a, reads2_17 a = true → i a = i' a) → cc2_transform_17 i = cc2_transform_17 i'
  hinb2_17 : ∀ (i : grid2.Coords) a, (cc2_transform_17 i a + 1) * S2000x128.size a ≤ S100000x128.size a
  hwx2_17 : ∀ i : grid2.Coords, EltTy.bits .f32 = 32 ∨ (Rect.block (s := S100000x128) S2000x128.size (cc2_transform_17 i) (hinb2_17 i)).WholeWords (EltTy.packing .f32)
  hstage2_18 : ∀ j, (stage2_18 j).IsWhole
  nbuf2_18 : grid2.bufCount reads2_18 false = 2
  hreads2_18 : ∀ i i' : grid2.Coords, (∀ a, reads2_18 a = true → i a = i' a) → cc2_transform_18 i = cc2_transform_18 i'
  hinb2_18 : ∀ (i : grid2.Coords) a, (cc2_transform_18 i a + 1) * S2000x128.size a ≤ S100000x128.size a
  hwx2_18 : ∀ i : grid2.Coords, EltTy.bits .f32 = 32 ∨ (Rect.block (s := S100000x128) S2000x128.size (cc2_transform_18 i) (hinb2_18 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x6_S6x8_S2000x8_1_0_0_1_n_n : DotDims S2000x6 S6x8 S2000x8 where
  lhsContracting := [1]
  rhsContracting := [0]
  lhsNonContracting := [0]
  rhsNonContracting := [1]
  lhsBatch := []
  rhsBatch := []
  wf := dot_S2000x6_S6x8_S2000x8_1_0_0_1_n_n_wf
def dot_S2000x8_S8x128_S2000x128_1_0_0_1_n_n : DotDims S2000x8 S8x128 S2000x128 where
  lhsContracting := [1]
  rhsContracting := [0]
  lhsNonContracting := [0]
  rhsNonContracting := [1]
  lhsBatch := []
  rhsBatch := []
  wf := dot_S2000x8_S8x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S4000x42_S42x8_S4000x8_1_0_0_1_n_n : DotDims S4000x42 S42x8 S4000x8 where
  lhsContracting := [1]
  rhsContracting := [0]
  lhsNonContracting := [0]
  rhsNonContracting := [1]
  lhsBatch := []
  rhsBatch := []
  wf := dot_S4000x42_S42x8_S4000x8_1_0_0_1_n_n_wf
def dot_S4000x8_S8x64_S4000x64_1_0_0_1_n_n : DotDims S4000x8 S8x64 S4000x64 where
  lhsContracting := [1]
  rhsContracting := [0]
  lhsNonContracting := [0]
  rhsNonContracting := [1]
  lhsBatch := []
  rhsBatch := []
  wf := dot_S4000x8_S8x64_S4000x64_1_0_0_1_n_n_wf
def dot_S4000x294_S294x8_S4000x8_1_0_0_1_n_n : DotDims S4000x294 S294x8 S4000x8 where
  lhsContracting := [1]
  rhsContracting := [0]
  lhsNonContracting := [0]
  rhsNonContracting := [1]
  lhsBatch := []
  rhsBatch := []
  wf := dot_S4000x294_S294x8_S4000x8_1_0_0_1_n_n_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x6_S6x128_S2000x128_1_0_0_1_n_n : DotDims S2000x6 S6x128 S2000x128 where
  lhsContracting := [1]
  rhsContracting := [0]
  lhsNonContracting := [0]
  rhsNonContracting := [1]
  lhsBatch := []
  rhsBatch := []
  wf := dot_S2000x6_S6x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg12) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg13) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S6x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S8x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg16) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S2000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg2) S4000x42.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S4000x294.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S42x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S8x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S294x8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S8x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v2) S4000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v5) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S2000x6.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg17) S64x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg20) S1x128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg21) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg22) S1x128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg23) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg18) S128x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg19) S128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg24) S2x128x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg25) S2x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_arg26) S2x128x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_arg27) S2x128.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_arg11) S6x128.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_v6_0) S2000x128.size cc2_transform_17 reads2_17 true false 2 stage2_17 sem2_17
    hrank2 hreads2_17 hinb2_17 nbuf2_17 (Memref.isWhole_whole _) hwx2_17 hstage2_17

abbrev win2_18 : Pipeline.Window sig grid2 :=
  Pipeline.Window.ofSpec (Memref.whole main_v6_1) S2000x128.size cc2_transform_18 reads2_18 true false 2 stage2_18 sem2_18
    hrank2 hreads2_18 hinb2_18 nbuf2_18 (Memref.isWhole_whole _) hwx2_18 hstage2_18

abbrev win2 : Fin 19 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | ⟨_ + 19, h⟩ => absurd h (Nat.not_lt.2 (Nat.le_add_left _ _))
abbrev spec2 : Fin 19 → Pipeline.WinSpec sig grid2.rank := fun w => (win2 w).toWinSpec

class Facts : Prop extends Facts₀ where

variable [Facts]
-- ==== ReferenceIdeal.lean ====
abbrev S100000x128 : Shape := ⟨2, ![100000, 128]⟩
abbrev S100000x6 : Shape := ⟨2, ![100000, 6]⟩
abbrev S500000x42 : Shape := ⟨2, ![500000, 42]⟩
abbrev S500000x294 : Shape := ⟨2, ![500000, 294]⟩
abbrev S100000x1 : Shape := ⟨2, ![100000, 1]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S294x8 : Shape := ⟨2, ![294, 8]⟩
abbrev S6x128 : Shape := ⟨2, ![6, 128]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x128x128 : Shape := ⟨3, ![1, 128, 128]⟩
abbrev S1x128 : Shape := ⟨2, ![1, 128]⟩
abbrev S2x128x128 : Shape := ⟨3, ![2, 128, 128]⟩
abbrev S2x128 : Shape := ⟨2, ![2, 128]⟩
abbrev S500000 : Shape := ⟨1, ![500000]⟩
abbrev S_ : Shape := ⟨0, ![]⟩
abbrev S100000x8 : Shape := ⟨2, ![100000, 8]⟩
abbrev S100000x64 : Shape := ⟨2, ![100000, 64]⟩
abbrev S500000x8 : Shape := ⟨2, ![500000, 8]⟩
abbrev S500000x64 : Shape := ⟨2, ![500000, 64]⟩
abbrev S500000x1 : Shape := ⟨2, ![500000, 1]⟩

abbrev nBuf : Space → Nat
  | .hbm => 326
  | .vmem => 0
  | .smem => 0
  | _ => 0

abbrev hbmTy0_0 (i : Nat) : BufTy := match i % 128 with
  | 0 => ⟨S100000x128, .f32⟩
  | 1 => ⟨S100000x6, .f32⟩
  | 2 => ⟨S500000x42, .f32⟩
  | 3 => ⟨S500000x294, .f32⟩
  | 4 => ⟨S100000x1, .f32⟩
  | 5 => ⟨S6x8, .f32⟩
  | 6 => ⟨S8x128, .f32⟩
  | 7 => ⟨S42x8, .f32⟩
  | 8 => ⟨S8x64, .f32⟩
  | 9 => ⟨S294x8, .f32⟩
  | 10 => ⟨S8x64, .f32⟩
  | 11 => ⟨S6x128, .f32⟩
  | 12 => ⟨S128x128, .f32⟩
  | 13 => ⟨S128, .f32⟩
  | 14 => ⟨S128x128, .f32⟩
  | 15 => ⟨S128, .f32⟩
  | 16 => ⟨S128x64, .f32⟩
  | 17 => ⟨S64x128, .f32⟩
  | 18 => ⟨S128x128, .f32⟩
  | 19 => ⟨S128, .f32⟩
  | 20 => ⟨S1x128x128, .f32⟩
  | 21 => ⟨S1x128, .f32⟩
  | 22 => ⟨S1x128x128, .f32⟩
  | 23 => ⟨S1x128, .f32⟩
  | 24 => ⟨S2x128x128, .f32⟩
  | 25 => ⟨S2x128, .f32⟩
  | 26 => ⟨S2x128x128, .f32⟩
  | 27 => ⟨S2x128, .f32⟩
  | 28 => ⟨S500000, .i32⟩
  | 29 => ⟨S500000, .i32⟩
  | 30 => ⟨S100000x128, .f32⟩
  | 31 => ⟨S1x128, .f32⟩
  | 32 => ⟨S100000x128, .f32⟩
  | 33 => ⟨S100000x128, .f32⟩
  | 34 => ⟨S_, .f32⟩
  | 35 => ⟨S_, .f32⟩
  | 36 => ⟨S100000x128, .f32⟩
  | 37 => ⟨S100000x128, .i1⟩
  | 38 => ⟨S_, .f32⟩
  | 39 => ⟨S100000x128, .f32⟩
  | 40 => ⟨S100000x128, .i1⟩
  | 41 => ⟨S_, .f32⟩
  | 42 => ⟨S_, .f32⟩
  | 43 => ⟨S100000x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S_, .f32⟩
  | 59 => ⟨S100000x128, .f32⟩
  | 60 => ⟨S100000x128, .i1⟩
  | 61 => ⟨S_, .f32⟩
  | 62 => ⟨S100000x128, .f32⟩
  | 63 => ⟨S100000x128, .i1⟩
  | 64 => ⟨S_, .f32⟩
  | 65 => ⟨S_, .f32⟩
  | 66 => ⟨S100000x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x8, .f32⟩
  | 77 => ⟨S100000x128, .f32⟩
  | 78 => ⟨S100000x128, .f32⟩
  | 79 => ⟨S100000x64, .f32⟩
  | 80 => ⟨S_, .f32⟩
  | 81 => ⟨S_, .f32⟩
  | 82 => ⟨S100000x64, .f32⟩
  | 83 => ⟨S100000x64, .i1⟩
  | 84 => ⟨S_, .f32⟩
  | 85 => ⟨S100000x64, .f32⟩
  | 86 => ⟨S100000x64, .i1⟩
  | 87 => ⟨S_, .f32⟩
  | 88 => ⟨S_, .f32⟩
  | 89 => ⟨S100000x64, .f32⟩
  | 90 => ⟨S100000x64, .f32⟩
  | 91 => ⟨S100000x64, .f32⟩
  | 92 => ⟨S_, .f32⟩
  | 93 => ⟨S100000x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S500000x8, .f32⟩
  | 100 => ⟨S500000x64, .f32⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S500000x1, .i32⟩
  | 109 => ⟨S500000x64, .f32⟩
  | 110 => ⟨S500000x64, .f32⟩
  | 111 => ⟨S500000x8, .f32⟩
  | 112 => ⟨S500000x64, .f32⟩
  | 113 => ⟨S500000x64, .f32⟩
  | 114 => ⟨S_, .f32⟩
  | 115 => ⟨S100000x64, .f32⟩
  | 116 => ⟨S500000x1, .i32⟩
  | 117 => ⟨S100000x64, .f32⟩
  | 118 => ⟨S100000x128, .f32⟩
  | 119 => ⟨S_, .f32⟩
  | 120 => ⟨S_, .f32⟩
  | 121 => ⟨S100000x128, .f32⟩
  | 122 => ⟨S100000x128, .i1⟩
  | 123 => ⟨S_, .f32⟩
  | 124 => ⟨S100000x128, .f32⟩
  | 125 => ⟨S100000x128, .i1⟩
  | 126 => ⟨S_, .f32⟩
  | 127 => ⟨S_, .f32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S100000x128, .f32⟩
  | 7 => ⟨S_, .f32⟩
  | 8 => ⟨S100000x128, .f32⟩
  | 9 => ⟨S100000x128, .f32⟩
  | 10 => ⟨S100000x128, .f32⟩
  | 11 => ⟨S128x128, .f32⟩
  | 12 => ⟨S128, .f32⟩
  | 13 => ⟨S128x128, .f32⟩
  | 14 => ⟨S128, .f32⟩
  | 15 => ⟨S100000x128, .f32⟩
  | 16 => ⟨S1x128, .f32⟩
  | 17 => ⟨S100000x128, .f32⟩
  | 18 => ⟨S100000x128, .f32⟩
  | 19 => ⟨S_, .f32⟩
  | 20 => ⟨S_, .f32⟩
  | 21 => ⟨S100000x128, .f32⟩
  | 22 => ⟨S100000x128, .i1⟩
  | 23 => ⟨S_, .f32⟩
  | 24 => ⟨S100000x128, .f32⟩
  | 25 => ⟨S100000x128, .i1⟩
  | 26 => ⟨S_, .f32⟩
  | 27 => ⟨S_, .f32⟩
  | 28 => ⟨S100000x128, .f32⟩
  | 29 => ⟨S100000x128, .f32⟩
  | 30 => ⟨S100000x128, .f32⟩
  | 31 => ⟨S_, .f32⟩
  | 32 => ⟨S100000x128, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S100000x128, .f32⟩
  | 39 => ⟨S1x128, .f32⟩
  | 40 => ⟨S100000x128, .f32⟩
  | 41 => ⟨S100000x128, .f32⟩
  | 42 => ⟨S_, .f32⟩
  | 43 => ⟨S_, .f32⟩
  | 44 => ⟨S100000x128, .f32⟩
  | 45 => ⟨S100000x128, .i1⟩
  | 46 => ⟨S_, .f32⟩
  | 47 => ⟨S100000x128, .f32⟩
  | 48 => ⟨S100000x128, .i1⟩
  | 49 => ⟨S_, .f32⟩
  | 50 => ⟨S_, .f32⟩
  | 51 => ⟨S100000x128, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S100000x128, .f32⟩
  | 58 => ⟨S_, .f32⟩
  | 59 => ⟨S100000x128, .f32⟩
  | 60 => ⟨S100000x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S_, .f32⟩
  | 68 => ⟨S100000x128, .f32⟩
  | 69 => ⟨S100000x128, .i1⟩
  | 70 => ⟨S_, .f32⟩
  | 71 => ⟨S100000x128, .f32⟩
  | 72 => ⟨S100000x128, .i1⟩
  | 73 => ⟨S_, .f32⟩
  | 74 => ⟨S_, .f32⟩
  | 75 => ⟨S100000x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S100000x128, .f32⟩
  | 86 => ⟨S1x128x128, .f32⟩
  | 87 => ⟨S128x128, .f32⟩
  | 88 => ⟨S1x128, .f32⟩
  | 89 => ⟨S128, .f32⟩
  | 90 => ⟨S1x128x128, .f32⟩
  | 91 => ⟨S128x128, .f32⟩
  | 92 => ⟨S1x128, .f32⟩
  | 93 => ⟨S128, .f32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S_, .f32⟩
  | 100 => ⟨S100000x128, .f32⟩
  | 101 => ⟨S100000x128, .i1⟩
  | 102 => ⟨S_, .f32⟩
  | 103 => ⟨S100000x128, .f32⟩
  | 104 => ⟨S100000x128, .i1⟩
  | 105 => ⟨S_, .f32⟩
  | 106 => ⟨S_, .f32⟩
  | 107 => ⟨S100000x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S_, .f32⟩
  | 123 => ⟨S100000x128, .f32⟩
  | 124 => ⟨S100000x128, .i1⟩
  | 125 => ⟨S_, .f32⟩
  | 126 => ⟨S100000x128, .f32⟩
  | 127 => ⟨S100000x128, .i1⟩
  | _ => ⟨S100000x128, .f32⟩

abbrev hbmTy0_2 (i : Nat) : BufTy := match i % 128 with
  | 0 => ⟨S_, .f32⟩
  | 1 => ⟨S_, .f32⟩
  | 2 => ⟨S100000x128, .f32⟩
  | 3 => ⟨S100000x128, .f32⟩
  | 4 => ⟨S100000x128, .f32⟩
  | 5 => ⟨S_, .f32⟩
  | 6 => ⟨S100000x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S100000x128, .f32⟩
  | 13 => ⟨S1x128x128, .f32⟩
  | 14 => ⟨S128x128, .f32⟩
  | 15 => ⟨S1x128, .f32⟩
  | 16 => ⟨S128, .f32⟩
  | 17 => ⟨S1x128x128, .f32⟩
  | 18 => ⟨S128x128, .f32⟩
  | 19 => ⟨S1x128, .f32⟩
  | 20 => ⟨S128, .f32⟩
  | 21 => ⟨S100000x128, .f32⟩
  | 22 => ⟨S1x128, .f32⟩
  | 23 => ⟨S100000x128, .f32⟩
  | 24 => ⟨S100000x128, .f32⟩
  | 25 => ⟨S_, .f32⟩
  | 26 => ⟨S_, .f32⟩
  | 27 => ⟨S100000x128, .f32⟩
  | 28 => ⟨S100000x128, .i1⟩
  | 29 => ⟨S_, .f32⟩
  | 30 => ⟨S100000x128, .f32⟩
  | 31 => ⟨S100000x128, .i1⟩
  | 32 => ⟨S_, .f32⟩
  | 33 => ⟨S_, .f32⟩
  | 34 => ⟨S100000x128, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S100000x128, .f32⟩
  | 41 => ⟨S_, .f32⟩
  | 42 => ⟨S100000x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S_, .f32⟩
  | 50 => ⟨S100000x128, .f32⟩
  | 51 => ⟨S100000x128, .i1⟩
  | 52 => ⟨S_, .f32⟩
  | 53 => ⟨S100000x128, .f32⟩
  | 54 => ⟨S100000x128, .i1⟩
  | 55 => ⟨S_, .f32⟩
  | 56 => ⟨S_, .f32⟩
  | 57 => ⟨S100000x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S100000x128, .f32⟩
  | 68 => ⟨S100000x128, .f32⟩
  | 69 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_call0_cst : Ref sig .tc := ⟨.hbm, 34, rfl⟩
abbrev main_call0_call0_cst : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_call0_cst_0 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_cst_1 : Ref sig .tc := ⟨.hbm, 41, rfl⟩
abbrev main_call0_call0_call0_v0 : Ref sig .tc := ⟨.hbm, 42, rfl⟩
abbrev main_call0_call0_call0_v1 : Ref sig .tc := ⟨.hbm, 43, rfl⟩
abbrev main_call0_call0_v4 : Ref sig .tc := ⟨.hbm, 44, rfl⟩
abbrev main_call0_call0_v5 : Ref sig .tc := ⟨.hbm, 45, rfl⟩
abbrev main_call0_call0_v6 : Ref sig .tc := ⟨.hbm, 46, rfl⟩
abbrev main_call0_call0_v7 : Ref sig .tc := ⟨.hbm, 47, rfl⟩
abbrev main_call0_call0_v8 : Ref sig .tc := ⟨.hbm, 48, rfl⟩
abbrev main_call0_v0 : Ref sig .tc := ⟨.hbm, 49, rfl⟩
abbrev main_call0_cst_0 : Ref sig .tc := ⟨.hbm, 50, rfl⟩
abbrev main_call0_v1 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_call1_cst : Ref sig .tc := ⟨.hbm, 57, rfl⟩
abbrev main_call1_call0_cst : Ref sig .tc := ⟨.hbm, 58, rfl⟩
abbrev main_call1_call0_v0 : Ref sig .tc := ⟨.hbm, 59, rfl⟩
abbrev main_call1_call0_v1 : Ref sig .tc := ⟨.hbm, 60, rfl⟩
abbrev main_call1_call0_cst_0 : Ref sig .tc := ⟨.hbm, 61, rfl⟩
abbrev main_call1_call0_v2 : Ref sig .tc := ⟨.hbm, 62, rfl⟩
abbrev main_call1_call0_v3 : Ref sig .tc := ⟨.hbm, 63, rfl⟩
abbrev main_call1_call0_cst_1 : Ref sig .tc := ⟨.hbm, 64, rfl⟩
abbrev main_call1_call0_call0_v0 : Ref sig .tc := ⟨.hbm, 65, rfl⟩
abbrev main_call1_call0_call0_v1 : Ref sig .tc := ⟨.hbm, 66, rfl⟩
abbrev main_call1_call0_v4 : Ref sig .tc := ⟨.hbm, 67, rfl⟩
abbrev main_call1_call0_v5 : Ref sig .tc := ⟨.hbm, 68, rfl⟩
abbrev main_call1_call0_v6 : Ref sig .tc := ⟨.hbm, 69, rfl⟩
abbrev main_call1_call0_v7 : Ref sig .tc := ⟨.hbm, 70, rfl⟩
abbrev main_call1_call0_v8 : Ref sig .tc := ⟨.hbm, 71, rfl⟩
abbrev main_call1_v0 : Ref sig .tc := ⟨.hbm, 72, rfl⟩
abbrev main_call1_cst_0 : Ref sig .tc := ⟨.hbm, 73, rfl⟩
abbrev main_call1_v1 : Ref sig .tc := ⟨.hbm, 74, rfl⟩
abbrev main_v9 : Ref sig .tc := ⟨.hbm, 75, rfl⟩
abbrev main_v10 : Ref sig .tc := ⟨.hbm, 76, rfl⟩
abbrev main_v11 : Ref sig .tc := ⟨.hbm, 77, rfl⟩
abbrev main_v12 : Ref sig .tc := ⟨.hbm, 78, rfl⟩
abbrev main_v13 : Ref sig .tc := ⟨.hbm, 79, rfl⟩
abbrev main_call2_cst : Ref sig .tc := ⟨.hbm, 80, rfl⟩
abbrev main_call2_call0_cst : Ref sig .tc := ⟨.hbm, 81, rfl⟩
abbrev main_call2_call0_v0 : Ref sig .tc := ⟨.hbm, 82, rfl⟩
abbrev main_call2_call0_v1 : Ref sig .tc := ⟨.hbm, 83, rfl⟩
abbrev main_call2_call0_cst_0 : Ref sig .tc := ⟨.hbm, 84, rfl⟩
abbrev main_call2_call0_v2 : Ref sig .tc := ⟨.hbm, 85, rfl⟩
abbrev main_call2_call0_v3 : Ref sig .tc := ⟨.hbm, 86, rfl⟩
abbrev main_call2_call0_cst_1 : Ref sig .tc := ⟨.hbm, 87, rfl⟩
abbrev main_call2_call0_call0_v0 : Ref sig .tc := ⟨.hbm, 88, rfl⟩
abbrev main_call2_call0_call0_v1 : Ref sig .tc := ⟨.hbm, 89, rfl⟩
abbrev main_call2_call0_v4 : Ref sig .tc := ⟨.hbm, 90, rfl⟩
abbrev main_call2_call0_v5 : Ref sig .tc := ⟨.hbm, 91, rfl⟩
abbrev main_call2_call0_v6 : Ref sig .tc := ⟨.hbm, 92, rfl⟩
abbrev main_call2_call0_v7 : Ref sig .tc := ⟨.hbm, 93, rfl⟩
abbrev main_call2_call0_v8 : Ref sig .tc := ⟨.hbm, 94, rfl⟩
abbrev main_call2_v0 : Ref sig .tc := ⟨.hbm, 95, rfl⟩
abbrev main_call2_cst_0 : Ref sig .tc := ⟨.hbm, 96, rfl⟩
abbrev main_call2_v1 : Ref sig .tc := ⟨.hbm, 97, rfl⟩
abbrev main_v14 : Ref sig .tc := ⟨.hbm, 98, rfl⟩
abbrev main_v15 : Ref sig .tc := ⟨.hbm, 99, rfl⟩
abbrev main_v16 : Ref sig .tc := ⟨.hbm, 100, rfl⟩
abbrev main_c : Ref sig .tc := ⟨.hbm, 101, rfl⟩
abbrev main_v17 : Ref sig .tc := ⟨.hbm, 102, rfl⟩
abbrev main_v18 : Ref sig .tc := ⟨.hbm, 103, rfl⟩
abbrev main_c_0 : Ref sig .tc := ⟨.hbm, 104, rfl⟩
abbrev main_v19 : Ref sig .tc := ⟨.hbm, 105, rfl⟩
abbrev main_v20 : Ref sig .tc := ⟨.hbm, 106, rfl⟩
abbrev main_v21 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_v25 : Ref sig .tc := ⟨.hbm, 111, rfl⟩
abbrev main_v26 : Ref sig .tc := ⟨.hbm, 112, rfl⟩
abbrev main_v27 : Ref sig .tc := ⟨.hbm, 113, rfl⟩
abbrev main_cst : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_call3_cst : Ref sig .tc := ⟨.hbm, 119, rfl⟩
abbrev main_call3_call0_cst : Ref sig .tc := ⟨.hbm, 120, rfl⟩
abbrev main_call3_call0_v0 : Ref sig .tc := ⟨.hbm, 121, rfl⟩
abbrev main_call3_call0_v1 : Ref sig .tc := ⟨.hbm, 122, rfl⟩
abbrev main_call3_call0_cst_0 : Ref sig .tc := ⟨.hbm, 123, rfl⟩
abbrev main_call3_call0_v2 : Ref sig .tc := ⟨.hbm, 124, rfl⟩
abbrev main_call3_call0_v3 : Ref sig .tc := ⟨.hbm, 125, rfl⟩
abbrev main_call3_call0_cst_1 : Ref sig .tc := ⟨.hbm, 126, rfl⟩
abbrev main_call3_call0_call0_v0 : Ref sig .tc := ⟨.hbm, 127, rfl⟩
abbrev main_call3_call0_call0_v1 : Ref sig .tc := ⟨.hbm, 128, rfl⟩
abbrev main_call3_call0_v4 : Ref sig .tc := ⟨.hbm, 129, rfl⟩
abbrev main_call3_call0_v5 : Ref sig .tc := ⟨.hbm, 130, rfl⟩
abbrev main_call3_call0_v6 : Ref sig .tc := ⟨.hbm, 131, rfl⟩
abbrev main_call3_call0_v7 : Ref sig .tc := ⟨.hbm, 132, rfl⟩
abbrev main_call3_call0_v8 : Ref sig .tc := ⟨.hbm, 133, rfl⟩
abbrev main_call3_v0 : Ref sig .tc := ⟨.hbm, 134, rfl⟩
abbrev main_call3_cst_0 : Ref sig .tc := ⟨.hbm, 135, rfl⟩
abbrev main_call3_v1 : Ref sig .tc := ⟨.hbm, 136, rfl⟩
abbrev main_v32 : Ref sig .tc := ⟨.hbm, 137, rfl⟩
abbrev main_v33 : Ref sig .tc := ⟨.hbm, 138, rfl⟩
abbrev main_v34 : Ref sig .tc := ⟨.hbm, 139, rfl⟩
abbrev main_v35 : Ref sig .tc := ⟨.hbm, 140, rfl⟩
abbrev main_v36 : Ref sig .tc := ⟨.hbm, 141, rfl⟩
abbrev main_v37 : Ref sig .tc := ⟨.hbm, 142, rfl⟩
abbrev main_v38 : Ref sig .tc := ⟨.hbm, 143, rfl⟩
abbrev main_v39 : Ref sig .tc := ⟨.hbm, 144, rfl⟩
abbrev main_v40 : Ref sig .tc := ⟨.hbm, 145, rfl⟩
abbrev main_v41 : Ref sig .tc := ⟨.hbm, 146, rfl⟩
abbrev main_call4_cst : Ref sig .tc := ⟨.hbm, 147, rfl⟩
abbrev main_call4_call0_cst : Ref sig .tc := ⟨.hbm, 148, rfl⟩
abbrev main_call4_call0_v0 : Ref sig .tc := ⟨.hbm, 149, rfl⟩
abbrev main_call4_call0_v1 : Ref sig .tc := ⟨.hbm, 150, rfl⟩
abbrev main_call4_call0_cst_0 : Ref sig .tc := ⟨.hbm, 151, rfl⟩
abbrev main_call4_call0_v2 : Ref sig .tc := ⟨.hbm, 152, rfl⟩
abbrev main_call4_call0_v3 : Ref sig .tc := ⟨.hbm, 153, rfl⟩
abbrev main_call4_call0_cst_1 : Ref sig .tc := ⟨.hbm, 154, rfl⟩
abbrev main_call4_call0_call0_v0 : Ref sig .tc := ⟨.hbm, 155, rfl⟩
abbrev main_call4_call0_call0_v1 : Ref sig .tc := ⟨.hbm, 156, rfl⟩
abbrev main_call4_call0_v4 : Ref sig .tc := ⟨.hbm, 157, rfl⟩
abbrev main_call4_call0_v5 : Ref sig .tc := ⟨.hbm, 158, rfl⟩
abbrev main_call4_call0_v6 : Ref sig .tc := ⟨.hbm, 159, rfl⟩
abbrev main_call4_call0_v7 : Ref sig .tc := ⟨.hbm, 160, rfl⟩
abbrev main_call4_call0_v8 : Ref sig .tc := ⟨.hbm, 161, rfl⟩
abbrev main_call4_v0 : Ref sig .tc := ⟨.hbm, 162, rfl⟩
abbrev main_call4_cst_0 : Ref sig .tc := ⟨.hbm, 163, rfl⟩
abbrev main_call4_v1 : Ref sig .tc := ⟨.hbm, 164, rfl⟩
abbrev main_v42 : Ref sig .tc := ⟨.hbm, 165, rfl⟩
abbrev main_v43 : Ref sig .tc := ⟨.hbm, 166, rfl⟩
abbrev main_v44 : Ref sig .tc := ⟨.hbm, 167, rfl⟩
abbrev main_v45 : Ref sig .tc := ⟨.hbm, 168, rfl⟩
abbrev main_v46 : Ref sig .tc := ⟨.hbm, 169, rfl⟩
abbrev main_call5_cst : Ref sig .tc := ⟨.hbm, 170, rfl⟩
abbrev main_call5_call0_cst : Ref sig .tc := ⟨.hbm, 171, rfl⟩
abbrev main_call5_call0_v0 : Ref sig .tc := ⟨.hbm, 172, rfl⟩
abbrev main_call5_call0_v1 : Ref sig .tc := ⟨.hbm, 173, rfl⟩
abbrev main_call5_call0_cst_0 : Ref sig .tc := ⟨.hbm, 174, rfl⟩
abbrev main_call5_call0_v2 : Ref sig .tc := ⟨.hbm, 175, rfl⟩
abbrev main_call5_call0_v3 : Ref sig .tc := ⟨.hbm, 176, rfl⟩
abbrev main_call5_call0_cst_1 : Ref sig .tc := ⟨.hbm, 177, rfl⟩
abbrev main_call5_call0_call0_v0 : Ref sig .tc := ⟨.hbm, 178, rfl⟩
abbrev main_call5_call0_call0_v1 : Ref sig .tc := ⟨.hbm, 179, rfl⟩
abbrev main_call5_call0_v4 : Ref sig .tc := ⟨.hbm, 180, rfl⟩
abbrev main_call5_call0_v5 : Ref sig .tc := ⟨.hbm, 181, rfl⟩
abbrev main_call5_call0_v6 : Ref sig .tc := ⟨.hbm, 182, rfl⟩
abbrev main_call5_call0_v7 : Ref sig .tc := ⟨.hbm, 183, rfl⟩
abbrev main_call5_call0_v8 : Ref sig .tc := ⟨.hbm, 184, rfl⟩
abbrev main_call5_v0 : Ref sig .tc := ⟨.hbm, 185, rfl⟩
abbrev main_call5_cst_0 : Ref sig .tc := ⟨.hbm, 186, rfl⟩
abbrev main_call5_v1 : Ref sig .tc := ⟨.hbm, 187, rfl⟩
abbrev main_v47 : Ref sig .tc := ⟨.hbm, 188, rfl⟩
abbrev main_v48 : Ref sig .tc := ⟨.hbm, 189, rfl⟩
abbrev main_v49 : Ref sig .tc := ⟨.hbm, 190, rfl⟩
abbrev main_v50 : Ref sig .tc := ⟨.hbm, 191, rfl⟩
abbrev main_v51 : Ref sig .tc := ⟨.hbm, 192, rfl⟩
abbrev main_v52 : Ref sig .tc := ⟨.hbm, 193, rfl⟩
abbrev main_call6_cst : Ref sig .tc := ⟨.hbm, 194, rfl⟩
abbrev main_call6_call0_cst : Ref sig .tc := ⟨.hbm, 195, rfl⟩
abbrev main_call6_call0_v0 : Ref sig .tc := ⟨.hbm, 196, rfl⟩
abbrev main_call6_call0_v1 : Ref sig .tc := ⟨.hbm, 197, rfl⟩
abbrev main_call6_call0_cst_0 : Ref sig .tc := ⟨.hbm, 198, rfl⟩
abbrev main_call6_call0_v2 : Ref sig .tc := ⟨.hbm, 199, rfl⟩
abbrev main_call6_call0_v3 : Ref sig .tc := ⟨.hbm, 200, rfl⟩
abbrev main_call6_call0_cst_1 : Ref sig .tc := ⟨.hbm, 201, rfl⟩
abbrev main_call6_call0_call0_v0 : Ref sig .tc := ⟨.hbm, 202, rfl⟩
abbrev main_call6_call0_call0_v1 : Ref sig .tc := ⟨.hbm, 203, rfl⟩
abbrev main_call6_call0_v4 : Ref sig .tc := ⟨.hbm, 204, rfl⟩
abbrev main_call6_call0_v5 : Ref sig .tc := ⟨.hbm, 205, rfl⟩
abbrev main_call6_call0_v6 : Ref sig .tc := ⟨.hbm, 206, rfl⟩
abbrev main_call6_call0_v7 : Ref sig .tc := ⟨.hbm, 207, rfl⟩
abbrev main_call6_call0_v8 : Ref sig .tc := ⟨.hbm, 208, rfl⟩
abbrev main_call6_v0 : Ref sig .tc := ⟨.hbm, 209, rfl⟩
abbrev main_call6_cst_0 : Ref sig .tc := ⟨.hbm, 210, rfl⟩
abbrev main_call6_v1 : Ref sig .tc := ⟨.hbm, 211, rfl⟩
abbrev main_v53 : Ref sig .tc := ⟨.hbm, 212, rfl⟩
abbrev main_v54 : Ref sig .tc := ⟨.hbm, 213, rfl⟩
abbrev main_v55 : Ref sig .tc := ⟨.hbm, 214, rfl⟩
abbrev main_v56 : Ref sig .tc := ⟨.hbm, 215, rfl⟩
abbrev main_v57 : Ref sig .tc := ⟨.hbm, 216, rfl⟩
abbrev main_v58 : Ref sig .tc := ⟨.hbm, 217, rfl⟩
abbrev main_v59 : Ref sig .tc := ⟨.hbm, 218, rfl⟩
abbrev main_v60 : Ref sig .tc := ⟨.hbm, 219, rfl⟩
abbrev main_v61 : Ref sig .tc := ⟨.hbm, 220, rfl⟩
abbrev main_v62 : Ref sig .tc := ⟨.hbm, 221, rfl⟩
abbrev main_v63 : Ref sig .tc := ⟨.hbm, 222, rfl⟩
abbrev main_v64 : Ref sig .tc := ⟨.hbm, 223, rfl⟩
abbrev main_v65 : Ref sig .tc := ⟨.hbm, 224, rfl⟩
abbrev main_v66 : Ref sig .tc := ⟨.hbm, 225, rfl⟩
abbrev main_call7_cst : Ref sig .tc := ⟨.hbm, 226, rfl⟩
abbrev main_call7_call0_cst : Ref sig .tc := ⟨.hbm, 227, rfl⟩
abbrev main_call7_call0_v0 : Ref sig .tc := ⟨.hbm, 228, rfl⟩
abbrev main_call7_call0_v1 : Ref sig .tc := ⟨.hbm, 229, rfl⟩
abbrev main_call7_call0_cst_0 : Ref sig .tc := ⟨.hbm, 230, rfl⟩
abbrev main_call7_call0_v2 : Ref sig .tc := ⟨.hbm, 231, rfl⟩
abbrev main_call7_call0_v3 : Ref sig .tc := ⟨.hbm, 232, rfl⟩
abbrev main_call7_call0_cst_1 : Ref sig .tc := ⟨.hbm, 233, rfl⟩
abbrev main_call7_call0_call0_v0 : Ref sig .tc := ⟨.hbm, 234, rfl⟩
abbrev main_call7_call0_call0_v1 : Ref sig .tc := ⟨.hbm, 235, rfl⟩
abbrev main_call7_call0_v4 : Ref sig .tc := ⟨.hbm, 236, rfl⟩
abbrev main_call7_call0_v5 : Ref sig .tc := ⟨.hbm, 237, rfl⟩
abbrev main_call7_call0_v6 : Ref sig .tc := ⟨.hbm, 238, rfl⟩
abbrev main_call7_call0_v7 : Ref sig .tc := ⟨.hbm, 239, rfl⟩
abbrev main_call7_call0_v8 : Ref sig .tc := ⟨.hbm, 240, rfl⟩
abbrev main_call7_v0 : Ref sig .tc := ⟨.hbm, 241, rfl⟩
abbrev main_call7_cst_0 : Ref sig .tc := ⟨.hbm, 242, rfl⟩
abbrev main_call7_v1 : Ref sig .tc := ⟨.hbm, 243, rfl⟩
abbrev main_v67 : Ref sig .tc := ⟨.hbm, 244, rfl⟩
abbrev main_v68 : Ref sig .tc := ⟨.hbm, 245, rfl⟩
abbrev main_v69 : Ref sig .tc := ⟨.hbm, 246, rfl⟩
abbrev main_v70 : Ref sig .tc := ⟨.hbm, 247, rfl⟩
abbrev main_v71 : Ref sig .tc := ⟨.hbm, 248, rfl⟩
abbrev main_call8_cst : Ref sig .tc := ⟨.hbm, 249, rfl⟩
abbrev main_call8_call0_cst : Ref sig .tc := ⟨.hbm, 250, rfl⟩
abbrev main_call8_call0_v0 : Ref sig .tc := ⟨.hbm, 251, rfl⟩
abbrev main_call8_call0_v1 : Ref sig .tc := ⟨.hbm, 252, rfl⟩
abbrev main_call8_call0_cst_0 : Ref sig .tc := ⟨.hbm, 253, rfl⟩
abbrev main_call8_call0_v2 : Ref sig .tc := ⟨.hbm, 254, rfl⟩
abbrev main_call8_call0_v3 : Ref sig .tc := ⟨.hbm, 255, rfl⟩
abbrev main_call8_call0_cst_1 : Ref sig .tc := ⟨.hbm, 256, rfl⟩
abbrev main_call8_call0_call0_v0 : Ref sig .tc := ⟨.hbm, 257, rfl⟩
abbrev main_call8_call0_call0_v1 : Ref sig .tc := ⟨.hbm, 258, rfl⟩
abbrev main_call8_call0_v4 : Ref sig .tc := ⟨.hbm, 259, rfl⟩
abbrev main_call8_call0_v5 : Ref sig .tc := ⟨.hbm, 260, rfl⟩
abbrev main_call8_call0_v6 : Ref sig .tc := ⟨.hbm, 261, rfl⟩
abbrev main_call8_call0_v7 : Ref sig .tc := ⟨.hbm, 262, rfl⟩
abbrev main_call8_call0_v8 : Ref sig .tc := ⟨.hbm, 263, rfl⟩
abbrev main_call8_v0 : Ref sig .tc := ⟨.hbm, 264, rfl⟩
abbrev main_call8_cst_0 : Ref sig .tc := ⟨.hbm, 265, rfl⟩
abbrev main_call8_v1 : Ref sig .tc := ⟨.hbm, 266, rfl⟩
abbrev main_v72 : Ref sig .tc := ⟨.hbm, 267, rfl⟩
abbrev main_v73 : Ref sig .tc := ⟨.hbm, 268, rfl⟩
abbrev main_v74 : Ref sig .tc := ⟨.hbm, 269, rfl⟩
abbrev main_v75 : Ref sig .tc := ⟨.hbm, 270, rfl⟩
abbrev main_v76 : Ref sig .tc := ⟨.hbm, 271, rfl⟩
abbrev main_v77 : Ref sig .tc := ⟨.hbm, 272, rfl⟩
abbrev main_v78 : Ref sig .tc := ⟨.hbm, 273, rfl⟩
abbrev main_v79 : Ref sig .tc := ⟨.hbm, 274, rfl⟩
abbrev main_v80 : Ref sig .tc := ⟨.hbm, 275, rfl⟩
abbrev main_v81 : Ref sig .tc := ⟨.hbm, 276, rfl⟩
abbrev main_v82 : Ref sig .tc := ⟨.hbm, 277, rfl⟩
abbrev main_v83 : Ref sig .tc := ⟨.hbm, 278, rfl⟩
abbrev main_v84 : Ref sig .tc := ⟨.hbm, 279, rfl⟩
abbrev main_v85 : Ref sig .tc := ⟨.hbm, 280, rfl⟩
abbrev main_call9_cst : Ref sig .tc := ⟨.hbm, 281, rfl⟩
abbrev main_call9_call0_cst : Ref sig .tc := ⟨.hbm, 282, rfl⟩
abbrev main_call9_call0_v0 : Ref sig .tc := ⟨.hbm, 283, rfl⟩
abbrev main_call9_call0_v1 : Ref sig .tc := ⟨.hbm, 284, rfl⟩
abbrev main_call9_call0_cst_0 : Ref sig .tc := ⟨.hbm, 285, rfl⟩
abbrev main_call9_call0_v2 : Ref sig .tc := ⟨.hbm, 286, rfl⟩
abbrev main_call9_call0_v3 : Ref sig .tc := ⟨.hbm, 287, rfl⟩
abbrev main_call9_call0_cst_1 : Ref sig .tc := ⟨.hbm, 288, rfl⟩
abbrev main_call9_call0_call0_v0 : Ref sig .tc := ⟨.hbm, 289, rfl⟩
abbrev main_call9_call0_call0_v1 : Ref sig .tc := ⟨.hbm, 290, rfl⟩
abbrev main_call9_call0_v4 : Ref sig .tc := ⟨.hbm, 291, rfl⟩
abbrev main_call9_call0_v5 : Ref sig .tc := ⟨.hbm, 292, rfl⟩
abbrev main_call9_call0_v6 : Ref sig .tc := ⟨.hbm, 293, rfl⟩
abbrev main_call9_call0_v7 : Ref sig .tc := ⟨.hbm, 294, rfl⟩
abbrev main_call9_call0_v8 : Ref sig .tc := ⟨.hbm, 295, rfl⟩
abbrev main_call9_v0 : Ref sig .tc := ⟨.hbm, 296, rfl⟩
abbrev main_call9_cst_0 : Ref sig .tc := ⟨.hbm, 297, rfl⟩
abbrev main_call9_v1 : Ref sig .tc := ⟨.hbm, 298, rfl⟩
abbrev main_v86 : Ref sig .tc := ⟨.hbm, 299, rfl⟩
abbrev main_v87 : Ref sig .tc := ⟨.hbm, 300, rfl⟩
abbrev main_v88 : Ref sig .tc := ⟨.hbm, 301, rfl⟩
abbrev main_v89 : Ref sig .tc := ⟨.hbm, 302, rfl⟩
abbrev main_v90 : Ref sig .tc := ⟨.hbm, 303, rfl⟩
abbrev main_call10_cst : Ref sig .tc := ⟨.hbm, 304, rfl⟩
abbrev main_call10_call0_cst : Ref sig .tc := ⟨.hbm, 305, rfl⟩
abbrev main_call10_call0_v0 : Ref sig .tc := ⟨.hbm, 306, rfl⟩
abbrev main_call10_call0_v1 : Ref sig .tc := ⟨.hbm, 307, rfl⟩
abbrev main_call10_call0_cst_0 : Ref sig .tc := ⟨.hbm, 308, rfl⟩
abbrev main_call10_call0_v2 : Ref sig .tc := ⟨.hbm, 309, rfl⟩
abbrev main_call10_call0_v3 : Ref sig .tc := ⟨.hbm, 310, rfl⟩
abbrev main_call10_call0_cst_1 : Ref sig .tc := ⟨.hbm, 311, rfl⟩
abbrev main_call10_call0_call0_v0 : Ref sig .tc := ⟨.hbm, 312, rfl⟩
abbrev main_call10_call0_call0_v1 : Ref sig .tc := ⟨.hbm, 313, rfl⟩
abbrev main_call10_call0_v4 : Ref sig .tc := ⟨.hbm, 314, rfl⟩
abbrev main_call10_call0_v5 : Ref sig .tc := ⟨.hbm, 315, rfl⟩
abbrev main_call10_call0_v6 : Ref sig .tc := ⟨.hbm, 316, rfl⟩
abbrev main_call10_call0_v7 : Ref sig .tc := ⟨.hbm, 317, rfl⟩
abbrev main_call10_call0_v8 : Ref sig .tc := ⟨.hbm, 318, rfl⟩
abbrev main_call10_v0 : Ref sig .tc := ⟨.hbm, 319, rfl⟩
abbrev main_call10_cst_0 : Ref sig .tc := ⟨.hbm, 320, rfl⟩
abbrev main_call10_v1 : Ref sig .tc := ⟨.hbm, 321, rfl⟩
abbrev main_v91 : Ref sig .tc := ⟨.hbm, 322, rfl⟩
abbrev main_v92 : Ref sig .tc := ⟨.hbm, 323, rfl⟩
abbrev main_v93 : Ref sig .tc := ⟨.hbm, 324, rfl⟩
abbrev main_v94 : Ref sig .tc := ⟨.hbm, 325, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S100000x64 : S_.BroadcastsInDim S100000x64 (![] : Fin 0 → Fin S100000x64.rank)
  bcast_S_S500000 : S_.BroadcastsInDim S500000 (![] : Fin 0 → Fin S500000.rank)
  bcast_S500000_S500000x1_0 : S500000.BroadcastsInDim S500000x1 (![0] : Fin 1 → Fin S500000x1.rank)
  shapeCasts_S1x128x128_S128x128 : S1x128x128.ShapeCasts S128x128
  shapeCasts_S1x128_S128 : S1x128.ShapeCasts S128
  slices_S2x128x128_S1x128x128_0_0_0 : S2x128x128.Slices ![0, 0, 0] S1x128x128
  slices_S2x128_S1x128_0_0 : S2x128.Slices ![0, 0] S1x128
  slices_S2x128x128_S1x128x128_1_0_0 : S2x128x128.Slices ![1, 0, 0] S1x128x128
  slices_S2x128_S1x128_1_0 : S2x128.Slices ![1, 0] S1x128
  dot_S100000x128_S128x128_S100000x128_1_0_0_1_n_n_wf : DotDims.WF S100000x128 S128x128 S100000x128 [1] [0] [0] [1] [] []
  dot_S100000x6_S6x8_S100000x8_1_0_0_1_n_n_wf : DotDims.WF S100000x6 S6x8 S100000x8 [1] [0] [0] [1] [] []
  dot_S100000x8_S8x128_S100000x128_1_0_0_1_n_n_wf : DotDims.WF S100000x8 S8x128 S100000x128 [1] [0] [0] [1] [] []
  dot_S100000x128_S128x64_S100000x64_1_0_0_1_n_n_wf : DotDims.WF S100000x128 S128x64 S100000x64 [1] [0] [0] [1] [] []
  dot_S500000x42_S42x8_S500000x8_1_0_0_1_n_n_wf : DotDims.WF S500000x42 S42x8 S500000x8 [1] [0] [0] [1] [] []
  dot_S500000x8_S8x64_S500000x64_1_0_0_1_n_n_wf : DotDims.WF S500000x8 S8x64 S500000x64 [1] [0] [0] [1] [] []
  gather_S100000x64_S500000x1_S500000x64_1_0_n_n_0_1_164_wf : GatherDims.WF S100000x64 S500000x1 S500000x64 [1] [0] [] [0] [] 1 ![1, 64]
  dot_S500000x294_S294x8_S500000x8_1_0_0_1_n_n_wf : DotDims.WF S500000x294 S294x8 S500000x8 [1] [0] [0] [1] [] []
  scatter_S100000x64_S500000x1_S500000x64_1_0_0_1_wf : ScatterDims.WF S100000x64 S500000x1 S500000x64 [1] [0] [0] 1
  dot_S100000x64_S64x128_S100000x128_1_0_0_1_n_n_wf : DotDims.WF S100000x64 S64x128 S100000x128 [1] [0] [0] [1] [] []
  dot_S100000x6_S6x128_S100000x128_1_0_0_1_n_n_wf : DotDims.WF S100000x6 S6x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x6_S6x8_S100000x8_1_0_0_1_n_n : DotDims S100000x6 S6x8 S100000x8 where
  lhsContracting := [1]
  rhsContracting := [0]
  lhsNonContracting := [0]
  rhsNonContracting := [1]
  lhsBatch := []
  rhsBatch := []
  wf := dot_S100000x6_S6x8_S100000x8_1_0_0_1_n_n_wf
def dot_S100000x8_S8x128_S100000x128_1_0_0_1_n_n : DotDims S100000x8 S8x128 S100000x128 where
  lhsContracting := [1]
  rhsContracting := [0]
  lhsNonContracting := [0]
  rhsNonContracting := [1]
  lhsBatch := []
  rhsBatch := []
  wf := dot_S100000x8_S8x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S500000x42_S42x8_S500000x8_1_0_0_1_n_n : DotDims S500000x42 S42x8 S500000x8 where
  lhsContracting := [1]
  rhsContracting := [0]
  lhsNonContracting := [0]
  rhsNonContracting := [1]
  lhsBatch := []
  rhsBatch := []
  wf := dot_S500000x42_S42x8_S500000x8_1_0_0_1_n_n_wf
def dot_S500000x8_S8x64_S500000x64_1_0_0_1_n_n : DotDims S500000x8 S8x64 S500000x64 where
  lhsContracting := [1]
  rhsContracting := [0]
  lhsNonContracting := [0]
  rhsNonContracting := [1]
  lhsBatch := []
  rhsBatch := []
  wf := dot_S500000x8_S8x64_S500000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S500000x294_S294x8_S500000x8_1_0_0_1_n_n : DotDims S500000x294 S294x8 S500000x8 where
  lhsContracting := [1]
  rhsContracting := [0]
  lhsNonContracting := [0]
  rhsNonContracting := [1]
  lhsBatch := []
  rhsBatch := []
  wf := dot_S500000x294_S294x8_S500000x8_1_0_0_1_n_n_wf
def scatter_S100000x64_S500000x1_S500000x64_1_0_0_1 : ScatterDims S100000x64 S500000x1 S500000x64 where
  updateWindowDims := [1]
  insertedWindowDims := [0]
  scatterDimsToOperandDims := [0]
  indexVectorDim := 1
  wf := scatter_S100000x64_S500000x1_S500000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x6_S6x128_S100000x128_1_0_0_1_n_n : DotDims S100000x6 S6x128 S100000x128 where
  lhsContracting := [1]
  rhsContracting := [0]
  lhsNonContracting := [0]
  rhsNonContracting := [1]
  lhsBatch := []
  rhsBatch := []
  wf := dot_S100000x6_S6x128_S100000x128_1_0_0_1_n_n_wf

class Facts : Prop extends Facts₀ where

variable [Facts]
-- ==== Proof.Spec.lean ====
/-
  The mathematics both programs compute, written once over plain matrices of extended reals with the
  number of rows a parameter: the kernel applies these functions to blocks of 2000 or 4000 rows, the
  reference to whole arrays of 100000 or 500000 rows, and every one of them acts row by row.
  * `mm A B`: the matrix product, entry (r, c) the sum over k of A(r,k)·B(k,c).
  * `seluS`: the scaled exponential linear unit, scale·(x if x > 0 else alpha·(exp x − 1)), with the two
    constants kept as their binary words.
  * stage A (per edge): selu((selu(X1·Wkj + bkj) ⊙ ((RBF·W1)·W2))·Wdown).
  * stage B (per triplet): (G ⊙ ((SBF·Ws1)·Ws2)) ⊙ ((T·Wt1)·Wt2), G the gathered rows of stage A.
  * stage C (per edge): the residual network on selu(X1·Wji + bji) + selu(S·Wup), S the segment sums of
    stage B, giving e1, and e2 = (RBF·Wrbf) ⊙ e1.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- An M×N matrix of extended reals, as the vector type both programs use at the ideal values. -/
abbrev Mat (M N : Nat) : Type := FVec Ideal ⟨2, ![M, N]⟩ .f32
/-- A vector of N extended reals. -/
abbrev Row (N : Nat) : Type := FVec Ideal ⟨1, ![N]⟩ .f32
/-- A stack of G matrices. -/
abbrev Stack (G M N : Nat) : Type := FVec Ideal ⟨3, ![G, M, N]⟩ .f32

/-- The matrix product, entry by entry. -/
def mm {M K N : Nat} (A : Mat M K) (B : Mat K N) : Mat M N :=
  fun i => ∑ c : Fin K, A (ix2 (i 0) c) * B (ix2 c (i 1))

/-- selu on one extended real: scale · (x if x > 0, else alpha · (exp x − 1)). -/
def seluS (x : EReal) : EReal :=
  Ideal.ofBits .f32 0x3F867D5F#32 *
    Scalar.select (Ideal.cmp .ogt x (Ideal.ofBits .f32 0x00000000#32)) x
      (Ideal.ofBits .f32 0x3FD62D7D#32 * (Ideal.exp x - Ideal.ofBits .f32 0x3F800000#32))

/-- selu entry by entry. -/
def seluM {M N : Nat} (X : Mat M N) : Mat M N := fun i => seluS (X i)
/-- The entrywise sum. -/
def addM {M N : Nat} (X Y : Mat M N) : Mat M N := fun i => X i + Y i
/-- The entrywise product. -/
def mulM {M N : Nat} (X Y : Mat M N) : Mat M N := fun i => X i * Y i
/-- A bias vector added to every row. -/
def addRow {M N : Nat} (X : Mat M N) (b : Row N) : Mat M N := fun i => X i + b (ix1 (i 1))
/-- Member g of a stack of matrices. -/
def member {G M N : Nat} (W : Stack G M N) (g : Fin G) : Mat M N := fun i => W (ix3 g (i 0) (i 1))
/-- Row g of a matrix, as a vector. -/
def rowOf {G N : Nat} (b : Mat G N) (g : Fin G) : Row N := fun i => b (ix2 g (i 0))

/-- Rows o, o+1, …, o+M−1 of a taller matrix. -/
def rowsAt {M' N : Nat} (M o : Nat) (h : o + M ≤ M') (X : Mat M' N) : Mat M N :=
  fun i => X (ix2 ⟨o + (i 0).val, by have hi : (i 0).val < M := (i 0).isLt; omega⟩ (i 1))

/-- Stage A, the per-edge preparation. -/
def stageA {M : Nat} (X1 : Mat M 128) (RBF : Mat M 6) (Wkj : Mat 128 128) (bkj : Row 128) (W1 : Mat 6 8) (W2 : Mat 8 128)
    (Wd : Mat 128 64) : Mat M 64 :=
  seluM (mm (mulM (seluM (addRow (mm X1 Wkj) bkj)) (mm (mm RBF W1) W2)) Wd)

/-- Stage B, the per-triplet message, from the gathered rows G of stage A. -/
def stageB {M : Nat} (SBF : Mat M 42) (T : Mat M 294) (G : Mat M 64) (Ws1 : Mat 42 8) (Ws2 : Mat 8 64) (Wt1 : Mat 294 8)
    (Wt2 : Mat 8 64) : Mat M 64 :=
  mulM (mulM G (mm (mm SBF Ws1) Ws2)) (mm (mm T Wt1) Wt2)

/-- One residual block: x + selu(selu(x·W1 + b1)·W2 + b2). -/
def resBlock {M : Nat} (X : Mat M 128) (W1 : Mat 128 128) (b1 : Row 128) (W2 : Mat 128 128) (b2 : Row 128) : Mat M 128 :=
  addM X (seluM (addRow (mm (seluM (addRow (mm X W1) b1)) W2) b2))

/-- Stage C's first result e1, from x_ji = selu(X1·Wji + bji) (given as XJI) and the segment sums S of stage B. -/
def stageC1core {M : Nat} (XJI : Mat M 128) (S : Mat M 64) (X1 : Mat M 128) (Wup : Mat 64 128)
    (rbW1 : Stack 1 128 128) (rbb1 : Mat 1 128) (rbW2 : Stack 1 128 128) (rbb2 : Mat 1 128)
    (Wlin : Mat 128 128) (blin : Row 128)
    (raW1 : Stack 2 128 128) (rab1 : Mat 2 128) (raW2 : Stack 2 128 128) (rab2 : Mat 2 128) : Mat M 128 :=
  resBlock
    (resBlock
      (addM (seluM (addRow (mm
        (resBlock (addM XJI (seluM (mm S Wup)))
          (member rbW1 0) (rowOf rbb1 0) (member rbW2 0) (rowOf rbb2 0)) Wlin) blin)) X1)
      (member raW1 0) (rowOf rab1 0) (member raW2 0) (rowOf rab2 0))
    (member raW1 1) (rowOf rab1 1) (member raW2 1) (rowOf rab2 1)

/-- x_ji = selu(X1·Wji + bji). -/
def xji {M : Nat} (X1 : Mat M 128) (Wji : Mat 128 128) (bji : Row 128) : Mat M 128 := seluM (addRow (mm X1 Wji) bji)

/-- Stage C's first result e1. -/
def stageC1 {M : Nat} (S : Mat M 64) (X1 : Mat M 128) (Wji : Mat 128 128) (bji : Row 128) (Wup : Mat 64 128)
    (rbW1 : Stack 1 128 128) (rbb1 : Mat 1 128) (rbW2 : Stack 1 128 128) (rbb2 : Mat 1 128)
    (Wlin : Mat 128 128) (blin : Row 128)
    (raW1 : Stack 2 128 128) (rab1 : Mat 2 128) (raW2 : Stack 2 128 128) (rab2 : Mat 2 128) : Mat M 128 :=
  stageC1core (xji X1 Wji bji) S X1 Wup rbW1 rbb1 rbW2 rbb2 Wlin blin raW1 rab1 raW2 rab2

/-- Stage C's second result e2 = (RBF·Wrbf) ⊙ e1. -/
def stageC2 {M : Nat} (RBF : Mat M 6) (Wrbf : Mat 6 128) (E1 : Mat M 128) : Mat M 128 :=
  mulM (mm RBF Wrbf) E1

end Cert.Spec

end
-- ==== Proof.SpecRows.lean ====
/-
  Every function of the specification acts row by row: taking rows o … o+M−1 of the result is the same as
  applying the function to those rows of the row-indexed operands (the weights are shared by all rows).
  This is what lets a block of 2000 or 4000 rows computed by the kernel be read as the corresponding rows
  of the whole-array function the reference computes.
-/
import proofs.«426082_j5952824672726_2_alg».proof.Proof.Spec

noncomputable section

open scoped BigOperators

namespace Cert.Spec

open Idealize.ShloMosaic Idealize.ShloMosaic.ValueIdx

variable {M' : Nat} (M o : Nat) (h : o + M ≤ M')

theorem rowsAt_mm {K N : Nat} (A : Mat M' K) (B : Mat K N) : rowsAt M o h (mm A B) = mm (rowsAt M o h A) B := by
  funext i; rfl

theorem rowsAt_seluM {N : Nat} (X : Mat M' N) : rowsAt M o h (seluM X) = seluM (rowsAt M o h X) := by
  funext i; rfl

theorem rowsAt_addM {N : Nat} (X Y : Mat M' N) : rowsAt M o h (addM X Y) = addM (rowsAt M o h X) (rowsAt M o h Y) := by
  funext i; rfl

theorem rowsAt_mulM {N : Nat} (X Y : Mat M' N) : rowsAt M o h (mulM X Y) = mulM (rowsAt M o h X) (rowsAt M o h Y) := by
  funext i; rfl

theorem rowsAt_addRow {N : Nat} (X : Mat M' N) (b : Row N) : rowsAt M o h (addRow X b) = addRow (rowsAt M o h X) b := by
  funext i; rfl

theorem rowsAt_resBlock (X : Mat M' 128) (W1 : Mat 128 128) (b1 : Row 128) (W2 : Mat 128 128) (b2 : Row 128) :
    rowsAt M o h (resBlock X W1 b1 W2 b2) = resBlock (rowsAt M o h X) W1 b1 W2 b2 := by
  simp only [resBlock, rowsAt_addM, rowsAt_seluM, rowsAt_addRow, rowsAt_mm]

theorem rowsAt_stageA (X1 : Mat M' 128) (RBF : Mat M' 6) (Wkj : Mat 128 128) (bkj : Row 128) (W1 : Mat 6 8) (W2 : Mat 8 128)
    (Wd : Mat 128 64) :
    rowsAt M o h (stageA X1 RBF Wkj bkj W1 W2 Wd) = stageA (rowsAt M o h X1) (rowsAt M o h RBF) Wkj bkj W1 W2 Wd := by
  simp only [stageA, rowsAt_seluM, rowsAt_mm, rowsAt_mulM, rowsAt_addRow]

theorem rowsAt_stageB (SBF : Mat M' 42) (T : Mat M' 294) (G : Mat M' 64) (Ws1 : Mat 42 8) (Ws2 : Mat 8 64) (Wt1 : Mat 294 8)
    (Wt2 : Mat 8 64) :
    rowsAt M o h (stageB SBF T G Ws1 Ws2 Wt1 Wt2)
      = stageB (rowsAt M o h SBF) (rowsAt M o h T) (rowsAt M o h G) Ws1 Ws2 Wt1 Wt2 := by
  simp only [stageB, rowsAt_mulM, rowsAt_mm]

theorem rowsAt_stageC1 (S : Mat M' 64) (X1 : Mat M' 128) (Wji : Mat 128 128) (bji : Row 128) (Wup : Mat 64 128)
    (rbW1 : Stack 1 128 128) (rbb1 : Mat 1 128) (rbW2 : Stack 1 128 128) (rbb2 : Mat 1 128)
    (Wlin : Mat 128 128) (blin : Row 128)
    (raW1 : Stack 2 128 128) (rab1 : Mat 2 128) (raW2 : Stack 2 128 128) (rab2 : Mat 2 128) :
    rowsAt M o h (stageC1 S X1 Wji bji Wup rbW1 rbb1 rbW2 rbb2 Wlin blin raW1 rab1 raW2 rab2)
      = stageC1 (rowsAt M o h S) (rowsAt M o h X1) Wji bji Wup rbW1 rbb1 rbW2 rbb2 Wlin blin raW1 rab1 raW2 rab2 := by
  simp only [stageC1, stageC1core, xji, rowsAt_resBlock, rowsAt_addM, rowsAt_seluM, rowsAt_addRow, rowsAt_mm]

theorem rowsAt_stageC2 (RBF : Mat M' 6) (Wrbf : Mat 6 128) (E1 : Mat M' 128) :
    rowsAt M o h (stageC2 RBF Wrbf E1) = stageC2 (rowsAt M o h RBF) Wrbf (rowsAt M o h E1) := by
  simp only [stageC2, rowsAt_mulM, rowsAt_mm]

end Cert.Spec

end
-- ==== Proof.SpecOps.lean ====
/-
  The printed operations of both programs, read at the ideal values as the specification's functions:
  a change of float format is the identity, a block product into a zero accumulator and the host's
  dot_general are both the matrix product `mm`, the kernel's and the reference's two spellings of selu
  (exp x − 1 against expm1 of a masked argument) are both `seluM`, and a bias broadcast along the rows
  is `addRow`, whichever of the two broadcast spellings prints it.
-/
import proofs.«426082_j5952824672726_2_alg».proof.Proof.Spec
import Idealize.ShloMosaic.Lib.Pipeline.Value
import Idealize.ShloMosaic.Lib.ValueLayout
import Idealize.ShloMosaic.Lib.StackMember

noncomputable section

open scoped BigOperators

namespace Cert.Spec

open Idealize.ShloMosaic Idealize.ShloMosaic.ValueIdx

/-- The word 0x3F800000 is the real number one. -/
private theorem ofBits_one_f32 : Ideal.ofBits .f32 0x3F800000#32 = 1 := by
  simp [Ideal.ofBits, Ideal.ieee]
  rw [← EReal.coe_mul]
  norm_num

/-- For the plain M×K by K×N dimension numbers the sum over the contraction index, at output index (a, b), is the sum
    over c of the left operand at (a, c) times the right operand at (c, b). -/
private theorem plain_contr_sum {M K N : Nat} (A : (⟨2, ![M, K]⟩ : Shape).Idx → EReal) (B : (⟨2, ![K, N]⟩ : Shape).Idx → EReal)
    (a : Fin M) (b : Fin N) :
    ∑ k : (DotDims.plain M K N).contr.Idx,
        A ((DotDims.plain M K N).lhsIdx (ix2 a b) k) * B ((DotDims.plain M K N).rhsIdx (ix2 a b) k)
      = ∑ c : Fin K, A (ix2 a c) * B (ix2 c b) := by
  rw [← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- At the ideal values a narrowing of the float format is the identity. -/
theorem truncf_ideal {s : Shape} {φ ψ : FTy} (x : FVec Ideal s φ) (h : ψ.bits < φ.bits) :
    truncf (F := Ideal) ψ x h = x := by
  funext i; rfl

/-- A plain M×K by K×N block product into the zero accumulator is the matrix product. -/
theorem matmul_eq_mm {M K N : Nat} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) :
    matmul (F := Ideal) d prec A B (constant ⟨2, ![M, N]⟩ .f32 0x00000000#32) = mm A B := by
  subst hd
  funext i
  obtain ⟨a, b, rfl⟩ : ∃ (a : Fin M) (b : Fin N), i = ix2 a b := ⟨i 0, i 1, eq_ix2 i⟩
  show FloatOps.matmul _ prec A B (constant ⟨2, ![M, N]⟩ .f32 0x00000000#32) (ix2 a b) = ∑ c : Fin K, A (ix2 a c) * B (ix2 c b)
  rw [Ideal.matmul_constant_zero_apply]
  exact plain_contr_sum A B a b

/-- The host's plain M×K by K×N dot_general is the matrix product. -/
theorem dotGeneral_eq_mm {M K N : Nat} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) :
    Host.dotGeneral (F := Ideal) d prec A B = mm A B := by
  subst hd
  funext i
  obtain ⟨a, b, rfl⟩ : ∃ (a : Fin M) (b : Fin N), i = ix2 a b := ⟨i 0, i 1, eq_ix2 i⟩
  exact StackMember.dotGeneral_plain_apply prec A B a b

/-- The kernel's spelling of selu: scale · select(x > 0, x, alpha · (exp x − 1)). -/
theorem selu_kernel {M N : Nat} (x : Mat M N) :
    mulf (F := Ideal) (broadcast ⟨2, ![M, N]⟩ (Scalar.ofBits .f32 0x3F867D5F#32))
      (select (cmpf .ogt x (broadcast ⟨2, ![M, N]⟩ (Scalar.ofBits .f32 0x00000000#32))) x
        (mulf (broadcast ⟨2, ![M, N]⟩ (Scalar.ofBits .f32 0x3FD62D7D#32))
          (subf (exp x) (broadcast ⟨2, ![M, N]⟩ (Scalar.ofBits .f32 0x3F800000#32)))))
      = seluM x := by
  funext i; rfl

/-- The reference's spelling of selu (jax.nn.selu): scale · select(x > 0, x, alpha · expm1(select(x > 0, 0, x))). -/
theorem selu_host {M N : Nat} (x : Mat M N) (hb : (⟨0, ![]⟩ : Shape).BroadcastsInDim ⟨2, ![M, N]⟩ ![]) :
    mulf (F := Ideal) (broadcastInDim ⟨2, ![M, N]⟩ ![] hb (constant ⟨0, ![]⟩ .f32 0x3F867D5F#32))
      (select (cmpf .ogt x (broadcastInDim ⟨2, ![M, N]⟩ ![] hb (constant ⟨0, ![]⟩ .f32 0x00000000#32))) x
        (mulf (broadcastInDim ⟨2, ![M, N]⟩ ![] hb (id (constant ⟨0, ![]⟩ .f32 0x3FD62D7D#32)))
          (Host.expm1 (select (cmpf .ogt x (broadcastInDim ⟨2, ![M, N]⟩ ![] hb (constant ⟨0, ![]⟩ .f32 0x00000000#32)))
            (broadcastInDim ⟨2, ![M, N]⟩ ![] hb (id (constant ⟨0, ![]⟩ .f32 0x00000000#32))) x))))
      = seluM x := by
  funext i
  show Ideal.ofBits .f32 0x3F867D5F#32 *
      Scalar.select (Ideal.cmp .ogt (x i) (Ideal.ofBits .f32 0x00000000#32)) (x i)
        (Ideal.ofBits .f32 0x3FD62D7D#32 *
          (Ideal.exp (Scalar.select (Ideal.cmp .ogt (x i) (Ideal.ofBits .f32 0x00000000#32))
            (Ideal.ofBits .f32 0x00000000#32) (x i)) - 1)) = seluS (x i)
  unfold seluS
  rw [ofBits_one_f32]
  by_cases h : Ideal.cmp .ogt (x i) (Ideal.ofBits .f32 0x00000000#32) = 1
  · simp only [Scalar.select, if_pos h]
  · simp only [Scalar.select, if_neg h]

/-- The kernel's bias: the vector cast to one row and broadcast down the rows. -/
theorem bias_kernel {M N : Nat} (X : Mat M N) (b : Row N) (h1 : (⟨1, ![N]⟩ : Shape).ShapeCasts ⟨2, ![1, N]⟩)
    (h2 : (⟨2, ![1, N]⟩ : Shape).Broadcasts ⟨2, ![M, N]⟩) :
    addf (F := Ideal) X (broadcastTo ⟨2, ![M, N]⟩ (shapeCast ⟨2, ![1, N]⟩ b h1) h2) = addRow X b := by
  funext i
  obtain ⟨r, c, rfl⟩ : ∃ (r : Fin M) (c : Fin N), i = ix2 r c := ⟨i 0, i 1, eq_ix2 i⟩
  show X (ix2 r c) + broadcastTo ⟨2, ![M, N]⟩ (shapeCast ⟨2, ![1, N]⟩ b h1) h2 (ix2 r c) = X (ix2 r c) + b (ix1 c)
  congr 1
  rw [broadcastTo_apply _ h2 (ix2 r c) (ix2 (0 : Fin 1) c) (by
    intro a
    match a with
    | ⟨0, _⟩ => show (0 : ℕ) = if (1 : ℕ) = 1 then 0 else _; simp
    | ⟨1, _⟩ =>
      show c.val = if N = 1 then 0 else c.val
      split
      · have := c.isLt; omega
      · rfl)]
  rw [shapeCast_addUnit_apply ![N] b h1 (ix2 (0 : Fin 1) c)]
  exact congrArg b (funext fun d => match d with | ⟨0, _⟩ => rfl)

/-- The reference's bias: broadcast_in_dim to one row, then down the rows. -/
theorem bias_host {M N : Nat} (X : Mat M N) (b : Row N) (h1 : (⟨1, ![N]⟩ : Shape).BroadcastsInDim ⟨2, ![1, N]⟩ ![1])
    (h2 : (⟨2, ![1, N]⟩ : Shape).BroadcastsInDim ⟨2, ![M, N]⟩ ![0, 1]) :
    addf (F := Ideal) X (broadcastInDim ⟨2, ![M, N]⟩ ![0, 1] h2 (broadcastInDim ⟨2, ![1, N]⟩ ![1] h1 b)) = addRow X b := by
  funext i
  obtain ⟨r, c, rfl⟩ : ∃ (r : Fin M) (c : Fin N), i = ix2 r c := ⟨i 0, i 1, eq_ix2 i⟩
  show X (ix2 r c) + broadcastInDim ⟨2, ![M, N]⟩ ![0, 1] h2 (broadcastInDim ⟨2, ![1, N]⟩ ![1] h1 b) (ix2 r c)
    = X (ix2 r c) + b (ix1 c)
  congr 1
  rw [broadcastInDim_oneRow_apply h2 _ r c]
  refine broadcastInDim_apply ![1] h1 b (ix2 (0 : Fin 1) c) (ix1 c) ?_
  intro a
  match a with
  | ⟨0, _⟩ =>
    show c.val = if N = 1 then 0 else c.val
    split
    · have := c.isLt; omega
    · rfl

theorem addf_eq_addM {M N : Nat} (X Y : Mat M N) : addf (F := Ideal) X Y = addM X Y := by
  funext i; rfl

theorem mulf_eq_mulM {M N : Nat} (X Y : Mat M N) : mulf (F := Ideal) X Y = mulM X Y := by
  funext i; rfl

end Cert.Spec

end
-- ==== Proof.KVal0.lean ====
/- Region 0 (the per-edge preparation): after its 50 grid points the output array holds stage A of the
   region's input arrays, each block of 2000 rows being stage A of the same 2000 rows of the inputs. -/
import proofs.«426082_j5952824672726_2_alg».proof.Proof.Gen.KernelIdeal.Frame
import proofs.«426082_j5952824672726_2_alg».proof.Proof.Spec
import proofs.«426082_j5952824672726_2_alg».proof.Proof.SpecRows
import proofs.«426082_j5952824672726_2_alg».proof.Proof.SpecOps

set_option maxRecDepth 16384

noncomputable section

namespace Cert.KernelIdeal.KVal

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-! ## The body on one block of rows -/

/-- The zero offsets of a rank-2 rectangle. -/
theorem prep_zero2 : (![0, 0] : Fin 2 → Nat) = fun _ => 0 :=
  funext fun a => match a with | ⟨0, _⟩ => rfl | ⟨1, _⟩ => rfl

/-- The zero offset of a rank-1 rectangle. -/
theorem prep_zero1 : (![0] : Fin 1 → Nat) = fun _ => 0 :=
  funext fun a => match a with | ⟨0, _⟩ => rfl

/-- The pre-activation of stage A on a block of rows:
    (selu(X1·Wkj + bkj) ⊙ ((RBF·W1)·W2))·Wdown, the changes of float format being the identity on extended reals. -/
theorem prep_pay2_eq (x0 : Mat 2000 128) (x1 : Mat 2000 6) (x2 : Mat 128 128) (x3 : Row 128) (x4 : Mat 6 8) (x5 : Mat 8 128)
    (x6 : Mat 128 64) :
    k0_pay2 (F := Ideal) x0 x1 x2 x3 x4 x5 x6
      = mm (mulM (seluM (addRow (mm x0 x2) x3)) (mm (mm x1 x4) x5)) x6 := by
  unfold k0_pay2
  simp only [truncf_ideal]
  rw [matmul_eq_mm dot_S2000x128_S128x128_S2000x128_1_0_0_1_n_n rfl, matmul_eq_mm dot_S2000x6_S6x8_S2000x8_1_0_0_1_n_n rfl,
    matmul_eq_mm dot_S2000x8_S8x128_S2000x128_1_0_0_1_n_n rfl, matmul_eq_mm dot_S2000x128_S128x64_S2000x64_1_0_0_1_n_n rfl]
  rw [bias_kernel]
  rw [selu_kernel, mulf_eq_mulM]

/-- What the body stores, on a block of rows: selu of the pre-activation, that is stage A of the blocks. -/
theorem prep_pay_eq (x0 : Mat 2000 128) (x1 : Mat 2000 6) (x2 : Mat 128 128) (x3 : Row 128) (x4 : Mat 6 8) (x5 : Mat 8 128)
    (x6 : Mat 128 64) :
    k0_pay1 (F := Ideal) (k0_pay2 (F := Ideal) x0 x1 x2 x3 x4 x5 x6) (k0_pay3 (F := Ideal) x0 x1 x2 x3 x4 x5 x6)
        (k0_pay4 (F := Ideal) x0 x1 x2 x3 x4 x5 x6) (Scalar.ofBits .f32 0x3F800000#32)
      = stageA x0 x1 x2 x3 x4 x5 x6 := by
  unfold k0_pay1 k0_pay3 k0_pay4
  simp only [prep_pay2_eq]
  rw [selu_kernel]
  rfl

/-- The output block after the body, from whole input blocks: one whole-block store of stage A of the whole-block loads. -/
theorem prep_out_eq (x0 : Mat 2000 128) (x1 : Mat 2000 6) (x2 : Mat 128 128) (x3 : Row 128) (x4 : Mat 6 8) (x5 : Mat 8 128)
    (x6 : Mat 128 64) :
    out0_7 (F := Ideal) x0 x1 x2 x3 x4 x5 x6 = stageA x0 x1 x2 x3 x4 x5 x6 := by
  unfold out0_7
  rw [View.canon_unit_zero prep_zero2]
  simp only [View.ld_unit_zero (S := S2000x128) prep_zero2, View.ld_unit_zero (S := S2000x6) prep_zero2,
    View.ld_unit_zero (S := S128x128) prep_zero2, View.ld_unit_zero (S := S128) prep_zero1,
    View.ld_unit_zero (S := S6x8) prep_zero2, View.ld_unit_zero (S := S8x128) prep_zero2,
    View.ld_unit_zero (S := S128x64) prep_zero2]
  exact prep_pay_eq x0 x1 x2 x3 x4 x5 x6

/-- Stage A of equal operands. -/
theorem prep_stageA_congr {M : Nat} {x0 y0 : Mat M 128} {x1 y1 : Mat M 6} {x2 y2 : Mat 128 128} {x3 y3 : Row 128}
    {x4 y4 : Mat 6 8} {x5 y5 : Mat 8 128} {x6 y6 : Mat 128 64}
    (h0 : x0 = y0) (h1 : x1 = y1) (h2 : x2 = y2) (h3 : x3 = y3) (h4 : x4 = y4) (h5 : x5 = y5) (h6 : x6 = y6) :
    stageA x0 x1 x2 x3 x4 x5 x6 = stageA y0 y1 y2 y3 y4 y5 y6 := by
  subst h0 h1 h2 h3 h4 h5 h6; rfl

/-! ## The windows' blocks as rows of their arrays -/

/-- The grid has 50 points, and point t's block of 2000 rows lies inside the 100000 rows. -/
theorem prep_rows_le (t : Fin cfg0.N) : 2000 * t.val + 2000 ≤ 100000 := by
  have hN : cfg0.N = 50 := N_0
  have ht : t.val < cfg0.N := t.isLt
  omega

/-- The index maps over the grid: the two row-blocked inputs and the output sit at block row t, column block 0; the
    weights and the bias stay at block 0. -/
theorem prep_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The block of x1 at point t is rows 2000t … 2000t+1999 of x1. -/
theorem prep_blk_x1 (c : Dev nD) (t : Fin cfg0.N) :
    (iblk0 V c 0 t : Mat 2000 128) = rowsAt 2000 (2000 * t.val) (prep_rows_le t) (V c main_arg0 : Mat 100000 128) := by
  obtain ⟨e0, e1, -⟩ := prep_idx t
  funext y
  show V c main_arg0 (((cfg0.win 0).blk t).view.emb y) = V c main_arg0 (ix2 ⟨2000 * t.val + (y 0).val, _⟩ (y 1))
  refine congrArg _ ?_
  funext a
  apply Fin.ext
  match a with
  | ⟨0, _⟩ =>
    show win0_0.index t (0 : Fin 2) * 2000 + 1 * (y 0).val = 2000 * t.val + (y 0).val
    rw [e0]; omega
  | ⟨1, _⟩ =>
    show win0_0.index t (1 : Fin 2) * 128 + 1 * (y 1).val = (y 1).val
    rw [e1]; omega

/-- The block of the radial basis at point t is rows 2000t … 2000t+1999 of it. -/
theorem prep_blk_rbf (c : Dev nD) (t : Fin cfg0.N) :
    (iblk0 V c 1 t : Mat 2000 6) = rowsAt 2000 (2000 * t.val) (prep_rows_le t) (V c main_arg1 : Mat 100000 6) := by
  obtain ⟨-, -, e0, e1, -⟩ := prep_idx t
  funext y
  show V c main_arg1 (((cfg0.win 1).blk t).view.emb y) = V c main_arg1 (ix2 ⟨2000 * t.val + (y 0).val, _⟩ (y 1))
  refine congrArg _ ?_
  funext a
  apply Fin.ext
  match a with
  | ⟨0, _⟩ =>
    show win0_1.index t (0 : Fin 2) * 2000 + 1 * (y 0).val = 2000 * t.val + (y 0).val
    rw [e0]; omega
  | ⟨1, _⟩ =>
    show win0_1.index t (1 : Fin 2) * 6 + 1 * (y 1).val = (y 1).val
    rw [e1]; omega

/-- The weight W_kj is resident: its block at every point is the whole array. -/
theorem prep_blk_wkj (c : Dev nD) (t : Fin cfg0.N) : (iblk0 V c 2 t : Mat 128 128) = (V c main_arg12 : Mat 128 128) := by
  obtain ⟨-, -, -, -, e0, e1, -⟩ := prep_idx t
  funext y
  show V c main_arg12 (((cfg0.win 2).blk t).view.emb y) = V c main_arg12 y
  refine congrArg _ ?_
  funext a
  apply Fin.ext
  match a with
  | ⟨0, _⟩ =>
    show win0_2.index t (0 : Fin 2) * 128 + 1 * (y 0).val = (y 0).val
    rw [e0]; omega
  | ⟨1, _⟩ =>
    show win0_2.index t (1 : Fin 2) * 128 + 1 * (y 1).val = (y 1).val
    rw [e1]; omega

/-- The bias b_kj is resident. -/
theorem prep_blk_bkj (c : Dev nD) (t : Fin cfg0.N) : (iblk0 V c 3 t : Row 128) = (V c main_arg13 : Row 128) := by
  obtain ⟨-, -, -, -, -, -, e0, -⟩ := prep_idx t
  funext y
  show V c main_arg13 (((cfg0.win 3).blk t).view.emb y) = V c main_arg13 y
  refine congrArg _ ?_
  funext a
  apply Fin.ext
  match a with
  | ⟨0, _⟩ =>
    show win0_3.index t (0 : Fin 1) * 128 + 1 * (y 0).val = (y 0).val
    rw [e0]; omega

/-- The weight W_rbf1 is resident. -/
theorem prep_blk_w1 (c : Dev nD) (t : Fin cfg0.N) : (iblk0 V c 4 t : Mat 6 8) = (V c main_arg5 : Mat 6 8) := by
  obtain ⟨-, -, -, -, -, -, -, e0, e1, -⟩ := prep_idx t
  funext y
  show V c main_arg5 (((cfg0.win 4).blk t).view.emb y) = V c main_arg5 y
  refine congrArg _ ?_
  funext a
  apply Fin.ext
  match a with
  | ⟨0, _⟩ =>
    show win0_4.index t (0 : Fin 2) * 6 + 1 * (y 0).val = (y 0).val
    rw [e0]; omega
  | ⟨1, _⟩ =>
    show win0_4.index t (1 : Fin 2) * 8 + 1 * (y 1).val = (y 1).val
    rw [e1]; omega

/-- The weight W_rbf2 is resident. -/
theorem prep_blk_w2 (c : Dev nD) (t : Fin cfg0.N) : (iblk0 V c 5 t : Mat 8 128) = (V c main_arg6 : Mat 8 128) := by
  obtain ⟨-, -, -, -, -, -, -, -, -, e0, e1, -⟩ := prep_idx t
  funext y
  show V c main_arg6 (((cfg0.win 5).blk t).view.emb y) = V c main_arg6 y
  refine congrArg _ ?_
  funext a
  apply Fin.ext
  match a with
  | ⟨0, _⟩ =>
    show win0_5.index t (0 : Fin 2) * 8 + 1 * (y 0).val = (y 0).val
    rw [e0]; omega
  | ⟨1, _⟩ =>
    show win0_5.index t (1 : Fin 2) * 128 + 1 * (y 1).val = (y 1).val
    rw [e1]; omega

/-- The weight W_down is resident. -/
theorem prep_blk_wd (c : Dev nD) (t : Fin cfg0.N) : (iblk0 V c 6 t : Mat 128 64) = (V c main_arg16 : Mat 128 64) := by
  obtain ⟨-, -, -, -, -, -, -, -, -, -, -, e0, e1, -⟩ := prep_idx t
  funext y
  show V c main_arg16 (((cfg0.win 6).blk t).view.emb y) = V c main_arg16 y
  refine congrArg _ ?_
  funext a
  apply Fin.ext
  match a with
  | ⟨0, _⟩ =>
    show win0_6.index t (0 : Fin 2) * 128 + 1 * (y 0).val = (y 0).val
    rw [e0]; omega
  | ⟨1, _⟩ =>
    show win0_6.index t (1 : Fin 2) * 64 + 1 * (y 1).val = (y 1).val
    rw [e1]; omega

/-- The output window's block at point t, read off any array of the output's size, is its rows 2000t … 2000t+1999. -/
theorem prep_read_rows (t : Fin cfg0.N) (G : Mat 100000 64) :
    (((cfg0.win 7).blk t).view.read (Elt Ideal) G : Mat 2000 64) = rowsAt 2000 (2000 * t.val) (prep_rows_le t) G := by
  obtain ⟨-, -, -, -, -, -, -, -, -, -, -, -, -, e0, e1⟩ := prep_idx t
  funext y
  show G (((cfg0.win 7).blk t).view.emb y) = G (ix2 ⟨2000 * t.val + (y 0).val, _⟩ (y 1))
  refine congrArg _ ?_
  funext a
  apply Fin.ext
  match a with
  | ⟨0, _⟩ =>
    show win0_7.index t (0 : Fin 2) * 2000 + 1 * (y 0).val = 2000 * t.val + (y 0).val
    rw [e0]; omega
  | ⟨1, _⟩ =>
    show win0_7.index t (1 : Fin 2) * 64 + 1 * (y 1).val = (y 1).val
    rw [e1]; omega

/-! ## What each point writes back -/

/-- The output block after the body at point t is rows 2000t … 2000t+1999 of stage A of the whole arrays: stage A acts
    row by row and the weights are the same at every point. -/
theorem prep_after_eq (c : Dev nD) (t : Fin cfg0.N) :
    out0_7 (F := Ideal) (iblk0 V c 0 t) (iblk0 V c 1 t) (iblk0 V c 2 t) (iblk0 V c 3 t) (iblk0 V c 4 t) (iblk0 V c 5 t)
        (iblk0 V c 6 t)
      = rowsAt 2000 (2000 * t.val) (prep_rows_le t)
          (stageA (V c main_arg0) (V c main_arg1) (V c main_arg12) (V c main_arg13) (V c main_arg5) (V c main_arg6)
            (V c main_arg16)) := by
  rw [rowsAt_stageA]
  refine (prep_out_eq (iblk0 V c 0 t) (iblk0 V c 1 t) (iblk0 V c 2 t) (iblk0 V c 3 t) (iblk0 V c 4 t) (iblk0 V c 5 t)
    (iblk0 V c 6 t)).trans ?_
  exact prep_stageA_congr (prep_blk_x1 V c t) (prep_blk_rbf V c t) (prep_blk_wkj V c t) (prep_blk_bkj V c t)
    (prep_blk_w1 V c t) (prep_blk_w2 V c t) (prep_blk_wd V c t)

/-- What point t writes back is block t of stage A of the arrays the region was entered with. -/
theorem prep_flushed_eq (c : Dev nD) (t : Fin cfg0.N) :
    (dat0 (F := Ideal) V c).flushed 7 t
      = ((cfg0.win 7).blk t).view.read (Elt Ideal)
          (stageA (V c main_arg0) (V c main_arg1) (V c main_arg12) (V c main_arg13) (V c main_arg5) (V c main_arg6)
            (V c main_arg16)) := by
  show (cfg0.win 7).cut (grid0.coords t) ((dat0 (F := Ideal) V c).after 7 t) = _
  rw [after0_7]
  exact (prep_after_eq V c t).trans (prep_read_rows t _).symm

/-! ## The blocks cover the output -/

/-- A row-column index is in point t's block iff each coordinate is in the block's range on its axis. -/
theorem prep_mem_blk (t : Fin cfg0.N) (i : S100000x64.Idx) :
    i ∈ ((cfg0.win 7).blk t).view.set
      ↔ ∀ a : Fin 2, win0_7.index t a * S2000x64.size a ≤ (i a).val
          ∧ (i a).val < win0_7.index t a * S2000x64.size a + S2000x64.size a := by
  show i ∈ ((View.whole main_v0).slice (win0_7.rect t)).set ↔ _
  rw [View.set_slice_whole, Rect.mem_set_unit]
  exact Iff.rfl

/-- Row r of the output is in the block of point r / 2000, which writes it back. -/
theorem prep_cover (i : S100000x64.Idx) :
    ∃ t : Fin cfg0.N, (cfg0.win 7).flush t = true ∧ i ∈ ((cfg0.win 7).blk t).view.set := by
  have hN : cfg0.N = 50 := N_0
  have hi0 : (i 0).val < 100000 := (i 0).isLt
  have hi1 : (i 1).val < 64 := (i 1).isLt
  obtain ⟨t, ht⟩ : ∃ t : Fin cfg0.N, t.val = (i 0).val / 2000 := ⟨⟨(i 0).val / 2000, by omega⟩, rfl⟩
  obtain ⟨-, -, -, -, -, -, -, -, -, -, -, -, -, e0, e1⟩ := prep_idx t
  refine ⟨t, flush0_7 t, ?_⟩
  rw [prep_mem_blk]
  intro a
  match a with
  | ⟨0, _⟩ =>
    show win0_7.index t (0 : Fin 2) * 2000 ≤ (i 0).val ∧ (i 0).val < win0_7.index t (0 : Fin 2) * 2000 + 2000
    rw [e0]; omega
  | ⟨1, _⟩ =>
    show win0_7.index t (1 : Fin 2) * 64 ≤ (i 1).val ∧ (i 1).val < win0_7.index t (1 : Fin 2) * 64 + 64
    rw [e1]; omega

/-- The output array of region 0 after the run of its grid is stage A of the arrays the region was entered with. -/
theorem final0 (c : Dev nD) :
    (dat0 (F := Ideal) V c).arrAt 7 cfg0.N
      = stageA (V c main_arg0) (V c main_arg1) (V c main_arg12) (V c main_arg13) (V c main_arg5) (V c main_arg6) (V c main_arg16) :=
  (dat0 (F := Ideal) V c).arrAt_eq_of_cover 7
    (stageA (V c main_arg0) (V c main_arg1) (V c main_arg12) (V c main_arg13) (V c main_arg5) (V c main_arg6)
      (V c main_arg16))
    (fun t _ => prep_flushed_eq V c t) prep_cover

end Cert.KernelIdeal.KVal

end
-- ==== Proof.KVal1.lean ====
/- Region 1 (the per-triplet message): after its 125 grid points the output array holds stage B of the
   region's input arrays, each block of 4000 rows being stage B of the same 4000 rows of the inputs. -/
import proofs.«426082_j5952824672726_2_alg».proof.Proof.Gen.KernelIdeal.Frame
import proofs.«426082_j5952824672726_2_alg».proof.Proof.Spec
import proofs.«426082_j5952824672726_2_alg».proof.Proof.SpecRows
import proofs.«426082_j5952824672726_2_alg».proof.Proof.SpecOps

set_option maxRecDepth 16384

noncomputable section

namespace Cert.KernelIdeal.KVal

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-! ## The body on one block of 4000 rows -/

/-- The zero offsets of a whole-block access. -/
theorem zeroOff1 : (![0, 0] : Fin 2 → Nat) = fun _ => 0 := funext fun a => by fin_cases a <;> rfl

/-- The body's arithmetic: with the float narrowings the identity and each block product into a zero accumulator
    the matrix product, the stored value is G ⊙ ((SBF·Ws1)·Ws2) ⊙ ((T·Wt1)·Wt2), which is stage B of the blocks. -/
theorem tripletPayload_eq (x0 : Vec Ideal S4000x42 .f32) (x1 : Vec Ideal S4000x294 .f32) (x2 : Vec Ideal S4000x64 .f32)
    (x3 : Vec Ideal S42x8 .f32) (x4 : Vec Ideal S8x64 .f32) (x5 : Vec Ideal S294x8 .f32) (x6 : Vec Ideal S8x64 .f32) :
    k1_pay1 (F := Ideal) x0 x1 x2 x3 x4 x5 x6 = stageB x0 x1 x2 x3 x4 x5 x6 := by
  unfold k1_pay1
  simp only [truncf_ideal, shapeCast_self]
  rw [matmul_eq_mm dot_S4000x42_S42x8_S4000x8_1_0_0_1_n_n rfl, matmul_eq_mm dot_S4000x294_S294x8_S4000x8_1_0_0_1_n_n rfl,
    matmul_eq_mm dot_S4000x8_S8x64_S4000x64_1_0_0_1_n_n rfl, matmul_eq_mm dot_S4000x8_S8x64_S4000x64_1_0_0_1_n_n rfl]
  rw [mulf_eq_mulM, mulf_eq_mulM]
  rfl

/-- The output block after the body: every input block is loaded whole and the result is stored whole, so the
    buffer holds stage B of the input blocks. -/
theorem tripletBlock_eq (x0 : Vec Ideal S4000x42 .f32) (x1 : Vec Ideal S4000x294 .f32) (x2 : Vec Ideal S4000x64 .f32)
    (x3 : Vec Ideal S42x8 .f32) (x4 : Vec Ideal S8x64 .f32) (x5 : Vec Ideal S294x8 .f32) (x6 : Vec Ideal S8x64 .f32) :
    out1_7 (F := Ideal) x0 x1 x2 x3 x4 x5 x6 = stageB x0 x1 x2 x3 x4 x5 x6 := by
  unfold out1_7
  rw [View.canon_unit_zero zeroOff1]
  simp only [View.ld_unit_zero (S := S4000x42) zeroOff1, View.ld_unit_zero (S := S4000x294) zeroOff1,
    View.ld_unit_zero (S := S4000x64) zeroOff1, View.ld_unit_zero (S := S42x8) zeroOff1,
    View.ld_unit_zero (S := S8x64) zeroOff1, View.ld_unit_zero (S := S294x8) zeroOff1]
  exact tripletPayload_eq x0 x1 x2 x3 x4 x5 x6

/-! ## The input blocks as rows of the arrays -/

/-- The index maps over the grid: at point t the three row-blocked inputs and the output are at block (t, 0),
    the four weight matrices at block (0, 0). -/
theorem tripletIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Block t of 4000 rows lies inside the 500000 rows. -/
theorem rowsInside (t : Fin cfg1.N) : 4000 * t.val + 4000 ≤ 500000 := by
  have h : t.val < 125 := lt_of_lt_of_eq t.isLt N_1
  omega

/-- The block of SBF at point t is its rows 4000t … 4000t + 3999. -/
theorem sbfBlock (c : Dev nD) (t : Fin cfg1.N) :
    (iblk1 V c 0 t : Vec Ideal S4000x42 .f32) = rowsAt 4000 (4000 * t.val) (rowsInside t) (V c main_arg2) := by
  obtain ⟨e0, e1, -⟩ := tripletIndex t
  funext y
  show V c main_arg2 (((cfg1.win 0).blk t).view.emb y) = V c main_arg2 (ix2 ⟨4000 * t.val + (y 0).val, _⟩ (y 1))
  congr 1
  funext a; apply Fin.ext
  match a with
  | ⟨0, _⟩ => show win1_0.index t (0 : Fin 2) * 4000 + 1 * (y 0).val = 4000 * t.val + (y 0).val; omega
  | ⟨1, _⟩ => show win1_0.index t (1 : Fin 2) * 42 + 1 * (y 1).val = (y 1).val; omega

/-- The block of T at point t is its rows 4000t … 4000t + 3999. -/
theorem tBlock (c : Dev nD) (t : Fin cfg1.N) :
    (iblk1 V c 1 t : Vec Ideal S4000x294 .f32) = rowsAt 4000 (4000 * t.val) (rowsInside t) (V c main_arg3) := by
  obtain ⟨-, -, e0, e1, -⟩ := tripletIndex t
  funext y
  show V c main_arg3 (((cfg1.win 1).blk t).view.emb y) = V c main_arg3 (ix2 ⟨4000 * t.val + (y 0).val, _⟩ (y 1))
  congr 1
  funext a; apply Fin.ext
  match a with
  | ⟨0, _⟩ => show win1_1.index t (0 : Fin 2) * 4000 + 1 * (y 0).val = 4000 * t.val + (y 0).val; omega
  | ⟨1, _⟩ => show win1_1.index t (1 : Fin 2) * 294 + 1 * (y 1).val = (y 1).val; omega

/-- The block of the gathered rows at point t is rows 4000t … 4000t + 3999 of the gathered array. -/
theorem gatheredBlock (c : Dev nD) (t : Fin cfg1.N) :
    (iblk1 V c 2 t : Vec Ideal S4000x64 .f32) = rowsAt 4000 (4000 * t.val) (rowsInside t) (V c main_v1) := by
  obtain ⟨-, -, -, -, e0, e1, -⟩ := tripletIndex t
  funext y
  show V c main_v1 (((cfg1.win 2).blk t).view.emb y) = V c main_v1 (ix2 ⟨4000 * t.val + (y 0).val, _⟩ (y 1))
  congr 1
  funext a; apply Fin.ext
  match a with
  | ⟨0, _⟩ => show win1_2.index t (0 : Fin 2) * 4000 + 1 * (y 0).val = 4000 * t.val + (y 0).val; omega
  | ⟨1, _⟩ => show win1_2.index t (1 : Fin 2) * 64 + 1 * (y 1).val = (y 1).val; omega

/-- The weight Ws1 is resident: its block at every point is the whole matrix. -/
theorem ws1Block (c : Dev nD) (t : Fin cfg1.N) : (iblk1 V c 3 t : Vec Ideal S42x8 .f32) = V c main_arg7 := by
  obtain ⟨-, -, -, -, -, -, e0, e1, -⟩ := tripletIndex t
  funext y
  show V c main_arg7 (((cfg1.win 3).blk t).view.emb y) = V c main_arg7 y
  congr 1
  funext a; apply Fin.ext
  match a with
  | ⟨0, _⟩ => show win1_3.index t (0 : Fin 2) * 42 + 1 * (y 0).val = (y 0).val; omega
  | ⟨1, _⟩ => show win1_3.index t (1 : Fin 2) * 8 + 1 * (y 1).val = (y 1).val; omega

/-- The weight Ws2 is resident. -/
theorem ws2Block (c : Dev nD) (t : Fin cfg1.N) : (iblk1 V c 4 t : Vec Ideal S8x64 .f32) = V c main_arg8 := by
  obtain ⟨-, -, -, -, -, -, -, -, e0, e1, -⟩ := tripletIndex t
  funext y
  show V c main_arg8 (((cfg1.win 4).blk t).view.emb y) = V c main_arg8 y
  congr 1
  funext a; apply Fin.ext
  match a with
  | ⟨0, _⟩ => show win1_4.index t (0 : Fin 2) * 8 + 1 * (y 0).val = (y 0).val; omega
  | ⟨1, _⟩ => show win1_4.index t (1 : Fin 2) * 64 + 1 * (y 1).val = (y 1).val; omega

/-- The weight Wt1 is resident. -/
theorem wt1Block (c : Dev nD) (t : Fin cfg1.N) : (iblk1 V c 5 t : Vec Ideal S294x8 .f32) = V c main_arg9 := by
  obtain ⟨-, -, -, -, -, -, -, -, -, -, e0, e1, -⟩ := tripletIndex t
  funext y
  show V c main_arg9 (((cfg1.win 5).blk t).view.emb y) = V c main_arg9 y
  congr 1
  funext a; apply Fin.ext
  match a with
  | ⟨0, _⟩ => show win1_5.index t (0 : Fin 2) * 294 + 1 * (y 0).val = (y 0).val; omega
  | ⟨1, _⟩ => show win1_5.index t (1 : Fin 2) * 8 + 1 * (y 1).val = (y 1).val; omega

/-- The weight Wt2 is resident. -/
theorem wt2Block (c : Dev nD) (t : Fin cfg1.N) : (iblk1 V c 6 t : Vec Ideal S8x64 .f32) = V c main_arg10 := by
  obtain ⟨-, -, -, -, -, -, -, -, -, -, -, -, e0, e1, -⟩ := tripletIndex t
  funext y
  show V c main_arg10 (((cfg1.win 6).blk t).view.emb y) = V c main_arg10 y
  congr 1
  funext a; apply Fin.ext
  match a with
  | ⟨0, _⟩ => show win1_6.index t (0 : Fin 2) * 8 + 1 * (y 0).val = (y 0).val; omega
  | ⟨1, _⟩ => show win1_6.index t (1 : Fin 2) * 64 + 1 * (y 1).val = (y 1).val; omega

/-! ## What a point writes back, and the whole array -/

/-- Point t writes back block t of stage B of the whole arrays: stage B acts row by row, so stage B of rows
    4000t … 4000t + 3999 of the inputs is those rows of stage B of the inputs. -/
theorem tripletFlushed (c : Dev nD) (t : Fin cfg1.N) :
    (dat1 (F := Ideal) V c).flushed 7 t = ((cfg1.win 7).blk t).view.read (Elt Ideal)
      (stageB (V c main_arg2) (V c main_arg3) (V c main_v1) (V c main_arg7) (V c main_arg8) (V c main_arg9) (V c main_arg10)) := by
  show (cfg1.win 7).cut (grid1.coords t) ((dat1 (F := Ideal) V c).after 7 t) = _
  rw [after1_7, sbfBlock V c t, tBlock V c t, gatheredBlock V c t, ws1Block V c t, ws2Block V c t, wt1Block V c t, wt2Block V c t,
    tripletBlock_eq, ← rowsAt_stageB]
  obtain ⟨-, -, -, -, -, -, -, -, -, -, -, -, -, -, e0, e1⟩ := tripletIndex t
  funext y
  show stageB (V c main_arg2) (V c main_arg3) (V c main_v1) (V c main_arg7) (V c main_arg8) (V c main_arg9) (V c main_arg10)
      (ix2 ⟨4000 * t.val + (y 0).val, _⟩ (y 1))
    = stageB (V c main_arg2) (V c main_arg3) (V c main_v1) (V c main_arg7) (V c main_arg8) (V c main_arg9) (V c main_arg10)
      (((cfg1.win 7).blk t).view.emb y)
  congr 1
  funext a; apply Fin.ext
  match a with
  | ⟨0, _⟩ => show 4000 * t.val + (y 0).val = win1_7.index t (0 : Fin 2) * 4000 + 1 * (y 0).val; omega
  | ⟨1, _⟩ => show (y 1).val = win1_7.index t (1 : Fin 2) * 64 + 1 * (y 1).val; omega

/-- An index of the output array is in point t's block iff each coordinate is in the block's range on its axis. -/
theorem mem_tripletBlock (t : Fin cfg1.N) (i : S500000x64.Idx) :
    i ∈ ((cfg1.win 7).blk t).view.set ↔ ∀ a : Fin 2, win1_7.index t a * S4000x64.size a ≤ (i a).val
      ∧ (i a).val < win1_7.index t a * S4000x64.size a + S4000x64.size a := by
  show i ∈ ((View.whole main_v2).slice (win1_7.rect t)).set ↔ _
  rw [View.set_slice_whole, Rect.mem_set_unit]
  exact Iff.rfl

/-- Row r of the output is written by point r / 4000. -/
theorem tripletCover (i : S500000x64.Idx) :
    ∃ t : Fin cfg1.N, (cfg1.win 7).flush t = true ∧ i ∈ ((cfg1.win 7).blk t).view.set := by
  have hi0 : (i 0).val < 500000 := (i 0).isLt
  have hi1 : (i 1).val < 64 := (i 1).isLt
  have hN : cfg1.N = 125 := N_1
  let t : Fin cfg1.N := ⟨(i 0).val / 4000, by rw [hN]; omega⟩
  have ht : t.val = (i 0).val / 4000 := rfl
  obtain ⟨-, -, -, -, -, -, -, -, -, -, -, -, -, -, e0, e1⟩ := tripletIndex t
  refine ⟨t, flush1_7 t, ?_⟩
  rw [mem_tripletBlock]
  intro a
  match a with
  | ⟨0, _⟩ => show win1_7.index t (0 : Fin 2) * 4000 ≤ (i 0).val ∧ (i 0).val < win1_7.index t (0 : Fin 2) * 4000 + 4000; omega
  | ⟨1, _⟩ => show win1_7.index t (1 : Fin 2) * 64 ≤ (i 1).val ∧ (i 1).val < win1_7.index t (1 : Fin 2) * 64 + 64; omega

/-- The output array of region 1 after the run of its grid is stage B of the arrays the region was entered with. -/
theorem final1 (c : Dev nD) :
    (dat1 (F := Ideal) V c).arrAt 7 cfg1.N
      = stageB (V c main_arg2) (V c main_arg3) (V c main_v1) (V c main_arg7) (V c main_arg8) (V c main_arg9) (V c main_arg10) :=
  (dat1 (F := Ideal) V c).arrAt_eq_of_cover 7 _ (fun t _ => tripletFlushed V c t) tripletCover

end Cert.KernelIdeal.KVal

end
-- ==== Proof.KVal2.lean ====
/- Region 2 (the final residual network): after its 50 grid points the two output arrays hold stage C's
   e1 and e2 of the region's input arrays, block of 2000 rows by block of 2000 rows. -/
import proofs.«426082_j5952824672726_2_alg».proof.Proof.Gen.KernelIdeal.Frame
import proofs.«426082_j5952824672726_2_alg».proof.Proof.Spec
import proofs.«426082_j5952824672726_2_alg».proof.Proof.SpecRows
import proofs.«426082_j5952824672726_2_alg».proof.Proof.SpecOps

set_option maxRecDepth 16384

noncomputable section

namespace Cert.KernelIdeal.KVal

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-! ## The body's arithmetic, payload by payload, as the specification's functions -/

/-- A stack of one matrix viewed as that matrix is its member 0. -/
theorem cast_member1 (W : Stack 1 128 128) (h : (⟨3, ![1, 128, 128]⟩ : Shape).ShapeCasts ⟨2, ![128, 128]⟩) :
    shapeCast ⟨2, ![128, 128]⟩ W h = member W 0 := by
  funext i
  rw [eq_ix2 i]
  exact shapeCast_1ab_ab_apply W h (i 0) (i 1)

/-- A one-row matrix viewed as a vector is its row 0. -/
theorem cast_row1 (b : Mat 1 128) (h : (⟨2, ![1, 128]⟩ : Shape).ShapeCasts ⟨1, ![128]⟩) :
    shapeCast ⟨1, ![128]⟩ b h = rowOf b 0 := by
  funext i
  rw [eq_ix1 i]
  exact shapeCast_1a_a_apply b h (i 0)

/-- The block products of the body, in whatever float formats their operands are held, are matrix products. -/
theorem mm_128 {φ₁ φ₂ : FTy} (A : FVec Ideal ⟨2, ![2000, 128]⟩ φ₁) (B : FVec Ideal ⟨2, ![128, 128]⟩ φ₂) :
    matmul (F := Ideal) dot_S2000x128_S128x128_S2000x128_1_0_0_1_n_n none A B (constant S2000x128 .f32 0x00000000#32) = mm A B :=
  matmul_eq_mm (M := 2000) (K := 128) (N := 128) dot_S2000x128_S128x128_S2000x128_1_0_0_1_n_n rfl none A B

theorem mm_64 {φ₁ φ₂ : FTy} (A : FVec Ideal ⟨2, ![2000, 64]⟩ φ₁) (B : FVec Ideal ⟨2, ![64, 128]⟩ φ₂) :
    matmul (F := Ideal) dot_S2000x64_S64x128_S2000x128_1_0_0_1_n_n none A B (constant S2000x128 .f32 0x00000000#32) = mm A B :=
  matmul_eq_mm (M := 2000) (K := 64) (N := 128) dot_S2000x64_S64x128_S2000x128_1_0_0_1_n_n rfl none A B

theorem mm_6 {φ₁ φ₂ : FTy} (A : FVec Ideal ⟨2, ![2000, 6]⟩ φ₁) (B : FVec Ideal ⟨2, ![6, 128]⟩ φ₂) :
    matmul (F := Ideal) dot_S2000x6_S6x128_S2000x128_1_0_0_1_n_n none A B (constant S2000x128 .f32 0x00000000#32) = mm A B :=
  matmul_eq_mm (M := 2000) (K := 6) (N := 128) dot_S2000x6_S6x128_S2000x128_1_0_0_1_n_n rfl none A B

/-- The entry of the residual network: x_ji plus selu of the up-projected segment sums. -/
theorem pay3_eq (X1 : Mat 2000 128) (Wji : Mat 128 128) (bji : Row 128) (S : Mat 2000 64) (Wup : Mat 64 128) :
    k2_pay3 (F := Ideal) X1 Wji bji S Wup = addM (xji X1 Wji bji) (seluM (mm S Wup)) := by
  unfold k2_pay3
  simp only [truncf_ideal, shapeCast_self, mm_128, mm_64]
  simp only [bias_kernel]
  simp only [selu_kernel]
  simp only [addf_eq_addM, xji]

/-- The residual block before the skip connection, with its one stacked member of weights. -/
theorem pay4_eq (X : Mat 2000 128) (W1 : Stack 1 128 128) (b1 : Mat 1 128) (W2 : Stack 1 128 128) (b2 : Mat 1 128) :
    k2_pay4 (F := Ideal) X W1 b1 W2 b2 = resBlock X (member W1 0) (rowOf b1 0) (member W2 0) (rowOf b2 0) := by
  unfold k2_pay4
  simp only [truncf_ideal, cast_member1, cast_row1, mm_128]
  simp only [bias_kernel]
  simp only [selu_kernel]
  simp only [addf_eq_addM, resBlock]

/-- The linear layer, its selu, and the skip connection from x1. -/
theorem pay5_eq (X1 : Mat 2000 128) (Y : Mat 2000 128) (Wlin : Mat 128 128) (blin : Row 128) :
    k2_pay5 (F := Ideal) X1 Y Wlin blin = addM (seluM (addRow (mm Y Wlin) blin)) X1 := by
  unfold k2_pay5
  simp only [truncf_ideal, mm_128]
  simp only [bias_kernel]
  simp only [selu_kernel]
  simp only [addf_eq_addM]

theorem pay6_eq (W : Vec Ideal S1x128x128 .f32) :
    k2_pay6 (F := Ideal) W = shapeCast S128x128 W shapeCasts_S1x128x128_S128x128 := rfl

theorem pay7_eq (b : Vec Ideal S1x128 .f32) :
    k2_pay7 (F := Ideal) b = shapeCast S128 b shapeCasts_S1x128_S128 := rfl

theorem pay10_eq (W : Vec Ideal S1x128x128 .f32) :
    k2_pay10 (F := Ideal) W = shapeCast S128x128 W shapeCasts_S1x128x128_S128x128 := rfl

theorem pay11_eq (b : Vec Ideal S1x128 .f32) :
    k2_pay11 (F := Ideal) b = shapeCast S128 b shapeCasts_S1x128_S128 := rfl

/-- The first half of a residual block is held up to the scale of its selu; the second half applies the scale. -/
theorem pay98_eq (Z : Mat 2000 128) (W2 : Mat 128 128) (b2 : Row 128) (X1 : Mat 2000 128) (Y : Mat 2000 128)
    (Wlin : Mat 128 128) (blin : Row 128) (W1s : Vec Ideal S1x128x128 .f32) (b1s : Vec Ideal S1x128 .f32) :
    k2_pay9 (F := Ideal) Z W2 b2 (k2_pay8 X1 Y Wlin blin W1s b1s)
      = addM Z (seluM (addRow (mm (seluM (addRow (mm (k2_pay5 (F := Ideal) X1 Y Wlin blin)
          (shapeCast S128x128 W1s shapeCasts_S1x128x128_S128x128)) (shapeCast S128 b1s shapeCasts_S1x128_S128))) W2) b2)) := by
  unfold k2_pay9 k2_pay8
  simp only [truncf_ideal, mm_128]
  simp only [bias_kernel]
  simp only [selu_kernel]
  simp only [addf_eq_addM]

/-- The first affine layer of the last residual block. -/
theorem pay12_eq (Z : Mat 2000 128) (W2 : Mat 128 128) (b2 : Row 128) (U : Mat 2000 128)
    (W1s : Vec Ideal S1x128x128 .f32) (b1s : Vec Ideal S1x128 .f32) :
    k2_pay12 (F := Ideal) Z W2 b2 U W1s b1s
      = addRow (mm (k2_pay9 (F := Ideal) Z W2 b2 U) (shapeCast S128x128 W1s shapeCasts_S1x128x128_S128x128))
          (shapeCast S128 b1s shapeCasts_S1x128_S128) := by
  unfold k2_pay12
  simp only [truncf_ideal, mm_128]
  simp only [bias_kernel]

/-- The last residual block from its first affine layer, whose comparison with zero and whose scaled
    exponential are held apart. -/
theorem pay1_eq (A : Mat 2000 128) (W2' : Mat 128 128) (b2' : Row 128)
    (Z : Mat 2000 128) (W2 : Mat 128 128) (b2 : Row 128) (U : Mat 2000 128)
    (W1s : Vec Ideal S1x128x128 .f32) (b1s : Vec Ideal S1x128 .f32) :
    k2_pay1 (F := Ideal) A W2' b2' (k2_pay12 Z W2 b2 U W1s b1s) (k2_pay13 Z W2 b2 U W1s b1s) (k2_pay14 Z W2 b2 U W1s b1s)
      = addM A (seluM (addRow (mm (seluM (k2_pay12 (F := Ideal) Z W2 b2 U W1s b1s)) W2') b2')) := by
  unfold k2_pay1 k2_pay13 k2_pay14
  simp only [truncf_ideal, mm_128]
  simp only [bias_kernel]
  simp only [selu_kernel]
  simp only [addf_eq_addM]

/-- The second result is the projected radial basis times the first. -/
theorem pay2_eq (A : Mat 2000 128) (W2' : Mat 128 128) (b2' : Row 128) (P : Mat 2000 128) (Q : IVec S2000x128 1) (R : Mat 2000 128)
    (RBF : Mat 2000 6) (Wrbf : Mat 6 128) :
    k2_pay2 (F := Ideal) A W2' b2' P Q R RBF Wrbf = mulM (mm RBF Wrbf) (k2_pay1 (F := Ideal) A W2' b2' P Q R) := by
  unfold k2_pay2
  simp only [truncf_ideal, mm_6]
  simp only [mulf_eq_mulM]

/-! ## The body's loads -/

theorem hz1 : (![0] : Fin 1 → Nat) = fun _ => 0 := funext fun a => match a with | ⟨0, _⟩ => rfl
theorem hz2 : (![0, 0] : Fin 2 → Nat) = fun _ => 0 := funext fun a => match a with | ⟨0, _⟩ => rfl | ⟨1, _⟩ => rfl
theorem hz3 : (![0, 0, 0] : Fin 3 → Nat) = fun _ => 0 :=
  funext fun a => match a with | ⟨0, _⟩ => rfl | ⟨1, _⟩ => rfl | ⟨2, _⟩ => rfl

/-- Member g of a stack of two matrices, loaded as the one-matrix rectangle at offset g and viewed as a matrix. -/
theorem ld_member (W : Vec Ideal S2x128x128 .f32) (g : Fin 2) (off : Fin 3 → Nat) (hoff : off = ![g.val, 0, 0])
    (inb : ∀ a, off a + S1x128x128.size a ≤ S2x128x128.size a) :
    @shapeCast S1x128x128 (Elt Ideal .f32) S128x128 (View.ld (Val := Elt Ideal) W (Rect.unit (s := S2x128x128) off S1x128x128.size inb)) shapeCasts_S1x128x128_S128x128
      = member W g := by
  subst hoff
  funext i
  rw [eq_ix2 i]
  refine (shapeCast_1ab_ab_apply _ _ (i 0) (i 1)).trans ?_
  show W _ = W _
  refine congrArg W (funext fun a => Fin.ext ?_)
  match a with
  | ⟨0, _⟩ => show g.val + 1 * 0 = g.val; omega
  | ⟨1, _⟩ => show 0 + 1 * (i 0).val = (i 0).val; omega
  | ⟨2, _⟩ => show 0 + 1 * (i 1).val = (i 1).val; omega

/-- Row g of a two-row matrix, loaded as the one-row rectangle at offset g and viewed as a vector. -/
theorem ld_row (b : Vec Ideal S2x128 .f32) (g : Fin 2) (off : Fin 2 → Nat) (hoff : off = ![g.val, 0])
    (inb : ∀ a, off a + S1x128.size a ≤ S2x128.size a) :
    @shapeCast S1x128 (Elt Ideal .f32) S128 (View.ld (Val := Elt Ideal) b (Rect.unit (s := S2x128) off S1x128.size inb)) shapeCasts_S1x128_S128 = rowOf b g := by
  subst hoff
  funext i
  rw [eq_ix1 i]
  refine (shapeCast_1a_a_apply _ _ (i 0)).trans ?_
  show b _ = b _
  refine congrArg b (funext fun a => Fin.ext ?_)
  match a with
  | ⟨0, _⟩ => show g.val + 1 * 0 = g.val; omega
  | ⟨1, _⟩ => show 0 + 1 * (i 0).val = (i 0).val; omega

theorem ld_r2_7 (W : Stack 2 128 128) :
    @shapeCast S1x128x128 (Elt Ideal .f32) S128x128 (View.ld (Val := Elt Ideal) (e' := .f32) W r2_7) shapeCasts_S1x128x128_S128x128 = member W 0 := ld_member W 0 _ rfl _
theorem ld_r2_9 (W : Stack 2 128 128) :
    @shapeCast S1x128x128 (Elt Ideal .f32) S128x128 (View.ld (Val := Elt Ideal) (e' := .f32) W r2_9) shapeCasts_S1x128x128_S128x128 = member W 1 := ld_member W 1 _ rfl _
theorem ld_r2_8 (b : Mat 2 128) :
    @shapeCast S1x128 (Elt Ideal .f32) S128 (View.ld (Val := Elt Ideal) (e' := .f32) b r2_8) shapeCasts_S1x128_S128 = rowOf b 0 := ld_row b 0 _ rfl _
theorem ld_r2_10 (b : Mat 2 128) :
    @shapeCast S1x128 (Elt Ideal .f32) S128 (View.ld (Val := Elt Ideal) (e' := .f32) b r2_10) shapeCasts_S1x128_S128 = rowOf b 1 := ld_row b 1 _ rfl _

/-! ## The body as one function of its whole blocks -/

/-- What the body leaves in the first output block is e1 of its input blocks. -/
theorem out17_eq (x0 : Mat 2000 64) (x1 : Mat 2000 128) (x2 : Mat 2000 6) (x3 : Mat 128 128) (x4 : Row 128) (x5 : Mat 64 128)
    (x6 : Stack 1 128 128) (x7 : Mat 1 128) (x8 : Stack 1 128 128) (x9 : Mat 1 128) (x10 : Mat 128 128) (x11 : Row 128)
    (x12 : Stack 2 128 128) (x13 : Mat 2 128) (x14 : Stack 2 128 128) (x15 : Mat 2 128) (x16 : Mat 6 128) :
    out2_17 (F := Ideal) x0 x1 x2 x3 x4 x5 x6 x7 x8 x9 x10 x11 x12 x13 x14 x15 x16
      = stageC1 x0 x1 x3 x4 x5 x6 x7 x8 x9 x10 x11 x12 x13 x14 x15 := by
  unfold out2_17
  rw [View.canon_unit_zero hz2]
  simp only [View.ld_unit_zero (S := S2000x128) hz2, View.ld_unit_zero (S := S128x128) hz2, View.ld_unit_zero (S := S128) hz1,
    View.ld_unit_zero (S := S2000x64) hz2, View.ld_unit_zero (S := S64x128) hz2, View.ld_unit_zero (S := S1x128x128) hz3,
    View.ld_unit_zero (S := S1x128) hz2]
  rw [pay1_eq]
  simp only [pay12_eq, pay98_eq, pay5_eq, pay4_eq, pay3_eq, pay6_eq, pay7_eq, pay10_eq, pay11_eq]
  rw [ld_r2_7 x12, ld_r2_7 x14, ld_r2_8 x13, ld_r2_8 x15, ld_r2_9 x12, ld_r2_9 x14, ld_r2_10 x13, ld_r2_10 x15]
  simp only [stageC1, stageC1core, resBlock]

/-- What it leaves in the second is the projected radial basis times the first. -/
theorem out18_eq (x0 : Mat 2000 64) (x1 : Mat 2000 128) (x2 : Mat 2000 6) (x3 : Mat 128 128) (x4 : Row 128) (x5 : Mat 64 128)
    (x6 : Stack 1 128 128) (x7 : Mat 1 128) (x8 : Stack 1 128 128) (x9 : Mat 1 128) (x10 : Mat 128 128) (x11 : Row 128)
    (x12 : Stack 2 128 128) (x13 : Mat 2 128) (x14 : Stack 2 128 128) (x15 : Mat 2 128) (x16 : Mat 6 128) :
    out2_18 (F := Ideal) x0 x1 x2 x3 x4 x5 x6 x7 x8 x9 x10 x11 x12 x13 x14 x15 x16
      = stageC2 x2 x16 (stageC1 x0 x1 x3 x4 x5 x6 x7 x8 x9 x10 x11 x12 x13 x14 x15) := by
  rw [← out17_eq x0 x1 x2 x3 x4 x5 x6 x7 x8 x9 x10 x11 x12 x13 x14 x15 x16]
  unfold out2_18 out2_17
  rw [View.canon_unit_zero hz2, View.canon_unit_zero hz2, pay2_eq]
  simp only [View.ld_unit_zero (S := S2000x6) hz2, View.ld_unit_zero (S := S6x128) hz2, stageC2]

/-! ## Each window's block at a point, as rows of its array or as the whole array -/

theorem N2 : cfg2.N = 50 := N_2

/-- A block of 2000 rows at any of the 50 points lies inside the 100000 rows. -/
theorem row_le (t : Fin cfg2.N) : 2000 * t.val + 2000 ≤ 100000 := by
  have h := t.isLt
  have hN : cfg2.N = 50 := N_2
  omega

/-- The row-blocked windows' index maps: block t on the rows, block 0 on the columns. -/
theorem idx_rows : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_17.index t (0 : Fin 2) = t.val ∧ win2_17.index t (1 : Fin 2) = 0)
    ∧ (win2_18.index t (0 : Fin 2) = t.val ∧ win2_18.index t (1 : Fin 2) = 0) :=
  (by decide +kernel : ∀ t : Fin grid2.N, _)

/-- The resident windows' index maps are constant zero: matrices, -/
theorem idx_res2 : ∀ t : Fin cfg2.N,
    (win2_3.index t (0 : Fin 2) = 0 ∧ win2_3.index t (1 : Fin 2) = 0)
    ∧ (win2_5.index t (0 : Fin 2) = 0 ∧ win2_5.index t (1 : Fin 2) = 0)
    ∧ (win2_7.index t (0 : Fin 2) = 0 ∧ win2_7.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_13.index t (0 : Fin 2) = 0 ∧ win2_13.index t (1 : Fin 2) = 0)
    ∧ (win2_15.index t (0 : Fin 2) = 0 ∧ win2_15.index t (1 : Fin 2) = 0)
    ∧ (win2_16.index t (0 : Fin 2) = 0 ∧ win2_16.index t (1 : Fin 2) = 0) :=
  (by decide +kernel : ∀ t : Fin grid2.N, _)

/-- vectors, -/
theorem idx_res1 : ∀ t : Fin cfg2.N, win2_4.index t (0 : Fin 1) = 0 ∧ win2_11.index t (0 : Fin 1) = 0 :=
  (by decide +kernel : ∀ t : Fin grid2.N, _)

/-- and stacks. -/
theorem idx_res3 : ∀ t : Fin cfg2.N,
    (win2_6.index t (0 : Fin 3) = 0 ∧ win2_6.index t (1 : Fin 3) = 0 ∧ win2_6.index t (2 : Fin 3) = 0)
    ∧ (win2_8.index t (0 : Fin 3) = 0 ∧ win2_8.index t (1 : Fin 3) = 0 ∧ win2_8.index t (2 : Fin 3) = 0)
    ∧ (win2_12.index t (0 : Fin 3) = 0 ∧ win2_12.index t (1 : Fin 3) = 0 ∧ win2_12.index t (2 : Fin 3) = 0)
    ∧ (win2_14.index t (0 : Fin 3) = 0 ∧ win2_14.index t (1 : Fin 3) = 0 ∧ win2_14.index t (2 : Fin 3) = 0) :=
  (by decide +kernel : ∀ t : Fin grid2.N, _)

/-- Window 0's block at point t is rows 2000 t … 2000 t + 1999 of the segment sums. -/
theorem blk0 (c : Dev nD) (t : Fin cfg2.N) :
    (iblk2 V c 0 t : Mat 2000 64) = rowsAt 2000 (2000 * t.val) (row_le t) (V c main_v5) := by
  obtain ⟨⟨h0, h1⟩, -⟩ := idx_rows t
  funext (y : S2000x64.Idx)
  unfold iblk2
  rw [View.read_apply]
  show V c main_v5 _ = V c main_v5 _
  refine congrArg (V c main_v5) (funext fun a => Fin.ext ?_)
  match a with
  | ⟨0, _⟩ => show win2_0.index t (0 : Fin 2) * 2000 + 1 * (y 0).val = 2000 * t.val + (y 0).val; omega
  | ⟨1, _⟩ => show win2_0.index t (1 : Fin 2) * 64 + 1 * (y 1).val = (y 1).val; omega

/-- Window 1's block is the same rows of x1, -/
theorem blk1 (c : Dev nD) (t : Fin cfg2.N) :
    (iblk2 V c 1 t : Mat 2000 128) = rowsAt 2000 (2000 * t.val) (row_le t) (V c main_arg0) := by
  obtain ⟨-, ⟨h0, h1⟩, -⟩ := idx_rows t
  funext (y : S2000x128.Idx)
  unfold iblk2
  rw [View.read_apply]
  show V c main_arg0 _ = V c main_arg0 _
  refine congrArg (V c main_arg0) (funext fun a => Fin.ext ?_)
  match a with
  | ⟨0, _⟩ => show win2_1.index t (0 : Fin 2) * 2000 + 1 * (y 0).val = 2000 * t.val + (y 0).val; omega
  | ⟨1, _⟩ => show win2_1.index t (1 : Fin 2) * 128 + 1 * (y 1).val = (y 1).val; omega

/-- and window 2's of the radial basis. -/
theorem blk2 (c : Dev nD) (t : Fin cfg2.N) :
    (iblk2 V c 2 t : Mat 2000 6) = rowsAt 2000 (2000 * t.val) (row_le t) (V c main_arg1) := by
  obtain ⟨-, -, ⟨h0, h1⟩, -⟩ := idx_rows t
  funext (y : S2000x6.Idx)
  unfold iblk2
  rw [View.read_apply]
  show V c main_arg1 _ = V c main_arg1 _
  refine congrArg (V c main_arg1) (funext fun a => Fin.ext ?_)
  match a with
  | ⟨0, _⟩ => show win2_2.index t (0 : Fin 2) * 2000 + 1 * (y 0).val = 2000 * t.val + (y 0).val; omega
  | ⟨1, _⟩ => show win2_2.index t (1 : Fin 2) * 6 + 1 * (y 1).val = (y 1).val; omega

/-- Every weight window's block is its whole array. -/
theorem blk3 (c : Dev nD) (t : Fin cfg2.N) : (iblk2 V c 3 t : Mat 128 128) = V c main_arg14 := by
  obtain ⟨⟨h0, h1⟩, -⟩ := idx_res2 t
  funext (y : S128x128.Idx)
  unfold iblk2
  rw [View.read_apply]
  show V c main_arg14 _ = V c main_arg14 y
  refine congrArg (V c main_arg14) (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

theorem blk4 (c : Dev nD) (t : Fin cfg2.N) : (iblk2 V c 4 t : Row 128) = V c main_arg15 := by
  obtain ⟨h0, -⟩ := idx_res1 t
  funext (y : S128.Idx)
  unfold iblk2
  rw [View.read_apply]
  show V c main_arg15 _ = V c main_arg15 y
  refine congrArg (V c main_arg15) (funext fun a => Fin.ext ?_)
  match a with
  | ⟨0, _⟩ => show win2_4.index t (0 : Fin 1) * 128 + 1 * (y 0).val = (y 0).val; omega

theorem blk5 (c : Dev nD) (t : Fin cfg2.N) : (iblk2 V c 5 t : Mat 64 128) = V c main_arg17 := by
  obtain ⟨-, ⟨h0, h1⟩, -⟩ := idx_res2 t
  funext (y : S64x128.Idx)
  unfold iblk2
  rw [View.read_apply]
  show V c main_arg17 _ = V c main_arg17 y
  refine congrArg (V c main_arg17) (funext fun a => Fin.ext ?_)
  match a with
  | ⟨0, _⟩ => show win2_5.index t (0 : Fin 2) * 64 + 1 * (y 0).val = (y 0).val; omega
  | ⟨1, _⟩ => show win2_5.index t (1 : Fin 2) * 128 + 1 * (y 1).val = (y 1).val; omega

theorem blk6 (c : Dev nD) (t : Fin cfg2.N) : (iblk2 V c 6 t : Stack 1 128 128) = V c main_arg20 := by
  obtain ⟨⟨h0, h1, h2⟩, -⟩ := idx_res3 t
  funext (y : S1x128x128.Idx)
  unfold iblk2
  rw [View.read_apply]
  show V c main_arg20 _ = V c main_arg20 y
  refine congrArg (V c main_arg20) (funext fun a => Fin.ext ?_)
  match a with
  | ⟨0, _⟩ => show win2_6.index t (0 : Fin 3) * 1 + 1 * (y 0).val = (y 0).val; omega
  | ⟨1, _⟩ => show win2_6.index t (1 : Fin 3) * 128 + 1 * (y 1).val = (y 1).val; omega
  | ⟨2, _⟩ => show win2_6.index t (2 : Fin 3) * 128 + 1 * (y 2).val = (y 2).val; omega

theorem blk7 (c : Dev nD) (t : Fin cfg2.N) : (iblk2 V c 7 t : Mat 1 128) = V c main_arg21 := by
  obtain ⟨-, -, ⟨h0, h1⟩, -⟩ := idx_res2 t
  funext (y : S1x128.Idx)
  unfold iblk2
  rw [View.read_apply]
  show V c main_arg21 _ = V c main_arg21 y
  refine congrArg (V c main_arg21) (funext fun a => Fin.ext ?_)
  match a with
  | ⟨0, _⟩ => show win2_7.index t (0 : Fin 2) * 1 + 1 * (y 0).val = (y 0).val; omega
  | ⟨1, _⟩ => show win2_7.index t (1 : Fin 2) * 128 + 1 * (y 1).val = (y 1).val; omega

theorem blk8 (c : Dev nD) (t : Fin cfg2.N) : (iblk2 V c 8 t : Stack 1 128 128) = V c main_arg22 := by
  obtain ⟨-, ⟨h0, h1, h2⟩, -⟩ := idx_res3 t
  funext (y : S1x128x128.Idx)
  unfold iblk2
  rw [View.read_apply]
  show V c main_arg22 _ = V c main_arg22 y
  refine congrArg (V c main_arg22) (funext fun a => Fin.ext ?_)
  match a with
  | ⟨0, _⟩ => show win2_8.index t (0 : Fin 3) * 1 + 1 * (y 0).val = (y 0).val; omega
  | ⟨1, _⟩ => show win2_8.index t (1 : Fin 3) * 128 + 1 * (y 1).val = (y 1).val; omega
  | ⟨2, _⟩ => show win2_8.index t (2 : Fin 3) * 128 + 1 * (y 2).val = (y 2).val; omega

theorem blk9 (c : Dev nD) (t : Fin cfg2.N) : (iblk2 V c 9 t : Mat 1 128) = V c main_arg23 := by
  obtain ⟨-, -, -, ⟨h0, h1⟩, -⟩ := idx_res2 t
  funext (y : S1x128.Idx)
  unfold iblk2
  rw [View.read_apply]
  show V c main_arg23 _ = V c main_arg23 y
  refine congrArg (V c main_arg23) (funext fun a => Fin.ext ?_)
  match a with
  | ⟨0, _⟩ => show win2_9.index t (0 : Fin 2) * 1 + 1 * (y 0).val = (y 0).val; omega
  | ⟨1, _⟩ => show win2_9.index t (1 : Fin 2) * 128 + 1 * (y 1).val = (y 1).val; omega

theorem blk10 (c : Dev nD) (t : Fin cfg2.N) : (iblk2 V c 10 t : Mat 128 128) = V c main_arg18 := by
  obtain ⟨-, -, -, -, ⟨h0, h1⟩, -⟩ := idx_res2 t
  funext (y : S128x128.Idx)
  unfold iblk2
  rw [View.read_apply]
  show V c main_arg18 _ = V c main_arg18 y
  refine congrArg (V c main_arg18) (funext fun a => Fin.ext ?_)
  match a with
  | ⟨0, _⟩ => show win2_10.index t (0 : Fin 2) * 128 + 1 * (y 0).val = (y 0).val; omega
  | ⟨1, _⟩ => show win2_10.index t (1 : Fin 2) * 128 + 1 * (y 1).val = (y 1).val; omega

theorem blk11 (c : Dev nD) (t : Fin cfg2.N) : (iblk2 V c 11 t : Row 128) = V c main_arg19 := by
  obtain ⟨-, h0⟩ := idx_res1 t
  funext (y : S128.Idx)
  unfold iblk2
  rw [View.read_apply]
  show V c main_arg19 _ = V c main_arg19 y
  refine congrArg (V c main_arg19) (funext fun a => Fin.ext ?_)
  match a with
  | ⟨0, _⟩ => show win2_11.index t (0 : Fin 1) * 128 + 1 * (y 0).val = (y 0).val; omega

theorem blk12 (c : Dev nD) (t : Fin cfg2.N) : (iblk2 V c 12 t : Stack 2 128 128) = V c main_arg24 := by
  obtain ⟨-, -, ⟨h0, h1, h2⟩, -⟩ := idx_res3 t
  funext (y : S2x128x128.Idx)
  unfold iblk2
  rw [View.read_apply]
  show V c main_arg24 _ = V c main_arg24 y
  refine congrArg (V c main_arg24) (funext fun a => Fin.ext ?_)
  match a with
  | ⟨0, _⟩ => show win2_12.index t (0 : Fin 3) * 2 + 1 * (y 0).val = (y 0).val; omega
  | ⟨1, _⟩ => show win2_12.index t (1 : Fin 3) * 128 + 1 * (y 1).val = (y 1).val; omega
  | ⟨2, _⟩ => show win2_12.index t (2 : Fin 3) * 128 + 1 * (y 2).val = (y 2).val; omega

theorem blk13 (c : Dev nD) (t : Fin cfg2.N) : (iblk2 V c 13 t : Mat 2 128) = V c main_arg25 := by
  obtain ⟨-, -, -, -, -, ⟨h0, h1⟩, -⟩ := idx_res2 t
  funext (y : S2x128.Idx)
  unfold iblk2
  rw [View.read_apply]
  show V c main_arg25 _ = V c main_arg25 y
  refine congrArg (V c main_arg25) (funext fun a => Fin.ext ?_)
  match a with
  | ⟨0, _⟩ => show win2_13.index t (0 : Fin 2) * 2 + 1 * (y 0).val = (y 0).val; omega
  | ⟨1, _⟩ => show win2_13.index t (1 : Fin 2) * 128 + 1 * (y 1).val = (y 1).val; omega

theorem blk14 (c : Dev nD) (t : Fin cfg2.N) : (iblk2 V c 14 t : Stack 2 128 128) = V c main_arg26 := by
  obtain ⟨-, -, -, ⟨h0, h1, h2⟩⟩ := idx_res3 t
  funext (y : S2x128x128.Idx)
  unfold iblk2
  rw [View.read_apply]
  show V c main_arg26 _ = V c main_arg26 y
  refine congrArg (V c main_arg26) (funext fun a => Fin.ext ?_)
  match a with
  | ⟨0, _⟩ => show win2_14.index t (0 : Fin 3) * 2 + 1 * (y 0).val = (y 0).val; omega
  | ⟨1, _⟩ => show win2_14.index t (1 : Fin 3) * 128 + 1 * (y 1).val = (y 1).val; omega
  | ⟨2, _⟩ => show win2_14.index t (2 : Fin 3) * 128 + 1 * (y 2).val = (y 2).val; omega

theorem blk15 (c : Dev nD) (t : Fin cfg2.N) : (iblk2 V c 15 t : Mat 2 128) = V c main_arg27 := by
  obtain ⟨-, -, -, -, -, -, ⟨h0, h1⟩, -⟩ := idx_res2 t
  funext (y : S2x128.Idx)
  unfold iblk2
  rw [View.read_apply]
  show V c main_arg27 _ = V c main_arg27 y
  refine congrArg (V c main_arg27) (funext fun a => Fin.ext ?_)
  match a with
  | ⟨0, _⟩ => show win2_15.index t (0 : Fin 2) * 2 + 1 * (y 0).val = (y 0).val; omega
  | ⟨1, _⟩ => show win2_15.index t (1 : Fin 2) * 128 + 1 * (y 1).val = (y 1).val; omega

theorem blk16 (c : Dev nD) (t : Fin cfg2.N) : (iblk2 V c 16 t : Mat 6 128) = V c main_arg11 := by
  obtain ⟨-, -, -, -, -, -, -, ⟨h0, h1⟩⟩ := idx_res2 t
  funext (y : S6x128.Idx)
  unfold iblk2
  rw [View.read_apply]
  show V c main_arg11 _ = V c main_arg11 y
  refine congrArg (V c main_arg11) (funext fun a => Fin.ext ?_)
  match a with
  | ⟨0, _⟩ => show win2_16.index t (0 : Fin 2) * 6 + 1 * (y 0).val = (y 0).val; omega
  | ⟨1, _⟩ => show win2_16.index t (1 : Fin 2) * 128 + 1 * (y 1).val = (y 1).val; omega

/-! ## What each point writes back, and the arrays after the run -/

/-- Rows 2000 t … 2000 t + 1999 of a whole array are what the first output window's block at point t reads of it. -/
theorem rows_blk17 (c : Dev nD) (t : Fin cfg2.N) (G : Mat 100000 128) :
    (cfg2.win 17).cut (grid2.coords t) (rowsAt 2000 (2000 * t.val) (row_le t) G)
      = ((cfg2.win 17).blk t).view.read (Elt Ideal) G := by
  obtain ⟨-, -, -, ⟨h0, h1⟩, -⟩ := idx_rows t
  funext (y : S2000x128.Idx)
  rw [View.read_apply]
  show G _ = G _
  refine congrArg G (funext fun a => Fin.ext ?_)
  match a with
  | ⟨0, _⟩ => show 2000 * t.val + (y 0).val = win2_17.index t (0 : Fin 2) * 2000 + 1 * (y 0).val; omega
  | ⟨1, _⟩ => show (y 1).val = win2_17.index t (1 : Fin 2) * 128 + 1 * (y 1).val; omega

/-- The same for the second output window. -/
theorem rows_blk18 (c : Dev nD) (t : Fin cfg2.N) (G : Mat 100000 128) :
    (cfg2.win 18).cut (grid2.coords t) (rowsAt 2000 (2000 * t.val) (row_le t) G)
      = ((cfg2.win 18).blk t).view.read (Elt Ideal) G := by
  obtain ⟨-, -, -, -, ⟨h0, h1⟩⟩ := idx_rows t
  funext (y : S2000x128.Idx)
  rw [View.read_apply]
  show G _ = G _
  refine congrArg G (funext fun a => Fin.ext ?_)
  match a with
  | ⟨0, _⟩ => show 2000 * t.val + (y 0).val = win2_18.index t (0 : Fin 2) * 2000 + 1 * (y 0).val; omega
  | ⟨1, _⟩ => show (y 1).val = win2_18.index t (1 : Fin 2) * 128 + 1 * (y 1).val; omega

/-- Point t writes back rows 2000 t … of e1 of the whole arrays: e1 acts row by row. -/
theorem flushed17 (c : Dev nD) (t : Fin cfg2.N) :
    (dat2 (F := Ideal) V c).flushed 17 t
      = ((cfg2.win 17).blk t).view.read (Elt Ideal)
          (stageC1 (V c main_v5) (V c main_arg0) (V c main_arg14) (V c main_arg15) (V c main_arg17)
          (V c main_arg20) (V c main_arg21) (V c main_arg22) (V c main_arg23) (V c main_arg18) (V c main_arg19)
          (V c main_arg24) (V c main_arg25) (V c main_arg26) (V c main_arg27)) := by
  show (cfg2.win 17).cut (grid2.coords t) ((dat2 (F := Ideal) V c).after 17 t) = _
  rw [after2_17,
    out17_eq (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t)]
  rw [blk0 V c t, blk1 V c t, blk3 V c t, blk4 V c t, blk5 V c t, blk6 V c t, blk7 V c t, blk8 V c t, blk9 V c t,
    blk10 V c t, blk11 V c t, blk12 V c t, blk13 V c t, blk14 V c t, blk15 V c t]
  rw [← rowsAt_stageC1]
  exact rows_blk17 c t _

/-- And rows 2000 t … of e2. -/
theorem flushed18 (c : Dev nD) (t : Fin cfg2.N) :
    (dat2 (F := Ideal) V c).flushed 18 t
      = ((cfg2.win 18).blk t).view.read (Elt Ideal)
          (stageC2 (V c main_arg1) (V c main_arg11) (stageC1 (V c main_v5) (V c main_arg0) (V c main_arg14) (V c main_arg15) (V c main_arg17)
          (V c main_arg20) (V c main_arg21) (V c main_arg22) (V c main_arg23) (V c main_arg18) (V c main_arg19)
          (V c main_arg24) (V c main_arg25) (V c main_arg26) (V c main_arg27))) := by
  show (cfg2.win 18).cut (grid2.coords t) ((dat2 (F := Ideal) V c).after 18 t) = _
  rw [after2_18,
    out18_eq (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t)]
  rw [blk0 V c t, blk1 V c t, blk2 V c t, blk3 V c t, blk4 V c t, blk5 V c t, blk6 V c t, blk7 V c t, blk8 V c t, blk9 V c t,
    blk10 V c t, blk11 V c t, blk12 V c t, blk13 V c t, blk14 V c t, blk15 V c t, blk16 V c t]
  rw [← rowsAt_stageC1, ← rowsAt_stageC2]
  exact rows_blk18 c t _

/-- A row of the first output array is in point t's block iff it is one of rows 2000 t … 2000 t + 1999. -/
theorem mem_blk17 (t : Fin cfg2.N) (i : S100000x128.Idx) :
    i ∈ ((cfg2.win 17).blk t).view.set
      ↔ ∀ a : Fin 2, win2_17.index t a * S2000x128.size a ≤ (i a).val
          ∧ (i a).val < win2_17.index t a * S2000x128.size a + S2000x128.size a := by
  show i ∈ ((View.whole main_v6_0).slice (win2_17.rect t)).set ↔ _
  rw [View.set_slice_whole, Rect.mem_set_unit]
  exact Iff.rfl

theorem mem_blk18 (t : Fin cfg2.N) (i : S100000x128.Idx) :
    i ∈ ((cfg2.win 18).blk t).view.set
      ↔ ∀ a : Fin 2, win2_18.index t a * S2000x128.size a ≤ (i a).val
          ∧ (i a).val < win2_18.index t a * S2000x128.size a + S2000x128.size a := by
  show i ∈ ((View.whole main_v6_1).slice (win2_18.rect t)).set ↔ _
  rw [View.set_slice_whole, Rect.mem_set_unit]
  exact Iff.rfl

/-- Row r is covered by point r / 2000. -/
theorem cover17 (i : S100000x128.Idx) :
    ∃ t : Fin cfg2.N, (cfg2.win 17).flush t = true ∧ i ∈ ((cfg2.win 17).blk t).view.set := by
  have hN : cfg2.N = 50 := N_2
  have hi0 : (i 0).val < 100000 := (i 0).isLt
  have hi1 : (i 1).val < 128 := (i 1).isLt
  obtain ⟨t, ht⟩ : ∃ t : Fin cfg2.N, t.val = (i 0).val / 2000 := ⟨⟨(i 0).val / 2000, by omega⟩, rfl⟩
  obtain ⟨-, -, -, ⟨e0, e1⟩, -⟩ := idx_rows t
  refine ⟨t, flush2_17 t, ?_⟩
  rw [mem_blk17]
  intro a
  match a with
  | ⟨0, _⟩ =>
    show win2_17.index t (0 : Fin 2) * 2000 ≤ (i 0).val ∧ (i 0).val < win2_17.index t (0 : Fin 2) * 2000 + 2000
    omega
  | ⟨1, _⟩ =>
    show win2_17.index t (1 : Fin 2) * 128 ≤ (i 1).val ∧ (i 1).val < win2_17.index t (1 : Fin 2) * 128 + 128
    omega

theorem cover18 (i : S100000x128.Idx) :
    ∃ t : Fin cfg2.N, (cfg2.win 18).flush t = true ∧ i ∈ ((cfg2.win 18).blk t).view.set := by
  have hN : cfg2.N = 50 := N_2
  have hi0 : (i 0).val < 100000 := (i 0).isLt
  have hi1 : (i 1).val < 128 := (i 1).isLt
  obtain ⟨t, ht⟩ : ∃ t : Fin cfg2.N, t.val = (i 0).val / 2000 := ⟨⟨(i 0).val / 2000, by omega⟩, rfl⟩
  obtain ⟨-, -, -, -, ⟨e0, e1⟩⟩ := idx_rows t
  refine ⟨t, flush2_18 t, ?_⟩
  rw [mem_blk18]
  intro a
  match a with
  | ⟨0, _⟩ =>
    show win2_18.index t (0 : Fin 2) * 2000 ≤ (i 0).val ∧ (i 0).val < win2_18.index t (0 : Fin 2) * 2000 + 2000
    omega
  | ⟨1, _⟩ =>
    show win2_18.index t (1 : Fin 2) * 128 ≤ (i 1).val ∧ (i 1).val < win2_18.index t (1 : Fin 2) * 128 + 128
    omega

/-- The first output array of region 2 after the run of its grid is e1 of the arrays the region was entered with. -/
theorem final2_e1 (c : Dev nD) :
    (dat2 (F := Ideal) V c).arrAt 17 cfg2.N
      = stageC1 (V c main_v5) (V c main_arg0) (V c main_arg14) (V c main_arg15) (V c main_arg17)
          (V c main_arg20) (V c main_arg21) (V c main_arg22) (V c main_arg23) (V c main_arg18) (V c main_arg19)
          (V c main_arg24) (V c main_arg25) (V c main_arg26) (V c main_arg27) := by
  exact (dat2 (F := Ideal) V c).arrAt_eq_of_cover 17 _ (fun t _ => flushed17 V c t) cover17

/-- The second output array is e2 = (rbf0·W_rbf) ⊙ e1. -/
theorem final2_e2 (c : Dev nD) :
    (dat2 (F := Ideal) V c).arrAt 18 cfg2.N
      = stageC2 (V c main_arg1) (V c main_arg11)
          (stageC1 (V c main_v5) (V c main_arg0) (V c main_arg14) (V c main_arg15) (V c main_arg17)
            (V c main_arg20) (V c main_arg21) (V c main_arg22) (V c main_arg23) (V c main_arg18) (V c main_arg19)
            (V c main_arg24) (V c main_arg25) (V c main_arg26) (V c main_arg27)) := by
  exact (dat2 (F := Ideal) V c).arrAt_eq_of_cover 18 _ (fun t _ => flushed18 V c t) cover18

end Cert.KernelIdeal.KVal

end
-- ==== Proof.KChain.lean ====
/- The idealized kernel program's two results as ONE function of its argument arrays: the three regions'
   values chained through the host operations between them — the row gather by idx_kj after stage A, the
   segment sum by idx_ji after stage B — from the launch memory to the last boundary of @main. -/
import proofs.«426082_j5952824672726_2_alg».proof.Proof.Gen.KernelIdeal.Frame
import proofs.«426082_j5952824672726_2_alg».proof.Proof.Spec
import proofs.«426082_j5952824672726_2_alg».proof.Proof.KVal0
import proofs.«426082_j5952824672726_2_alg».proof.Proof.KVal1
import proofs.«426082_j5952824672726_2_alg».proof.Proof.KVal2
import Idealize.ShloMosaic.Lib.StableHlo.Run

set_option maxRecDepth 16384

noncomputable section

namespace Cert.KernelIdeal.KVal

open Idealize.ShloMosaic Idealize.ShloMosaic.TcCoe Idealize.ShloMosaic.ValueIdx
open Idealize.SL.Sem
open Cert.KernelIdeal Cert.KernelIdeal.Gen Cert.Spec

variable (m : (ℓ : Loc nD τ sig) → Buf (Elt Ideal) ℓ) (ρ : Dev nD → PrngReg)

/-- Stage A of the launch arrays: x_kj_down. -/
def edge (c : Dev nD) : Mat 100000 64 :=
  stageA (m ((c.tc : Thread nD τ).loc main_arg0)) (m ((c.tc : Thread nD τ).loc main_arg1)) (m ((c.tc : Thread nD τ).loc main_arg12))
    (m ((c.tc : Thread nD τ).loc main_arg13)) (m ((c.tc : Thread nD τ).loc main_arg5)) (m ((c.tc : Thread nD τ).loc main_arg6))
    (m ((c.tc : Thread nD τ).loc main_arg16))

/-- Its rows gathered by idx_kj (the host gather, which clamps every start index into the table). -/
def gathered (c : Dev nD) : Mat 500000 64 :=
  Host.gather gather_S100000x64_S500000x1_S500000x64_1_0_n_n_0_1_164 (edge m c)
    (broadcastInDim S500000x1 ![0] bcast_S500000_S500000x1_0 (m ((c.tc : Thread nD τ).loc main_arg28)))

/-- Stage B of the launch arrays and the gathered rows: the per-triplet message. -/
def message (c : Dev nD) : Mat 500000 64 :=
  stageB (m ((c.tc : Thread nD τ).loc main_arg2)) (m ((c.tc : Thread nD τ).loc main_arg3)) (gathered m c)
    (m ((c.tc : Thread nD τ).loc main_arg7)) (m ((c.tc : Thread nD τ).loc main_arg8)) (m ((c.tc : Thread nD τ).loc main_arg9))
    (m ((c.tc : Thread nD τ).loc main_arg10))

/-- The messages summed into their segments by idx_ji (the host scatter-add into zeros). -/
def summed (c : Dev nD) : Mat 100000 64 :=
  Host.scatterAdd (F := Ideal) scatter_S100000x64_S500000x1_S500000x64_1_0_0_1
    (broadcastInDim S100000x64 ![] bcast_S_S100000x64 (constant S_ .f32 0x00000000#32))
    (broadcastInDim S500000x1 ![0] bcast_S500000_S500000x1_0 (m ((c.tc : Thread nD τ).loc main_arg29)))
    (message m c)

/-- Stage C's e1 of the launch arrays and the segment sums. -/
def e1 (c : Dev nD) : Mat 100000 128 :=
  stageC1 (summed m c) (m ((c.tc : Thread nD τ).loc main_arg0)) (m ((c.tc : Thread nD τ).loc main_arg14))
    (m ((c.tc : Thread nD τ).loc main_arg15)) (m ((c.tc : Thread nD τ).loc main_arg17))
    (m ((c.tc : Thread nD τ).loc main_arg20)) (m ((c.tc : Thread nD τ).loc main_arg21)) (m ((c.tc : Thread nD τ).loc main_arg22))
    (m ((c.tc : Thread nD τ).loc main_arg23)) (m ((c.tc : Thread nD τ).loc main_arg18)) (m ((c.tc : Thread nD τ).loc main_arg19))
    (m ((c.tc : Thread nD τ).loc main_arg24)) (m ((c.tc : Thread nD τ).loc main_arg25)) (m ((c.tc : Thread nD τ).loc main_arg26))
    (m ((c.tc : Thread nD τ).loc main_arg27))

/-- Stage C's e2. -/
def e2 (c : Dev nD) : Mat 100000 128 :=
  stageC2 (m ((c.tc : Thread nD τ).loc main_arg1)) (m ((c.tc : Thread nD τ).loc main_arg11)) (e1 m c)

/-! ## The host operations between the regions, over any buffer contents -/

section HostOps

variable (W : Valuation τ sig (Elt Ideal))

/-- The operations between regions 0 and 1 write only the broadcast index column and the gathered rows. -/
theorem keep1 (b : Ref sig .tc) (h0 : b ≠ main_call0_v0) (h1 : b ≠ main_v1) :
    StableHlo.after (hostOps1 (F := Ideal)) W (Proc.devRef .tc b) = W (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, Finset.mem_singleton]
    exact ⟨StableHlo.devRef_ne_of_ne h0, StableHlo.devRef_ne_of_ne h1⟩))

/-- The gathered rows: the gather of region 0's output by the broadcast index column. -/
theorem gather1 :
    StableHlo.after (hostOps1 (F := Ideal)) W (Proc.devRef .tc main_v1)
      = Host.gather gather_S100000x64_S500000x1_S500000x64_1_0_n_n_0_1_164 (W (Proc.devRef .tc main_v0))
          (broadcastInDim S500000x1 ![0] bcast_S500000_S500000x1_0 (W (Proc.devRef .tc main_arg28))) := by
  after_results
  rfl

/-- The operations between regions 1 and 2 write only the zero constant, its broadcast, the broadcast index
    column and the segment sums. -/
theorem keep2 (b : Ref sig .tc) (h0 : b ≠ main_cst) (h1 : b ≠ main_v3) (h2 : b ≠ main_v4) (h3 : b ≠ main_v5) :
    StableHlo.after (hostOps2 (F := Ideal)) W (Proc.devRef .tc b) = W (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, Finset.mem_singleton]
    exact ⟨StableHlo.devRef_ne_of_ne h0, StableHlo.devRef_ne_of_ne h1, StableHlo.devRef_ne_of_ne h2,
      StableHlo.devRef_ne_of_ne h3⟩))

/-- The segment sums: the scatter-add of region 1's output into zeros by the broadcast index column. -/
theorem scatter2 :
    StableHlo.after (hostOps2 (F := Ideal)) W (Proc.devRef .tc main_v5)
      = Host.scatterAdd (F := Ideal) scatter_S100000x64_S500000x1_S500000x64_1_0_0_1
          (broadcastInDim S100000x64 ![] bcast_S_S100000x64 (constant S_ .f32 0x00000000#32))
          (broadcastInDim S500000x1 ![0] bcast_S500000_S500000x1_0 (W (Proc.devRef .tc main_arg29)))
          (W (Proc.devRef .tc main_v2)) := by
  after_results

end HostOps

/-! ## Region 0: its entry is the launch memory, its output stage A -/

/-- A buffer that is no array of region 0 holds at its exit what was launched. -/
theorem W1_keep (c : Dev nD) (b : Ref sig .tc) (hb : ∀ w, Pipeline.arrRef spec0 w ≠ b) :
    W1 m ρ c (Proc.devRef .tc b) = m ((c.tc : Thread nD τ).loc b) :=
  W1_of_ne m ρ c b hb

/-- An input array of region 0 holds at its exit what was launched. -/
theorem W1_in (c : Dev nD) (w : Fin cfg0.W) (hin : (cfg0.win w).isOut = false) :
    W1 m ρ c (Proc.devRef .tc (Pipeline.arrRef spec0 w)) = m ((c.tc : Thread nD τ).loc (Pipeline.arrRef spec0 w)) :=
  (W1_arr m ρ c w).trans (((dat0 (V0 m ρ) c).arrAt_in w hin _).trans (A_eq0 (V0 m ρ) c w))

/-- Region 0's output array holds stage A of the launch arrays. -/
theorem W1_v0 (c : Dev nD) : W1 m ρ c (Proc.devRef .tc main_v0) = edge m c :=
  (W1_arr m ρ c 7).trans (final0 (V0 m ρ) c)

/-! ## Region 1: its entry, and its output stage B -/

/-- At region 1's entry a buffer the gather did not write holds what region 0 left. -/
theorem V2_of_W1 (c : Dev nD) (b : Ref sig .tc) (h0 : b ≠ main_call0_v0) (h1 : b ≠ main_v1)
    (h : W1 m ρ c (Proc.devRef .tc b) = m ((c.tc : Thread nD τ).loc b)) :
    V2 m ρ c b = m ((c.tc : Thread nD τ).loc b) :=
  (keep1 (W1 m ρ c) b h0 h1).trans h

/-- At region 1's entry the gathered rows are the gather of stage A by idx_kj. -/
theorem V2_v1 (c : Dev nD) : V2 m ρ c main_v1 = gathered m c := by
  have h := gather1 (W1 m ρ c)
  rw [W1_v0 m ρ c, W1_keep m ρ c main_arg28 (by decide)] at h
  exact h

theorem V2_arg2 (c : Dev nD) : V2 m ρ c main_arg2 = m ((c.tc : Thread nD τ).loc main_arg2) :=
  V2_of_W1 m ρ c main_arg2 (by decide) (by decide) (W1_keep m ρ c main_arg2 (by decide))
theorem V2_arg3 (c : Dev nD) : V2 m ρ c main_arg3 = m ((c.tc : Thread nD τ).loc main_arg3) :=
  V2_of_W1 m ρ c main_arg3 (by decide) (by decide) (W1_keep m ρ c main_arg3 (by decide))
theorem V2_arg7 (c : Dev nD) : V2 m ρ c main_arg7 = m ((c.tc : Thread nD τ).loc main_arg7) :=
  V2_of_W1 m ρ c main_arg7 (by decide) (by decide) (W1_keep m ρ c main_arg7 (by decide))
theorem V2_arg8 (c : Dev nD) : V2 m ρ c main_arg8 = m ((c.tc : Thread nD τ).loc main_arg8) :=
  V2_of_W1 m ρ c main_arg8 (by decide) (by decide) (W1_keep m ρ c main_arg8 (by decide))
theorem V2_arg9 (c : Dev nD) : V2 m ρ c main_arg9 = m ((c.tc : Thread nD τ).loc main_arg9) :=
  V2_of_W1 m ρ c main_arg9 (by decide) (by decide) (W1_keep m ρ c main_arg9 (by decide))
theorem V2_arg10 (c : Dev nD) : V2 m ρ c main_arg10 = m ((c.tc : Thread nD τ).loc main_arg10) :=
  V2_of_W1 m ρ c main_arg10 (by decide) (by decide) (W1_keep m ρ c main_arg10 (by decide))

/-- Region 1's output array holds the per-triplet message. -/
theorem W3_v2 (c : Dev nD) : W3 m ρ c (Proc.devRef .tc main_v2) = message m c := by
  refine (W3_arr m ρ c 7).trans ((final1 (V2 m ρ) c).trans ?_)
  unfold message
  rw [V2_arg2 m ρ c, V2_arg3 m ρ c, V2_v1 m ρ c, V2_arg7 m ρ c, V2_arg8 m ρ c, V2_arg9 m ρ c, V2_arg10 m ρ c]

/-- A buffer that is no array of region 1 and that the gather did not write holds at region 1's exit what
    region 0 left. -/
theorem W3_of_W1 (c : Dev nD) (b : Ref sig .tc) (hb : ∀ w, Pipeline.arrRef spec1 w ≠ b)
    (h0 : b ≠ main_call0_v0) (h1 : b ≠ main_v1)
    (h : W1 m ρ c (Proc.devRef .tc b) = m ((c.tc : Thread nD τ).loc b)) :
    W3 m ρ c (Proc.devRef .tc b) = m ((c.tc : Thread nD τ).loc b) :=
  (W3_of_ne m ρ c b hb).trans ((keep1 (W1 m ρ c) b h0 h1).trans h)

/-! ## Region 2: its entry -/

/-- At region 2's entry a buffer neither host stretch wrote and that is no array of region 1 holds what
    region 0 left. -/
theorem V4_of_W1 (c : Dev nD) (b : Ref sig .tc)
    (hh : ∀ x ∈ [main_cst, main_v3, main_v4, main_v5, main_call0_v0, main_v1], b ≠ x)
    (hb : ∀ w, Pipeline.arrRef spec1 w ≠ b)
    (h : W1 m ρ c (Proc.devRef .tc b) = m ((c.tc : Thread nD τ).loc b)) :
    V4 m ρ c b = m ((c.tc : Thread nD τ).loc b) :=
  (keep2 (W3 m ρ c) b (hh _ (by simp)) (hh _ (by simp)) (hh _ (by simp)) (hh _ (by simp))).trans
    (W3_of_W1 m ρ c b hb (hh _ (by simp)) (hh _ (by simp)) h)

/-- At region 2's entry the segment sums are the scatter-add of the messages by idx_ji. -/
theorem V4_v5 (c : Dev nD) : V4 m ρ c main_v5 = summed m c := by
  have h := scatter2 (W3 m ρ c)
  rw [W3_v2 m ρ c, W3_of_W1 m ρ c main_arg29 (by decide) (by decide) (by decide)
    (W1_keep m ρ c main_arg29 (by decide))] at h
  exact h

theorem V4_arg0 (c : Dev nD) : V4 m ρ c main_arg0 = m ((c.tc : Thread nD τ).loc main_arg0) :=
  V4_of_W1 m ρ c main_arg0 (by decide) (by decide) (W1_in m ρ c 0 rfl)
theorem V4_arg1 (c : Dev nD) : V4 m ρ c main_arg1 = m ((c.tc : Thread nD τ).loc main_arg1) :=
  V4_of_W1 m ρ c main_arg1 (by decide) (by decide) (W1_in m ρ c 1 rfl)
theorem V4_arg11 (c : Dev nD) : V4 m ρ c main_arg11 = m ((c.tc : Thread nD τ).loc main_arg11) :=
  V4_of_W1 m ρ c main_arg11 (by decide) (by decide) (W1_keep m ρ c main_arg11 (by decide))
theorem V4_arg14 (c : Dev nD) : V4 m ρ c main_arg14 = m ((c.tc : Thread nD τ).loc main_arg14) :=
  V4_of_W1 m ρ c main_arg14 (by decide) (by decide) (W1_keep m ρ c main_arg14 (by decide))
theorem V4_arg15 (c : Dev nD) : V4 m ρ c main_arg15 = m ((c.tc : Thread nD τ).loc main_arg15) :=
  V4_of_W1 m ρ c main_arg15 (by decide) (by decide) (W1_keep m ρ c main_arg15 (by decide))
theorem V4_arg17 (c : Dev nD) : V4 m ρ c main_arg17 = m ((c.tc : Thread nD τ).loc main_arg17) :=
  V4_of_W1 m ρ c main_arg17 (by decide) (by decide) (W1_keep m ρ c main_arg17 (by decide))
theorem V4_arg18 (c : Dev nD) : V4 m ρ c main_arg18 = m ((c.tc : Thread nD τ).loc main_arg18) :=
  V4_of_W1 m ρ c main_arg18 (by decide) (by decide) (W1_keep m ρ c main_arg18 (by decide))
theorem V4_arg19 (c : Dev nD) : V4 m ρ c main_arg19 = m ((c.tc : Thread nD τ).loc main_arg19) :=
  V4_of_W1 m ρ c main_arg19 (by decide) (by decide) (W1_keep m ρ c main_arg19 (by decide))
theorem V4_arg20 (c : Dev nD) : V4 m ρ c main_arg20 = m ((c.tc : Thread nD τ).loc main_arg20) :=
  V4_of_W1 m ρ c main_arg20 (by decide) (by decide) (W1_keep m ρ c main_arg20 (by decide))
theorem V4_arg21 (c : Dev nD) : V4 m ρ c main_arg21 = m ((c.tc : Thread nD τ).loc main_arg21) :=
  V4_of_W1 m ρ c main_arg21 (by decide) (by decide) (W1_keep m ρ c main_arg21 (by decide))
theorem V4_arg22 (c : Dev nD) : V4 m ρ c main_arg22 = m ((c.tc : Thread nD τ).loc main_arg22) :=
  V4_of_W1 m ρ c main_arg22 (by decide) (by decide) (W1_keep m ρ c main_arg22 (by decide))
theorem V4_arg23 (c : Dev nD) : V4 m ρ c main_arg23 = m ((c.tc : Thread nD τ).loc main_arg23) :=
  V4_of_W1 m ρ c main_arg23 (by decide) (by decide) (W1_keep m ρ c main_arg23 (by decide))
theorem V4_arg24 (c : Dev nD) : V4 m ρ c main_arg24 = m ((c.tc : Thread nD τ).loc main_arg24) :=
  V4_of_W1 m ρ c main_arg24 (by decide) (by decide) (W1_keep m ρ c main_arg24 (by decide))
theorem V4_arg25 (c : Dev nD) : V4 m ρ c main_arg25 = m ((c.tc : Thread nD τ).loc main_arg25) :=
  V4_of_W1 m ρ c main_arg25 (by decide) (by decide) (W1_keep m ρ c main_arg25 (by decide))
theorem V4_arg26 (c : Dev nD) : V4 m ρ c main_arg26 = m ((c.tc : Thread nD τ).loc main_arg26) :=
  V4_of_W1 m ρ c main_arg26 (by decide) (by decide) (W1_keep m ρ c main_arg26 (by decide))
theorem V4_arg27 (c : Dev nD) : V4 m ρ c main_arg27 = m ((c.tc : Thread nD τ).loc main_arg27) :=
  V4_of_W1 m ρ c main_arg27 (by decide) (by decide) (W1_keep m ρ c main_arg27 (by decide))

/-! ## Region 2: its two outputs -/

/-- The first result array at @main's last boundary is e1 of the launch arrays. -/
theorem W5_out0 (c : Dev nD) : W5 m ρ c (Proc.devRef .tc main_v6_0) = e1 m c := by
  refine (W5_arr m ρ c 17).trans ((final2_e1 (V4 m ρ) c).trans ?_)
  unfold e1
  rw [V4_v5 m ρ c, V4_arg0 m ρ c, V4_arg14 m ρ c, V4_arg15 m ρ c, V4_arg17 m ρ c, V4_arg20 m ρ c, V4_arg21 m ρ c,
    V4_arg22 m ρ c, V4_arg23 m ρ c, V4_arg18 m ρ c, V4_arg19 m ρ c, V4_arg24 m ρ c, V4_arg25 m ρ c, V4_arg26 m ρ c,
    V4_arg27 m ρ c]

/-- The second result array at @main's last boundary is e2 of the launch arrays. -/
theorem W5_out1 (c : Dev nD) : W5 m ρ c (Proc.devRef .tc main_v6_1) = e2 m c := by
  refine (W5_arr m ρ c 18).trans ((final2_e2 (V4 m ρ) c).trans ?_)
  unfold e2 e1
  rw [V4_v5 m ρ c, V4_arg0 m ρ c, V4_arg1 m ρ c, V4_arg11 m ρ c, V4_arg14 m ρ c, V4_arg15 m ρ c, V4_arg17 m ρ c,
    V4_arg20 m ρ c, V4_arg21 m ρ c, V4_arg22 m ρ c, V4_arg23 m ρ c, V4_arg18 m ρ c, V4_arg19 m ρ c, V4_arg24 m ρ c,
    V4_arg25 m ρ c, V4_arg26 m ρ c, V4_arg27 m ρ c]

end Cert.KernelIdeal.KVal

end
-- ==== Proof.ROps.lean ====
/-
  The idealized reference's @main as a list of host operations. @main calls the module-local function
  @selu ten times on [100000,128] values and @selu_1 once on a [100000,64] value; @selu calls @elu, which
  calls @_where and @_where_0 (@selu_1: @elu_2, @_where_3, @_where_4). One call is nineteen host operations
  over the fields of its record of buffers: the constant alpha; @elu's zero, its broadcast and the compare
  x > 0 twice over, a third zero, @_where's convert, broadcast and select (x where x > 0, else 0), expm1 of
  that, alpha converted, broadcast and multiplied in, @_where_0's select (x where x > 0, else alpha·expm1);
  the constant scale, its broadcast, the product. `seluOps x φ` is that list for argument `x` and record `φ`,
  and @main's operations are cut in stretches: `opsA` defines %0 … %14, `opsB` %15 … %30, `opsC1` %31 … %54,
  `opsC2` %55 … %94.
-/
import proofs.«426082_j5952824672726_2_alg».proof.ReferenceIdeal
import Idealize.ShloMosaic.Lib.StableHlo.Run

noncomputable section

namespace Cert.ReferenceIdeal.RRun

open Cert.ReferenceIdeal Idealize.ShloMosaic Idealize.ShloMosaic.TcCoe Idealize.SL.Sem Idealize.ShloMosaic.StableHlo

variable {F : FTy → Type} [FloatOps F] [Facts]
open Facts₀ Facts

/-- One call of @selu on argument `x` with buffers `φ`: its nineteen operations in order, @elu's, @_where's
    and @_where_0's inline. -/
abbrev seluOps (x : StableHlo.TRef sig ⟨S100000x128, .f32⟩) (φ : fn_selu.Bufs) : List (HloOp τ sig (Elt F)) :=
  [ TRef.nullary φ.cst (constant S_ .f32 0x3FD62D7D#32),
    TRef.nullary φ.call0.cst (constant S_ .f32 0x00000000#32),
    TRef.unary φ.call0.cst φ.call0.v0 (broadcastInDim S100000x128 ![] bcast_S_S100000x128),
    TRef.binary x φ.call0.v0 φ.call0.v1 (cmpf .ogt),
    TRef.nullary φ.call0.cst_0 (constant S_ .f32 0x00000000#32),
    TRef.unary φ.call0.cst_0 φ.call0.v2 (broadcastInDim S100000x128 ![] bcast_S_S100000x128),
    TRef.binary x φ.call0.v2 φ.call0.v3 (cmpf .ogt),
    TRef.nullary φ.call0.cst_1 (constant S_ .f32 0x00000000#32),
    TRef.unary φ.call0.cst_1 φ.call0.call0.v0 id,
    TRef.unary φ.call0.call0.v0 φ.call0.call0.v1 (broadcastInDim S100000x128 ![] bcast_S_S100000x128),
    TRef.ternary φ.call0.v3 φ.call0.call0.v1 x φ.call0.call0.v2 select,
    TRef.unary φ.call0.call0.v2 φ.call0.v5 Host.expm1,
    TRef.unary φ.cst φ.call0.v6 id,
    TRef.unary φ.call0.v6 φ.call0.v7 (broadcastInDim S100000x128 ![] bcast_S_S100000x128),
    TRef.binary φ.call0.v7 φ.call0.v5 φ.call0.v8 mulf,
    TRef.ternary φ.call0.v1 x φ.call0.v8 φ.call0.call1.v0 select,
    TRef.nullary φ.cst_0 (constant S_ .f32 0x3F867D5F#32),
    TRef.unary φ.cst_0 φ.v1 (broadcastInDim S100000x128 ![] bcast_S_S100000x128),
    TRef.binary φ.v1 φ.call0.call1.v0 φ.v2 mulf ]

/-- One call of @selu_1 (the same function on [100000,64]) on argument `x` with buffers `φ`. -/
abbrev seluOps1 (x : StableHlo.TRef sig ⟨S100000x64, .f32⟩) (φ : fn_selu_1.Bufs) : List (HloOp τ sig (Elt F)) :=
  [ TRef.nullary φ.cst (constant S_ .f32 0x3FD62D7D#32),
    TRef.nullary φ.call0.cst (constant S_ .f32 0x00000000#32),
    TRef.unary φ.call0.cst φ.call0.v0 (broadcastInDim S100000x64 ![] bcast_S_S100000x64),
    TRef.binary x φ.call0.v0 φ.call0.v1 (cmpf .ogt),
    TRef.nullary φ.call0.cst_0 (constant S_ .f32 0x00000000#32),
    TRef.unary φ.call0.cst_0 φ.call0.v2 (broadcastInDim S100000x64 ![] bcast_S_S100000x64),
    TRef.binary x φ.call0.v2 φ.call0.v3 (cmpf .ogt),
    TRef.nullary φ.call0.cst_1 (constant S_ .f32 0x00000000#32),
    TRef.unary φ.call0.cst_1 φ.call0.call0.v0 id,
    TRef.unary φ.call0.call0.v0 φ.call0.call0.v1 (broadcastInDim S100000x64 ![] bcast_S_S100000x64),
    TRef.ternary φ.call0.v3 φ.call0.call0.v1 x φ.call0.call0.v2 select,
    TRef.unary φ.call0.call0.v2 φ.call0.v5 Host.expm1,
    TRef.unary φ.cst φ.call0.v6 id,
    TRef.unary φ.call0.v6 φ.call0.v7 (broadcastInDim S100000x64 ![] bcast_S_S100000x64),
    TRef.binary φ.call0.v7 φ.call0.v5 φ.call0.v8 mulf,
    TRef.ternary φ.call0.v1 x φ.call0.v8 φ.call0.call1.v0 select,
    TRef.nullary φ.cst_0 (constant S_ .f32 0x3F867D5F#32),
    TRef.unary φ.cst_0 φ.v1 (broadcastInDim S100000x64 ![] bcast_S_S100000x64),
    TRef.binary φ.v1 φ.call0.call1.v0 φ.v2 mulf ]

/-- @selu's body is that straight line: the callees' definitions unfolded at their calls, sequencing reassociated. -/
theorem seluOps_eq (x : StableHlo.TRef sig ⟨S100000x128, .f32⟩) (φ : fn_selu.Bufs) :
    fn_selu.body (F := F) x φ = seq (seluOps x φ) := by
  simp only [fn_selu.body, fn_elu.body, fn_where.body, fn_where_0.body, seq, bind_assoc, pure_bind]

/-- @selu_1's body likewise. -/
theorem seluOps1_eq (x : StableHlo.TRef sig ⟨S100000x64, .f32⟩) (φ : fn_selu_1.Bufs) :
    fn_selu_1.body (F := F) x φ = seq (seluOps1 x φ) := by
  simp only [fn_selu_1.body, fn_elu_2.body, fn_where_3.body, fn_where_4.body, seq, bind_assoc, pure_bind]

/-- The operations defining %0 … %14: the two biased products of the node features each through selu, the radial
    basis through its two weights, the product, the down projection through selu_1. -/
abbrev opsA : List (HloOp τ sig (Elt F)) :=
  [ binary main_arg0 main_arg14 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg15 main_v1 (broadcastInDim S1x128 ![1] bcast_S128_S1x128_1 : (⟨S128, .f32⟩ : BufTy).Contents (Elt F) → (⟨S1x128, .f32⟩ : BufTy).Contents (Elt F)),
    unary main_v1 main_v2 (broadcastInDim S100000x128 ![0, 1] bcast_S1x128_S100000x128_0_1 : (⟨S1x128, .f32⟩ : BufTy).Contents (Elt F) → (⟨S100000x128, .f32⟩ : BufTy).Contents (Elt F)),
    binary main_v0 main_v2 main_v3 (addf : (⟨S100000x128, .f32⟩ : BufTy).Contents (Elt F) → (⟨S100000x128, .f32⟩ : BufTy).Contents (Elt F) → (⟨S100000x128, .f32⟩ : BufTy).Contents (Elt F)) ] ++
  seluOps (.of main_v3) main_call0 ++
  [ binary main_arg0 main_arg12 main_v5 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg13 main_v6 (broadcastInDim S1x128 ![1] bcast_S128_S1x128_1 : (⟨S128, .f32⟩ : BufTy).Contents (Elt F) → (⟨S1x128, .f32⟩ : BufTy).Contents (Elt F)),
    unary main_v6 main_v7 (broadcastInDim S100000x128 ![0, 1] bcast_S1x128_S100000x128_0_1 : (⟨S1x128, .f32⟩ : BufTy).Contents (Elt F) → (⟨S100000x128, .f32⟩ : BufTy).Contents (Elt F)),
    binary main_v5 main_v7 main_v8 (addf : (⟨S100000x128, .f32⟩ : BufTy).Contents (Elt F) → (⟨S100000x128, .f32⟩ : BufTy).Contents (Elt F) → (⟨S100000x128, .f32⟩ : BufTy).Contents (Elt F)) ] ++
  seluOps (.of main_v8) main_call1 ++
  [ binary main_arg1 main_arg5 main_v10 ((fun l r => Host.dotGeneral dot_S100000x6_S6x8_S100000x8_1_0_0_1_n_n none l r) : (⟨S100000x6, .f32⟩ : BufTy).Contents (Elt F) → (⟨S6x8, .f32⟩ : BufTy).Contents (Elt F) → (⟨S100000x8, .f32⟩ : BufTy).Contents (Elt F)),
    binary main_v10 main_arg6 main_v11 ((fun l r => Host.dotGeneral dot_S100000x8_S8x128_S100000x128_1_0_0_1_n_n none l r) : (⟨S100000x8, .f32⟩ : BufTy).Contents (Elt F) → (⟨S8x128, .f32⟩ : BufTy).Contents (Elt F) → (⟨S100000x128, .f32⟩ : BufTy).Contents (Elt F)),
    binary main_v9 main_v11 main_v12 (mulf : (⟨S100000x128, .f32⟩ : BufTy).Contents (Elt F) → (⟨S100000x128, .f32⟩ : BufTy).Contents (Elt F) → (⟨S100000x128, .f32⟩ : BufTy).Contents (Elt F)),
    binary main_v12 main_arg16 main_v13 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ] ++
  seluOps1 (.of main_v13) main_call2

/-- The operations defining %15 … %30: the two spherical-basis products, the wrapped gather index, the gather,
    the three-way product, the zero table and the scatter-add into it. -/
abbrev opsB : List (HloOp τ sig (Elt F)) :=
  [ binary main_arg2 main_arg7 main_v15 ((fun l r => Host.dotGeneral dot_S500000x42_S42x8_S500000x8_1_0_0_1_n_n none l r) : (⟨S500000x42, .f32⟩ : BufTy).Contents (Elt F) → (⟨S42x8, .f32⟩ : BufTy).Contents (Elt F) → (⟨S500000x8, .f32⟩ : BufTy).Contents (Elt F)),
    binary main_v15 main_arg8 main_v16 ((fun l r => Host.dotGeneral dot_S500000x8_S8x64_S500000x64_1_0_0_1_n_n none l r) : (⟨S500000x8, .f32⟩ : BufTy).Contents (Elt F) → (⟨S8x64, .f32⟩ : BufTy).Contents (Elt F) → (⟨S500000x64, .f32⟩ : BufTy).Contents (Elt F)),
    nullary main_c (constantI S_ 32 0#32),
    unary main_c main_v17 (broadcastInDim S500000 ![] bcast_S_S500000 : (⟨S_, .i32⟩ : BufTy).Contents (Elt F) → (⟨S500000, .i32⟩ : BufTy).Contents (Elt F)),
    binary main_arg28 main_v17 main_v18 (cmpi .slt : (⟨S500000, .i32⟩ : BufTy).Contents (Elt F) → (⟨S500000, .i32⟩ : BufTy).Contents (Elt F) → (⟨S500000, .i1⟩ : BufTy).Contents (Elt F)),
    nullary main_c_0 (constantI S_ 32 100000#32),
    unary main_c_0 main_v19 (broadcastInDim S500000 ![] bcast_S_S500000 : (⟨S_, .i32⟩ : BufTy).Contents (Elt F) → (⟨S500000, .i32⟩ : BufTy).Contents (Elt F)),
    binary main_arg28 main_v19 main_v20 (addi : (⟨S500000, .i32⟩ : BufTy).Contents (Elt F) → (⟨S500000, .i32⟩ : BufTy).Contents (Elt F) → (⟨S500000, .i32⟩ : BufTy).Contents (Elt F)),
    ternary main_v18 main_v20 main_arg28 main_v21 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v21 main_v22 (broadcastInDim S500000x1 ![0] bcast_S500000_S500000x1_0 : (⟨S500000, .i32⟩ : BufTy).Contents (Elt F) → (⟨S500000x1, .i32⟩ : BufTy).Contents (Elt F)),
    binary main_v14 main_v22 main_v23 ((fun x i => Host.gather gather_S100000x64_S500000x1_S500000x64_1_0_n_n_0_1_164 x i) : (⟨S100000x64, .f32⟩ : BufTy).Contents (Elt F) → (⟨S500000x1, .i32⟩ : BufTy).Contents (Elt F) → (⟨S500000x64, .f32⟩ : BufTy).Contents (Elt F)),
    binary main_v23 main_v16 main_v24 (mulf : (⟨S500000x64, .f32⟩ : BufTy).Contents (Elt F) → (⟨S500000x64, .f32⟩ : BufTy).Contents (Elt F) → (⟨S500000x64, .f32⟩ : BufTy).Contents (Elt F)),
    binary main_arg3 main_arg9 main_v25 ((fun l r => Host.dotGeneral dot_S500000x294_S294x8_S500000x8_1_0_0_1_n_n none l r) : (⟨S500000x294, .f32⟩ : BufTy).Contents (Elt F) → (⟨S294x8, .f32⟩ : BufTy).Contents (Elt F) → (⟨S500000x8, .f32⟩ : BufTy).Contents (Elt F)),
    binary main_v25 main_arg10 main_v26 ((fun l r => Host.dotGeneral dot_S500000x8_S8x64_S500000x64_1_0_0_1_n_n none l r) : (⟨S500000x8, .f32⟩ : BufTy).Contents (Elt F) → (⟨S8x64, .f32⟩ : BufTy).Contents (Elt F) → (⟨S500000x64, .f32⟩ : BufTy).Contents (Elt F)),
    binary main_v24 main_v26 main_v27 (mulf : (⟨S500000x64, .f32⟩ : BufTy).Contents (Elt F) → (⟨S500000x64, .f32⟩ : BufTy).Contents (Elt F) → (⟨S500000x64, .f32⟩ : BufTy).Contents (Elt F)),
    nullary main_cst (constant S_ .f32 0x00000000#32),
    unary main_cst main_v28 (broadcastInDim S100000x64 ![] bcast_S_S100000x64 : (⟨S_, .f32⟩ : BufTy).Contents (Elt F) → (⟨S100000x64, .f32⟩ : BufTy).Contents (Elt F)),
    unary main_arg29 main_v29 (broadcastInDim S500000x1 ![0] bcast_S500000_S500000x1_0 : (⟨S500000, .i32⟩ : BufTy).Contents (Elt F) → (⟨S500000x1, .i32⟩ : BufTy).Contents (Elt F)),
    ternary main_v28 main_v29 main_v27 main_v30 ((fun x i u => Host.scatterAdd scatter_S100000x64_S500000x1_S500000x64_1_0_0_1 x i u) : (⟨S100000x64, .f32⟩ : BufTy).Contents (Elt F) → (⟨S500000x1, .i32⟩ : BufTy).Contents (Elt F) → (⟨S500000x64, .f32⟩ : BufTy).Contents (Elt F) → (⟨S100000x64, .f32⟩ : BufTy).Contents (Elt F)) ]

/-- The operations defining %31 … %54: the up projection through selu, the sum, the first residual block
    (weights reshaped from their stacks of one), the biased product through selu, the skip sum. -/
abbrev opsC1 : List (HloOp τ sig (Elt F)) :=
  [ binary main_v30 main_arg17 main_v31 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)) ] ++
  seluOps (.of main_v31) main_call3 ++
  [ binary main_v4 main_v32 main_v33 (addf : (⟨S100000x128, .f32⟩ : BufTy).Contents (Elt F) → (⟨S100000x128, .f32⟩ : BufTy).Contents (Elt F) → (⟨S100000x128, .f32⟩ : BufTy).Contents (Elt F)),
    reshape main_arg20 main_v34 rfl shapeCasts_S1x128x128_S128x128,
    reshape main_arg21 main_v35 rfl shapeCasts_S1x128_S128,
    reshape main_arg22 main_v36 rfl shapeCasts_S1x128x128_S128x128,
    reshape main_arg23 main_v37 rfl shapeCasts_S1x128_S128,
    binary main_v33 main_v34 main_v38 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v35 main_v39 (broadcastInDim S1x128 ![1] bcast_S128_S1x128_1 : (⟨S128, .f32⟩ : BufTy).Contents (Elt F) → (⟨S1x128, .f32⟩ : BufTy).Contents (Elt F)),
    unary main_v39 main_v40 (broadcastInDim S100000x128 ![0, 1] bcast_S1x128_S100000x128_0_1 : (⟨S1x128, .f32⟩ : BufTy).Contents (Elt F) → (⟨S100000x128, .f32⟩ : BufTy).Contents (Elt F)),
    binary main_v38 main_v40 main_v41 (addf : (⟨S100000x128, .f32⟩ : BufTy).Contents (Elt F) → (⟨S100000x128, .f32⟩ : BufTy).Contents (Elt F) → (⟨S100000x128, .f32⟩ : BufTy).Contents (Elt F)) ] ++
  seluOps (.of main_v41) main_call4 ++
  [ binary main_v42 main_v36 main_v43 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v37 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)) ] ++
  seluOps (.of main_v46) main_call5 ++
  [ binary main_v33 main_v47 main_v48 (addf : (⟨S100000x128, .f32⟩ : BufTy).Contents (Elt F) → (⟨S100000x128, .f32⟩ : BufTy).Contents (Elt F) → (⟨S100000x128, .f32⟩ : BufTy).Contents (Elt F)),
    binary main_v48 main_arg18 main_v49 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg19 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v49 main_v51 main_v52 (addf : (⟨S100000x128, .f32⟩ : BufTy).Contents (Elt F) → (⟨S100000x128, .f32⟩ : BufTy).Contents (Elt F) → (⟨S100000x128, .f32⟩ : BufTy).Contents (Elt F)) ] ++
  seluOps (.of main_v52) main_call6 ++
  [ binary main_v53 main_arg0 main_v54 (addf : (⟨S100000x128, .f32⟩ : BufTy).Contents (Elt F) → (⟨S100000x128, .f32⟩ : BufTy).Contents (Elt F) → (⟨S100000x128, .f32⟩ : BufTy).Contents (Elt F)) ]

/-- The operations defining %55 and %56: the first slice of the stacked weights and its reshape. -/
abbrev opsC2a : List (HloOp τ sig (Elt F)) :=
  [ unary main_arg24 main_v55 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v55 main_v56 rfl shapeCasts_S1x128x128_S128x128 ]

/-- The operations defining %57 … %94: the remaining slices of the stacked weights, the two residual blocks
    after the skip, the radial-basis product and the final product. -/
abbrev opsC2b : List (HloOp τ sig (Elt F)) :=
  [ unary main_arg25 main_v57 ((extractStridedSlice S1x128 ![0, 0] · slices_S2x128_S1x128_0_0) : (⟨S2x128, .f32⟩ : BufTy).Contents (Elt F) → (⟨S1x128, .f32⟩ : BufTy).Contents (Elt F)),
    reshape main_v57 main_v58 rfl shapeCasts_S1x128_S128,
    unary main_arg26 main_v59 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v59 main_v60 rfl shapeCasts_S1x128x128_S128x128,
    unary main_arg27 main_v61 ((extractStridedSlice S1x128 ![0, 0] · slices_S2x128_S1x128_0_0) : (⟨S2x128, .f32⟩ : BufTy).Contents (Elt F) → (⟨S1x128, .f32⟩ : BufTy).Contents (Elt F)),
    reshape main_v61 main_v62 rfl shapeCasts_S1x128_S128,
    binary main_v54 main_v56 main_v63 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v58 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v63 main_v65 main_v66 (addf : (⟨S100000x128, .f32⟩ : BufTy).Contents (Elt F) → (⟨S100000x128, .f32⟩ : BufTy).Contents (Elt F) → (⟨S100000x128, .f32⟩ : BufTy).Contents (Elt F)) ] ++
  seluOps (.of main_v66) main_call7 ++
  [ binary main_v67 main_v60 main_v68 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v62 main_v69 (broadcastInDim S1x128 ![1] bcast_S128_S1x128_1 : (⟨S128, .f32⟩ : BufTy).Contents (Elt F) → (⟨S1x128, .f32⟩ : BufTy).Contents (Elt F)),
    unary main_v69 main_v70 (broadcastInDim S100000x128 ![0, 1] bcast_S1x128_S100000x128_0_1 : (⟨S1x128, .f32⟩ : BufTy).Contents (Elt F) → (⟨S100000x128, .f32⟩ : BufTy).Contents (Elt F)),
    binary main_v68 main_v70 main_v71 (addf : (⟨S100000x128, .f32⟩ : BufTy).Contents (Elt F) → (⟨S100000x128, .f32⟩ : BufTy).Contents (Elt F) → (⟨S100000x128, .f32⟩ : BufTy).Contents (Elt F)) ] ++
  seluOps (.of main_v71) main_call8 ++
  [ binary main_v54 main_v72 main_v73 (addf : (⟨S100000x128, .f32⟩ : BufTy).Contents (Elt F) → (⟨S100000x128, .f32⟩ : BufTy).Contents (Elt F) → (⟨S100000x128, .f32⟩ : BufTy).Contents (Elt F)),
    unary main_arg24 main_v74 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v74 main_v75 rfl shapeCasts_S1x128x128_S128x128,
    unary main_arg25 main_v76 ((extractStridedSlice S1x128 ![1, 0] · slices_S2x128_S1x128_1_0) : (⟨S2x128, .f32⟩ : BufTy).Contents (Elt F) → (⟨S1x128, .f32⟩ : BufTy).Contents (Elt F)),
    reshape main_v76 main_v77 rfl shapeCasts_S1x128_S128,
    unary main_arg26 main_v78 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v78 main_v79 rfl shapeCasts_S1x128x128_S128x128,
    unary main_arg27 main_v80 ((extractStridedSlice S1x128 ![1, 0] · slices_S2x128_S1x128_1_0) : (⟨S2x128, .f32⟩ : BufTy).Contents (Elt F) → (⟨S1x128, .f32⟩ : BufTy).Contents (Elt F)),
    reshape main_v80 main_v81 rfl shapeCasts_S1x128_S128,
    binary main_v73 main_v75 main_v82 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v77 main_v83 (broadcastInDim S1x128 ![1] bcast_S128_S1x128_1 : (⟨S128, .f32⟩ : BufTy).Contents (Elt F) → (⟨S1x128, .f32⟩ : BufTy).Contents (Elt F)),
    unary main_v83 main_v84 (broadcastInDim S100000x128 ![0, 1] bcast_S1x128_S100000x128_0_1 : (⟨S1x128, .f32⟩ : BufTy).Contents (Elt F) → (⟨S100000x128, .f32⟩ : BufTy).Contents (Elt F)),
    binary main_v82 main_v84 main_v85 (addf : (⟨S100000x128, .f32⟩ : BufTy).Contents (Elt F) → (⟨S100000x128, .f32⟩ : BufTy).Contents (Elt F) → (⟨S100000x128, .f32⟩ : BufTy).Contents (Elt F)) ] ++
  seluOps (.of main_v85) main_call9 ++
  [ binary main_v86 main_v79 main_v87 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v81 main_v88 (broadcastInDim S1x128 ![1] bcast_S128_S1x128_1 : (⟨S128, .f32⟩ : BufTy).Contents (Elt F) → (⟨S1x128, .f32⟩ : BufTy).Contents (Elt F)),
    unary main_v88 main_v89 (broadcastInDim S100000x128 ![0, 1] bcast_S1x128_S100000x128_0_1 : (⟨S1x128, .f32⟩ : BufTy).Contents (Elt F) → (⟨S100000x128, .f32⟩ : BufTy).Contents (Elt F)),
    binary main_v87 main_v89 main_v90 (addf : (⟨S100000x128, .f32⟩ : BufTy).Contents (Elt F) → (⟨S100000x128, .f32⟩ : BufTy).Contents (Elt F) → (⟨S100000x128, .f32⟩ : BufTy).Contents (Elt F)) ] ++
  seluOps (.of main_v90) main_call10 ++
  [ binary main_v73 main_v91 main_v92 (addf : (⟨S100000x128, .f32⟩ : BufTy).Contents (Elt F) → (⟨S100000x128, .f32⟩ : BufTy).Contents (Elt F) → (⟨S100000x128, .f32⟩ : BufTy).Contents (Elt F)),
    binary main_arg1 main_arg11 main_v93 ((fun l r => Host.dotGeneral dot_S100000x6_S6x128_S100000x128_1_0_0_1_n_n none l r) : (⟨S100000x6, .f32⟩ : BufTy).Contents (Elt F) → (⟨S6x128, .f32⟩ : BufTy).Contents (Elt F) → (⟨S100000x128, .f32⟩ : BufTy).Contents (Elt F)),
    binary main_v93 main_v92 main_v94 (mulf : (⟨S100000x128, .f32⟩ : BufTy).Contents (Elt F) → (⟨S100000x128, .f32⟩ : BufTy).Contents (Elt F) → (⟨S100000x128, .f32⟩ : BufTy).Contents (Elt F)) ]

/-- The operations defining %55 … %94. -/
abbrev opsC2 : List (HloOp τ sig (Elt F)) := opsC2a ++ opsC2b

/-- The operations defining %31 … %94. -/
abbrev opsC : List (HloOp τ sig (Elt F)) := opsC1 ++ opsC2

/-- @main's operations, in order. -/
abbrev ops : List (HloOp τ sig (Elt F)) := opsA ++ opsB ++ opsC

end Cert.ReferenceIdeal.RRun

end
-- ==== Proof.RRun.lean ====
/-
  The idealized reference's run. @main is the straight line of its host operations (`ops`: the calls of @selu
  and @selu_1 unfolded to their nineteen operations each over the call's record of buffers), every operation
  touches TensorCore buffers only and determines its result, and the signature scopes nothing; so from any
  memory with zero counters every weakly fair execution terminates with each buffer at the fold of the
  operations' results over the launch contents.
-/
import proofs.«426082_j5952824672726_2_alg».proof.Proof.ROps

noncomputable section

namespace Cert.ReferenceIdeal.RRun

open Cert.ReferenceIdeal Idealize.ShloMosaic Idealize.ShloMosaic.TcCoe Idealize.SL.Sem Idealize.ShloMosaic.StableHlo

variable {F : FTy → Type} [FloatOps F] [Facts]
open Facts₀ Facts

/-! ## Every operation touches TensorCore buffers only and determines its results -/

/-- What the run asks of one operation: it touches TensorCore references only, and it leaves no buffer's
    contents undetermined. -/
abbrev Good (op : HloOp τ sig (Elt F)) : Prop := op.bufs ⊆ tcRefs τ sig ∧ op.fresh = ∅

theorem seluOps_good (x : StableHlo.TRef sig ⟨S100000x128, .f32⟩) (φ : fn_selu.Bufs) :
    (seluOps (F := F) x φ).Forall Good :=
  ⟨⟨nullary_bufs_sub .., rfl⟩, ⟨nullary_bufs_sub .., rfl⟩, ⟨unary_bufs_sub .., rfl⟩, ⟨binary_bufs_sub .., rfl⟩,
   ⟨nullary_bufs_sub .., rfl⟩, ⟨unary_bufs_sub .., rfl⟩, ⟨binary_bufs_sub .., rfl⟩, ⟨nullary_bufs_sub .., rfl⟩,
   ⟨unary_bufs_sub .., rfl⟩, ⟨unary_bufs_sub .., rfl⟩, ⟨ternary_bufs_sub .., rfl⟩, ⟨unary_bufs_sub .., rfl⟩,
   ⟨unary_bufs_sub .., rfl⟩, ⟨unary_bufs_sub .., rfl⟩, ⟨binary_bufs_sub .., rfl⟩, ⟨ternary_bufs_sub .., rfl⟩,
   ⟨nullary_bufs_sub .., rfl⟩, ⟨unary_bufs_sub .., rfl⟩, ⟨binary_bufs_sub .., rfl⟩⟩

theorem seluOps1_good (x : StableHlo.TRef sig ⟨S100000x64, .f32⟩) (φ : fn_selu_1.Bufs) :
    (seluOps1 (F := F) x φ).Forall Good :=
  ⟨⟨nullary_bufs_sub .., rfl⟩, ⟨nullary_bufs_sub .., rfl⟩, ⟨unary_bufs_sub .., rfl⟩, ⟨binary_bufs_sub .., rfl⟩,
   ⟨nullary_bufs_sub .., rfl⟩, ⟨unary_bufs_sub .., rfl⟩, ⟨binary_bufs_sub .., rfl⟩, ⟨nullary_bufs_sub .., rfl⟩,
   ⟨unary_bufs_sub .., rfl⟩, ⟨unary_bufs_sub .., rfl⟩, ⟨ternary_bufs_sub .., rfl⟩, ⟨unary_bufs_sub .., rfl⟩,
   ⟨unary_bufs_sub .., rfl⟩, ⟨unary_bufs_sub .., rfl⟩, ⟨binary_bufs_sub .., rfl⟩, ⟨ternary_bufs_sub .., rfl⟩,
   ⟨nullary_bufs_sub .., rfl⟩, ⟨unary_bufs_sub .., rfl⟩, ⟨binary_bufs_sub .., rfl⟩⟩

theorem opsA_good : (opsA (F := F)).Forall Good :=
  List.forall_append.2 ⟨List.forall_append.2 ⟨List.forall_append.2 ⟨List.forall_append.2 ⟨List.forall_append.2 ⟨(show List.Forall Good [_, _, _, _] from
      ⟨⟨binary_bufs_sub .., rfl⟩, ⟨unary_bufs_sub .., rfl⟩, ⟨unary_bufs_sub .., rfl⟩, ⟨binary_bufs_sub .., rfl⟩⟩),
    seluOps_good (.of main_v3) main_call0⟩,
    (show List.Forall Good [_, _, _, _] from
      ⟨⟨binary_bufs_sub .., rfl⟩, ⟨unary_bufs_sub .., rfl⟩, ⟨unary_bufs_sub .., rfl⟩, ⟨binary_bufs_sub .., rfl⟩⟩)⟩,
    seluOps_good (.of main_v8) main_call1⟩,
    (show List.Forall Good [_, _, _, _] from
      ⟨⟨binary_bufs_sub .., rfl⟩, ⟨binary_bufs_sub .., rfl⟩, ⟨binary_bufs_sub .., rfl⟩, ⟨binary_bufs_sub .., rfl⟩⟩)⟩,
    seluOps1_good (.of main_v13) main_call2⟩

theorem opsB_good : (opsB (F := F)).Forall Good :=
  (show List.Forall Good [_, _, _, _, _, _, _, _, _, _, _, _, _, _, _, _, _, _, _] from
      ⟨⟨binary_bufs_sub .., rfl⟩, ⟨binary_bufs_sub .., rfl⟩, ⟨nullary_bufs_sub .., rfl⟩, ⟨unary_bufs_sub .., rfl⟩,
       ⟨binary_bufs_sub .., rfl⟩, ⟨nullary_bufs_sub .., rfl⟩, ⟨unary_bufs_sub .., rfl⟩, ⟨binary_bufs_sub .., rfl⟩,
       ⟨ternary_bufs_sub .., rfl⟩, ⟨unary_bufs_sub .., rfl⟩, ⟨binary_bufs_sub .., rfl⟩, ⟨binary_bufs_sub .., rfl⟩,
       ⟨binary_bufs_sub .., rfl⟩, ⟨binary_bufs_sub .., rfl⟩, ⟨binary_bufs_sub .., rfl⟩, ⟨nullary_bufs_sub .., rfl⟩,
       ⟨unary_bufs_sub .., rfl⟩, ⟨unary_bufs_sub .., rfl⟩, ⟨ternary_bufs_sub .., rfl⟩⟩)

theorem opsC1_good : (opsC1 (F := F)).Forall Good :=
  List.forall_append.2 ⟨List.forall_append.2 ⟨List.forall_append.2 ⟨List.forall_append.2 ⟨List.forall_append.2 ⟨List.forall_append.2 ⟨List.forall_append.2 ⟨List.forall_append.2 ⟨(show List.Forall Good [_] from
      ⟨binary_bufs_sub .., rfl⟩),
    seluOps_good (.of main_v31) main_call3⟩,
    (show List.Forall Good [_, _, _, _, _, _, _, _, _] from
      ⟨⟨binary_bufs_sub .., rfl⟩, ⟨reshape_bufs_sub .., rfl⟩, ⟨reshape_bufs_sub .., rfl⟩, ⟨reshape_bufs_sub .., rfl⟩,
       ⟨reshape_bufs_sub .., rfl⟩, ⟨binary_bufs_sub .., rfl⟩, ⟨unary_bufs_sub .., rfl⟩, ⟨unary_bufs_sub .., rfl⟩,
       ⟨binary_bufs_sub .., rfl⟩⟩)⟩,
    seluOps_good (.of main_v41) main_call4⟩,
    (show List.Forall Good [_, _, _, _] from
      ⟨⟨binary_bufs_sub .., rfl⟩, ⟨unary_bufs_sub .., rfl⟩, ⟨unary_bufs_sub .., rfl⟩, ⟨binary_bufs_sub .., rfl⟩⟩)⟩,
    seluOps_good (.of main_v46) main_call5⟩,
    (show List.Forall Good [_, _, _, _, _] from
      ⟨⟨binary_bufs_sub .., rfl⟩, ⟨binary_bufs_sub .., rfl⟩, ⟨unary_bufs_sub .., rfl⟩, ⟨unary_bufs_sub .., rfl⟩,
       ⟨binary_bufs_sub .., rfl⟩⟩)⟩,
    seluOps_good (.of main_v52) main_call6⟩,
    (show List.Forall Good [_] from
      ⟨binary_bufs_sub .., rfl⟩)⟩

theorem opsC2a_good : (opsC2a (F := F)).Forall Good :=
  (show List.Forall Good [_, _] from
      ⟨⟨unary_bufs_sub .., rfl⟩, ⟨reshape_bufs_sub .., rfl⟩⟩)

theorem opsC2b_good : (opsC2b (F := F)).Forall Good :=
  List.forall_append.2 ⟨List.forall_append.2 ⟨List.forall_append.2 ⟨List.forall_append.2 ⟨List.forall_append.2 ⟨List.forall_append.2 ⟨List.forall_append.2 ⟨List.forall_append.2 ⟨(show List.Forall Good [_, _, _, _, _, _, _, _, _, _] from
      ⟨⟨unary_bufs_sub .., rfl⟩, ⟨reshape_bufs_sub .., rfl⟩, ⟨unary_bufs_sub .., rfl⟩, ⟨reshape_bufs_sub .., rfl⟩,
       ⟨unary_bufs_sub .., rfl⟩, ⟨reshape_bufs_sub .., rfl⟩, ⟨binary_bufs_sub .., rfl⟩, ⟨unary_bufs_sub .., rfl⟩,
       ⟨unary_bufs_sub .., rfl⟩, ⟨binary_bufs_sub .., rfl⟩⟩),
    seluOps_good (.of main_v66) main_call7⟩,
    (show List.Forall Good [_, _, _, _] from
      ⟨⟨binary_bufs_sub .., rfl⟩, ⟨unary_bufs_sub .., rfl⟩, ⟨unary_bufs_sub .., rfl⟩, ⟨binary_bufs_sub .., rfl⟩⟩)⟩,
    seluOps_good (.of main_v71) main_call8⟩,
    (show List.Forall Good [_, _, _, _, _, _, _, _, _, _, _, _, _] from
      ⟨⟨binary_bufs_sub .., rfl⟩, ⟨unary_bufs_sub .., rfl⟩, ⟨reshape_bufs_sub .., rfl⟩, ⟨unary_bufs_sub .., rfl⟩,
       ⟨reshape_bufs_sub .., rfl⟩, ⟨unary_bufs_sub .., rfl⟩, ⟨reshape_bufs_sub .., rfl⟩, ⟨unary_bufs_sub .., rfl⟩,
       ⟨reshape_bufs_sub .., rfl⟩, ⟨binary_bufs_sub .., rfl⟩, ⟨unary_bufs_sub .., rfl⟩, ⟨unary_bufs_sub .., rfl⟩,
       ⟨binary_bufs_sub .., rfl⟩⟩)⟩,
    seluOps_good (.of main_v85) main_call9⟩,
    (show List.Forall Good [_, _, _, _] from
      ⟨⟨binary_bufs_sub .., rfl⟩, ⟨unary_bufs_sub .., rfl⟩, ⟨unary_bufs_sub .., rfl⟩, ⟨binary_bufs_sub .., rfl⟩⟩)⟩,
    seluOps_good (.of main_v90) main_call10⟩,
    (show List.Forall Good [_, _, _] from
      ⟨⟨binary_bufs_sub .., rfl⟩, ⟨binary_bufs_sub .., rfl⟩, ⟨binary_bufs_sub .., rfl⟩⟩)⟩

theorem ops_good : (ops (F := F)).Forall Good :=
  List.forall_append.2 ⟨List.forall_append.2 ⟨opsA_good, opsB_good⟩,
    List.forall_append.2 ⟨opsC1_good, List.forall_append.2 ⟨opsC2a_good, opsC2b_good⟩⟩⟩

/-- Every operation of @main touches TensorCore references only. -/
theorem ops_sub : (ops : List (HloOp τ sig (Elt F))).Forall fun op => op.bufs ⊆ tcRefs τ sig :=
  ops_good.imp fun _ h => h.1

/-- No operation of @main leaves a buffer's contents undetermined. -/
theorem ops_fresh : ∀ op ∈ (ops : List (HloOp τ sig (Elt F))), op.fresh = ∅ :=
  fun op h => (List.forall_iff_forall_mem.1 ops_good op h).2

/-! ## @main is the straight line -/

set_option maxRecDepth 8192 in
/-- @main's first window is the line of its operations: the functions' bodies are their lines, two lines in a
    row their concatenation. -/
theorem main_part0_eq (c : Dev nD) : main_part0 (F := F) c = seq (opsA ++ opsB ++ opsC1 ++ opsC2a) := by
  simp only [main_part0, opsA, opsB, opsC1, opsC2a, seluOps_eq, seluOps1_eq, seq, seq_append, bind_assoc, pure_bind]
  rfl

set_option maxRecDepth 8192 in
/-- @main's second window likewise. -/
theorem main_part1_eq (c : Dev nD) : main_part1 (F := F) c = seq opsC2b := by
  simp only [main_part1, opsC2b, seluOps_eq, seq, seq_append, bind_assoc, pure_bind]

/-- The stretches in @main's two windows are the stretches in order. -/
theorem ops_eq : (ops : List (HloOp τ sig (Elt F))) = (opsA ++ opsB ++ opsC1 ++ opsC2a) ++ opsC2b := by
  simp only [ops, opsC, opsC2, List.append_assoc]

/-- @main is the line of its operations. -/
theorem main_eq (c : Dev nD) : main (F := F) c = seq ops := by
  rw [ops_eq, seq_append, ← main_part0_eq c, ← main_part1_eq c]
  rfl

/-! ## The run -/

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution
    of @main on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RRun

end
-- ==== Proof.RArgs.lean ====
/- The reference program's thirty argument arrays, as a list of references: the buffers no operation of @main writes. -/
import proofs.«426082_j5952824672726_2_alg».proof.ReferenceIdeal

namespace Cert.ReferenceIdeal.RVal

open Idealize.ShloMosaic Cert.ReferenceIdeal

/-- @main's argument buffers, in order. -/
def argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29]

end Cert.ReferenceIdeal.RVal
-- ==== Proof.SpecMid.lean ====
/- Stage C in two halves: the value after the first residual block and the skip connection (e1 before the two
   last residual blocks), and e1 as the two last residual blocks applied to it. -/
import proofs.«426082_j5952824672726_2_alg».proof.Proof.Spec

noncomputable section

namespace Cert.Spec

open Idealize.ShloMosaic Idealize.ShloMosaic.ValueIdx

/-- e1 after the first residual block, the linear layer and the skip connection to x1. -/
def stageCmid {M : Nat} (XJI : Mat M 128) (S : Mat M 64) (X1 : Mat M 128) (Wup : Mat 64 128)
    (rbW1 : Stack 1 128 128) (rbb1 : Mat 1 128) (rbW2 : Stack 1 128 128) (rbb2 : Mat 1 128)
    (Wlin : Mat 128 128) (blin : Row 128) : Mat M 128 :=
  addM (seluM (addRow (mm
    (resBlock (addM XJI (seluM (mm S Wup)))
      (member rbW1 0) (rowOf rbb1 0) (member rbW2 0) (rowOf rbb2 0)) Wlin) blin)) X1

/-- e1 is the two last residual blocks applied to that value. -/
theorem stageC1core_eq {M : Nat} (XJI : Mat M 128) (S : Mat M 64) (X1 : Mat M 128) (Wup : Mat 64 128)
    (rbW1 : Stack 1 128 128) (rbb1 : Mat 1 128) (rbW2 : Stack 1 128 128) (rbb2 : Mat 1 128)
    (Wlin : Mat 128 128) (blin : Row 128)
    (raW1 : Stack 2 128 128) (rab1 : Mat 2 128) (raW2 : Stack 2 128 128) (rab2 : Mat 2 128) :
    stageC1core XJI S X1 Wup rbW1 rbb1 rbW2 rbb2 Wlin blin raW1 rab1 raW2 rab2
      = resBlock (resBlock (stageCmid XJI S X1 Wup rbW1 rbb1 rbW2 rbb2 Wlin blin)
          (member raW1 0) (rowOf rab1 0) (member raW2 0) (rowOf rab2 0))
          (member raW1 1) (rowOf rab1 1) (member raW2 1) (rowOf rab2 1) := rfl

end Cert.Spec

end
-- ==== Proof.RValA.lean ====
/- The reference's first stretch of operations (%0 … %14): x_ji = selu(x1·W_ji + b_ji) and stage A, x_kj_down. -/
import proofs.«426082_j5952824672726_2_alg».proof.Proof.ROps
import proofs.«426082_j5952824672726_2_alg».proof.Proof.RArgs
import proofs.«426082_j5952824672726_2_alg».proof.Proof.Spec
import proofs.«426082_j5952824672726_2_alg».proof.Proof.SpecMid
import proofs.«426082_j5952824672726_2_alg».proof.Proof.SpecOps

noncomputable section

namespace Cert.ReferenceIdeal.RVal

open Idealize.ShloMosaic Idealize.ShloMosaic.TcCoe Idealize.ShloMosaic.StableHlo Idealize.ShloMosaic.ValueIdx
open Idealize.SL.Sem
open Cert.ReferenceIdeal Cert.ReferenceIdeal.RRun Cert.Spec
open Facts₀ Facts

variable [Facts] (V : Valuation τ sig (Elt Ideal))

namespace StretchA

/-! ### Operations that write none of a list of buffers -/

/-- The operation writes no buffer of the list `B`. -/
def Avoids (B : List (Ref sig .tc)) (op : HloOp τ sig (Elt Ideal)) : Prop :=
  ∀ b ∈ B, (b : DevRef τ sig) ∉ op.writes

/-- No operation of the list writes a buffer of `B`. -/
def AllAvoid (B : List (Ref sig .tc)) (l : List (HloOp τ sig (Elt Ideal))) : Prop :=
  ∀ op ∈ l, Avoids B op

theorem allAvoid_nil {B : List (Ref sig .tc)} : AllAvoid B [] :=
  fun _ h => absurd h List.not_mem_nil

theorem allAvoid_cons {B : List (Ref sig .tc)} {op : HloOp τ sig (Elt Ideal)} {l : List (HloOp τ sig (Elt Ideal))}
    (h : Avoids B op) (hl : AllAvoid B l) : AllAvoid B (op :: l) := by
  intro o ho
  rcases List.mem_cons.mp ho with rfl | ho
  · exact h
  · exact hl o ho

theorem allAvoid_append {B : List (Ref sig .tc)} {l₁ l₂ : List (HloOp τ sig (Elt Ideal))}
    (h₁ : AllAvoid B l₁) (h₂ : AllAvoid B l₂) : AllAvoid B (l₁ ++ l₂) := by
  intro o ho
  rcases List.mem_append.mp ho with ho | ho
  · exact h₁ o ho
  · exact h₂ o ho

theorem allAvoid_left {B : List (Ref sig .tc)} {l₁ l₂ : List (HloOp τ sig (Elt Ideal))}
    (h : AllAvoid B (l₁ ++ l₂)) : AllAvoid B l₁ :=
  fun o ho => h o (List.mem_append_left _ ho)

theorem avoids_nullary {B : List (Ref sig .tc)} (y : Ref sig .tc) (v : y.ty.Contents (Elt Ideal)) (hy)
    (h : y ∉ B) : Avoids B (nullary (τ := τ) y v hy) := by
  intro b hb hm
  rw [nullary_writes, Finset.mem_singleton] at hm
  exact h (Proc.devRef_injective _ hm ▸ hb)

theorem avoids_unary {B : List (Ref sig .tc)} (x y : Ref sig .tc)
    (f : x.ty.Contents (Elt Ideal) → y.ty.Contents (Elt Ideal)) (hx hy)
    (h : y ∉ B) : Avoids B (unary (τ := τ) x y f hx hy) := by
  intro b hb hm
  rw [unary_writes, Finset.mem_singleton] at hm
  exact h (Proc.devRef_injective _ hm ▸ hb)

theorem avoids_binary {B : List (Ref sig .tc)} (a c y : Ref sig .tc)
    (f : a.ty.Contents (Elt Ideal) → c.ty.Contents (Elt Ideal) → y.ty.Contents (Elt Ideal)) (ha hc hy)
    (h : y ∉ B) : Avoids B (binary (τ := τ) a c y f ha hc hy) := by
  intro b hb hm
  rw [binary_writes, Finset.mem_singleton] at hm
  exact h (Proc.devRef_injective _ hm ▸ hb)

theorem avoids_ternary {B : List (Ref sig .tc)} (c a e y : Ref sig .tc)
    (f : c.ty.Contents (Elt Ideal) → a.ty.Contents (Elt Ideal) → e.ty.Contents (Elt Ideal) → y.ty.Contents (Elt Ideal))
    (hc ha he hy) (h : y ∉ B) : Avoids B (ternary (τ := τ) c a e y f hc ha he hy) := by
  intro b hb hm
  rw [ternary_writes, Finset.mem_singleton] at hm
  exact h (Proc.devRef_injective _ hm ▸ hb)

/-- A buffer of `B` keeps its contents through a list that avoids `B`. -/
theorem after_avoid {B : List (Ref sig .tc)} (l : List (HloOp τ sig (Elt Ideal))) (h : AllAvoid B l)
    (W : Valuation τ sig (Elt Ideal)) (b : Ref sig .tc) (hb : b ∈ B) :
    after l W (b : DevRef τ sig) = W (b : DevRef τ sig) :=
  after_of_forall_not_mem l W fun op ho => h op ho b hb

/-- … and through the tail of a concatenation that avoids `B`. -/
theorem after_append_avoid {B : List (Ref sig .tc)} (l₁ l₂ : List (HloOp τ sig (Elt Ideal))) (h : AllAvoid B l₂)
    (W : Valuation τ sig (Elt Ideal)) (b : Ref sig .tc) (hb : b ∈ B) :
    after (l₁ ++ l₂) W (b : DevRef τ sig) = after l₁ W (b : DevRef τ sig) := by
  rw [StableHlo.after_append, after_avoid l₂ h _ b hb]

/-- Decides `AllAvoid B l` for a concatenation of literal lists over literal references. -/
macro "all_avoid" : tactic =>
  `(tactic| repeat (first
      | exact allAvoid_nil
      | with_reducible apply allAvoid_cons
      | with_reducible apply allAvoid_append
      | (with_reducible apply avoids_nullary; decide)
      | (with_reducible apply avoids_unary; decide)
      | (with_reducible apply avoids_binary; decide)
      | (with_reducible apply avoids_ternary; decide)))

/-! ### One call of selu -/

theorem selu0_val (W : Valuation τ sig (Elt Ideal)) :
    after (seluOps (F := Ideal) (.of main_v3) main_call0) W (main_v4 : DevRef τ sig) = seluM (W (main_v3 : DevRef τ sig)) := by
  after_results
  simp only [TRef.toBuf, TRef.ofBuf, cast_eq]
  exact selu_host _ _

theorem selu1_val (W : Valuation τ sig (Elt Ideal)) :
    after (seluOps (F := Ideal) (.of main_v8) main_call1) W (main_v9 : DevRef τ sig) = seluM (W (main_v8 : DevRef τ sig)) := by
  after_results
  simp only [TRef.toBuf, TRef.ofBuf, cast_eq]
  exact selu_host _ _

set_option maxHeartbeats 4000000 in
theorem selu2_val (W : Valuation τ sig (Elt Ideal)) :
    after (seluOps1 (F := Ideal) (.of main_v13) main_call2) W (main_v14 : DevRef τ sig) = seluM (W (main_v13 : DevRef τ sig)) := by
  after_results
  simp only [TRef.toBuf, TRef.ofBuf, cast_eq]
  exact selu_host _ _

/-- Stretch A writes no argument buffer. -/
theorem cleanA : AllAvoid argRefs (opsA (F := Ideal)) := by
  all_avoid

end StretchA

open StretchA

/-- After the first stretch the buffer of %14 holds stage A of the argument arrays. -/
theorem valA_xkj : after (opsA (F := Ideal)) V (main_v14 : DevRef τ sig)
    = stageA (V (main_arg0 : DevRef τ sig)) (V (main_arg1 : DevRef τ sig)) (V (main_arg12 : DevRef τ sig)) (V (main_arg13 : DevRef τ sig)) (V (main_arg5 : DevRef τ sig)) (V (main_arg6 : DevRef τ sig)) (V (main_arg16 : DevRef τ sig)) := by
  have c5 := allAvoid_left (cleanA)
  have c4 := allAvoid_left c5
  have c3 := allAvoid_left c4
  have c2 := allAvoid_left c3
  unfold opsA
  rw [StableHlo.after_append, selu2_val, StableHlo.after_append]
  after_results
  rw [after_avoid _ c4 V main_arg1 (by decide), after_avoid _ c4 V main_arg5 (by decide),
    after_avoid _ c4 V main_arg6 (by decide), after_avoid _ c4 V main_arg16 (by decide)]
  rw [StableHlo.after_append, selu1_val, StableHlo.after_append]
  after_results
  rw [after_avoid _ c2 V main_arg0 (by decide), after_avoid _ c2 V main_arg12 (by decide),
    after_avoid _ c2 V main_arg13 (by decide)]
  rw [dotGeneral_eq_mm dot_S100000x128_S128x128_S100000x128_1_0_0_1_n_n rfl,
    dotGeneral_eq_mm dot_S100000x6_S6x8_S100000x8_1_0_0_1_n_n rfl,
    dotGeneral_eq_mm dot_S100000x8_S8x128_S100000x128_1_0_0_1_n_n rfl,
    dotGeneral_eq_mm dot_S100000x128_S128x64_S100000x64_1_0_0_1_n_n rfl,
    bias_host, mulf_eq_mulM]
  rfl

/-- … and the buffer of %4 holds x_ji. -/
theorem valA_xji : after (opsA (F := Ideal)) V (main_v4 : DevRef τ sig) = xji (V (main_arg0 : DevRef τ sig)) (V (main_arg14 : DevRef τ sig)) (V (main_arg15 : DevRef τ sig)) := by
  unfold opsA
  rw [after_append_avoid (B := [main_v4]) _ _ _ V main_v4 (by decide),
    after_append_avoid (B := [main_v4]) _ _ _ V main_v4 (by decide),
    after_append_avoid (B := [main_v4]) _ _ _ V main_v4 (by decide),
    after_append_avoid (B := [main_v4]) _ _ _ V main_v4 (by decide),
    StableHlo.after_append, selu0_val]
  · after_results
    rw [dotGeneral_eq_mm dot_S100000x128_S128x128_S100000x128_1_0_0_1_n_n rfl, bias_host]
    rfl
  all_goals all_avoid

/-- The stretch writes no argument array. -/
theorem keptA (b : Ref sig .tc) (hb : b ∈ argRefs) : after (opsA (F := Ideal)) V (b : DevRef τ sig) = V (b : DevRef τ sig) :=
  after_avoid _ cleanA V b hb

end Cert.ReferenceIdeal.RVal

end
-- ==== Proof.RValB.lean ====
/- The reference's second stretch (%15 … %30): the wrapped gather index, the gather of stage A's rows, stage B and
   the segment sum into a zero table. -/
import proofs.«426082_j5952824672726_2_alg».proof.Proof.ROps
import proofs.«426082_j5952824672726_2_alg».proof.Proof.RArgs
import proofs.«426082_j5952824672726_2_alg».proof.Proof.Spec
import proofs.«426082_j5952824672726_2_alg».proof.Proof.SpecMid
import proofs.«426082_j5952824672726_2_alg».proof.Proof.SpecOps

noncomputable section

namespace Cert.ReferenceIdeal.RVal

open Idealize.ShloMosaic Idealize.ShloMosaic.TcCoe Idealize.ShloMosaic.StableHlo Idealize.ShloMosaic.ValueIdx
open Idealize.SL.Sem
open Cert.ReferenceIdeal Cert.ReferenceIdeal.RRun Cert.Spec
open Facts₀ Facts

variable [Facts] (V : Valuation τ sig (Elt Ideal))

/-- The nineteen buffers the stretch writes, in order. -/
abbrev writtenB : List (Ref sig .tc) :=
  [main_v15, main_v16, main_c, main_v17, main_v18, main_c_0, main_v19, main_v20, main_v21, main_v22, main_v23, main_v24,
   main_v25, main_v26, main_v27, main_cst, main_v28, main_v29, main_v30]

/-- Every operation of the stretch writes one of those buffers. -/
theorem opsB_writes : (opsB (F := Ideal) : List (HloOp τ sig (Elt Ideal))).Forall fun op =>
    op.writes ⊆ (writtenB.map (Proc.devRef (τ := τ) .tc)).toFinset := by
  simp only [opsB, List.Forall, nullary_writes, unary_writes, binary_writes, ternary_writes, Finset.singleton_subset_iff,
    List.mem_toFinset]
  repeat' apply And.intro
  all_goals exact List.mem_map_of_mem (by decide)

/-- No argument buffer, and not the buffer of %4, is among them. -/
theorem kept_not_written : ∀ b ∈ main_v4 :: argRefs, b ∉ writtenB := by decide

/-- Stage B as the reference prints it: the gathered rows times the spherical-basis product, times the triplet product,
    each product two matrix products in a row. -/
theorem stageB_printed (SBF : Mat 500000 42) (T : Mat 500000 294) (G : Mat 500000 64) (Ws1 : Mat 42 8) (Ws2 : Mat 8 64)
    (Wt1 : Mat 294 8) (Wt2 : Mat 8 64) :
    mulf (F := Ideal)
        (mulf G (Host.dotGeneral dot_S500000x8_S8x64_S500000x64_1_0_0_1_n_n none
          (Host.dotGeneral dot_S500000x42_S42x8_S500000x8_1_0_0_1_n_n none SBF Ws1) Ws2))
        (Host.dotGeneral dot_S500000x8_S8x64_S500000x64_1_0_0_1_n_n none
          (Host.dotGeneral dot_S500000x294_S294x8_S500000x8_1_0_0_1_n_n none T Wt1) Wt2)
      = stageB SBF T G Ws1 Ws2 Wt1 Wt2 := by
  rw [dotGeneral_eq_mm dot_S500000x42_S42x8_S500000x8_1_0_0_1_n_n rfl, dotGeneral_eq_mm dot_S500000x294_S294x8_S500000x8_1_0_0_1_n_n rfl,
    dotGeneral_eq_mm dot_S500000x8_S8x64_S500000x64_1_0_0_1_n_n rfl, dotGeneral_eq_mm dot_S500000x8_S8x64_S500000x64_1_0_0_1_n_n rfl,
    mulf_eq_mulM, mulf_eq_mulM]
  rfl

set_option maxHeartbeats 1000000 in
/-- After the second stretch the buffer of %30 holds the segment sums of stage B over the gathered rows of the buffer of %14. -/
theorem valB : after (opsB (F := Ideal)) V (main_v30 : DevRef τ sig)
    = Host.scatterAdd (F := Ideal) scatter_S100000x64_S500000x1_S500000x64_1_0_0_1
        (broadcastInDim S100000x64 ![] bcast_S_S100000x64 (constant S_ .f32 0x00000000#32))
        (broadcastInDim S500000x1 ![0] bcast_S500000_S500000x1_0 (V (main_arg29 : DevRef τ sig)))
        (stageB (V (main_arg2 : DevRef τ sig)) (V (main_arg3 : DevRef τ sig))
          (Host.gather gather_S100000x64_S500000x1_S500000x64_1_0_n_n_0_1_164 (V (main_v14 : DevRef τ sig))
            (broadcastInDim S500000x1 ![0] bcast_S500000_S500000x1_0
              (select (cmpi .slt (V (main_arg28 : DevRef τ sig)) (broadcastInDim S500000 ![] bcast_S_S500000 (constantI S_ 32 0#32)))
                (addi (V (main_arg28 : DevRef τ sig)) (broadcastInDim S500000 ![] bcast_S_S500000 (constantI S_ 32 100000#32))) (V (main_arg28 : DevRef τ sig)))))
          (V (main_arg7 : DevRef τ sig)) (V (main_arg8 : DevRef τ sig)) (V (main_arg9 : DevRef τ sig)) (V (main_arg10 : DevRef τ sig))) := by
  after_results
  rw [stageB_printed]

/-- The stretch writes no argument array and not the buffer of %4. -/
theorem keptB (b : Ref sig .tc) (hb : b ∈ main_v4 :: argRefs) : after (opsB (F := Ideal)) V (b : DevRef τ sig) = V (b : DevRef τ sig) :=
  after_of_writes_sub (opsB (F := Ideal)) V opsB_writes (kept_not_written b hb)

end Cert.ReferenceIdeal.RVal

end
-- ==== Proof.RValC1.lean ====
/- The reference's third stretch (%31 … %54): selu(S·W_up), the sum with x_ji, the first residual block, the linear
   layer and the skip connection to x1.

   The stretch is cut at its four calls of selu: nine lists run one after the other. A call of selu leaves selu of
   its argument in its result buffer and keeps every buffer outside its record of nineteen; a piece between two
   calls is read at the few buffers a later operation uses (a product is mm, a bias broadcast down the rows addRow,
   the reshape of a stack of one matrix its member 0, of a matrix of one row its row 0) and keeps every buffer it
   does not write. Composing these from the last piece back to the first gives stageCmid of the stretch's inputs;
   no piece writes an argument array. -/
import proofs.«426082_j5952824672726_2_alg».proof.Proof.ROps
import proofs.«426082_j5952824672726_2_alg».proof.Proof.RArgs
import proofs.«426082_j5952824672726_2_alg».proof.Proof.Spec
import proofs.«426082_j5952824672726_2_alg».proof.Proof.SpecMid
import proofs.«426082_j5952824672726_2_alg».proof.Proof.SpecOps

noncomputable section

namespace Cert.ReferenceIdeal.RVal

open Idealize.ShloMosaic Idealize.ShloMosaic.TcCoe Idealize.ShloMosaic.StableHlo Idealize.ShloMosaic.ValueIdx
open Idealize.SL.Sem
open Cert.ReferenceIdeal Cert.ReferenceIdeal.RRun Cert.Spec
open Facts₀ Facts

variable [Facts] (V : Valuation τ sig (Elt Ideal))

namespace C1

/-! ### One call of selu -/

/-- The nineteen buffers one call of selu writes. -/
def seluW (φ : fn_selu.Bufs) : List (Ref sig .tc) :=
  [φ.cst.ref, φ.call0.cst.ref, φ.call0.v0.ref, φ.call0.v1.ref, φ.call0.cst_0.ref, φ.call0.v2.ref, φ.call0.v3.ref,
   φ.call0.cst_1.ref, φ.call0.call0.v0.ref, φ.call0.call0.v1.ref, φ.call0.call0.v2.ref, φ.call0.v5.ref, φ.call0.v6.ref,
   φ.call0.v7.ref, φ.call0.v8.ref, φ.call0.call1.v0.ref, φ.cst_0.ref, φ.v1.ref, φ.v2.ref]

/-- Every operation of a call of selu writes one of those. -/
theorem seluOps_writes (x : StableHlo.TRef sig ⟨S100000x128, .f32⟩) (φ : fn_selu.Bufs) :
    (seluOps (F := Ideal) x φ).Forall fun op => op.writes ⊆ ((seluW φ).map (Proc.devRef (τ := τ) .tc)).toFinset := by
  simp only [seluOps, List.Forall, nullary_writes, unary_writes, binary_writes, ternary_writes, Finset.singleton_subset_iff,
    List.mem_toFinset]
  repeat' apply And.intro
  all_goals exact List.mem_map_of_mem (by simp only [seluW, List.mem_cons, true_or, or_true])

/-- A buffer outside the call's record keeps its contents. -/
theorem selu_kept (x : StableHlo.TRef sig ⟨S100000x128, .f32⟩) (φ : fn_selu.Bufs) (W : Valuation τ sig (Elt Ideal))
    {r : Ref sig .tc} (hr : r ∉ seluW φ) :
    after (seluOps (F := Ideal) x φ) W (Proc.devRef .tc r) = W (Proc.devRef .tc r) :=
  after_of_writes_sub _ W (seluOps_writes x φ) hr

/-! ### The stretch in pieces -/

section Pieces

variable {F : FTy → Type} [FloatOps F]

/-- %31. -/
abbrev l0 : List (HloOp τ sig (Elt F)) :=
  [ binary main_v30 main_arg17 main_v31 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)) ]

/-- %33 … %41. -/
abbrev l1 : List (HloOp τ sig (Elt F)) :=
  [ binary main_v4 main_v32 main_v33 (addf : (⟨S100000x128, .f32⟩ : BufTy).Contents (Elt F) → (⟨S100000x128, .f32⟩ : BufTy).Contents (Elt F) → (⟨S100000x128, .f32⟩ : BufTy).Contents (Elt F)),
    reshape main_arg20 main_v34 rfl shapeCasts_S1x128x128_S128x128,
    reshape main_arg21 main_v35 rfl shapeCasts_S1x128_S128,
    reshape main_arg22 main_v36 rfl shapeCasts_S1x128x128_S128x128,
    reshape main_arg23 main_v37 rfl shapeCasts_S1x128_S128,
    binary main_v33 main_v34 main_v38 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v35 main_v39 (broadcastInDim S1x128 ![1] bcast_S128_S1x128_1 : (⟨S128, .f32⟩ : BufTy).Contents (Elt F) → (⟨S1x128, .f32⟩ : BufTy).Contents (Elt F)),
    unary main_v39 main_v40 (broadcastInDim S100000x128 ![0, 1] bcast_S1x128_S100000x128_0_1 : (⟨S1x128, .f32⟩ : BufTy).Contents (Elt F) → (⟨S100000x128, .f32⟩ : BufTy).Contents (Elt F)),
    binary main_v38 main_v40 main_v41 (addf : (⟨S100000x128, .f32⟩ : BufTy).Contents (Elt F) → (⟨S100000x128, .f32⟩ : BufTy).Contents (Elt F) → (⟨S100000x128, .f32⟩ : BufTy).Contents (Elt F)) ]

/-- %43 … %46. -/
abbrev l2 : List (HloOp τ sig (Elt F)) :=
  [ binary main_v42 main_v36 main_v43 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v37 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)) ]

/-- %48 … %52. -/
abbrev l3 : List (HloOp τ sig (Elt F)) :=
  [ binary main_v33 main_v47 main_v48 (addf : (⟨S100000x128, .f32⟩ : BufTy).Contents (Elt F) → (⟨S100000x128, .f32⟩ : BufTy).Contents (Elt F) → (⟨S100000x128, .f32⟩ : BufTy).Contents (Elt F)),
    binary main_v48 main_arg18 main_v49 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg19 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v49 main_v51 main_v52 (addf : (⟨S100000x128, .f32⟩ : BufTy).Contents (Elt F) → (⟨S100000x128, .f32⟩ : BufTy).Contents (Elt F) → (⟨S100000x128, .f32⟩ : BufTy).Contents (Elt F)) ]

/-- %54. -/
abbrev l4 : List (HloOp τ sig (Elt F)) :=
  [ binary main_v53 main_arg0 main_v54 (addf : (⟨S100000x128, .f32⟩ : BufTy).Contents (Elt F) → (⟨S100000x128, .f32⟩ : BufTy).Contents (Elt F) → (⟨S100000x128, .f32⟩ : BufTy).Contents (Elt F)) ]

/-- The stretch is its pieces in order, the four calls of selu between them. -/
theorem opsC1_eq : (opsC1 (F := F) : List (HloOp τ sig (Elt F)))
    = l0 ++ seluOps (.of main_v31) main_call3 ++ l1 ++ seluOps (.of main_v41) main_call4 ++ l2
        ++ seluOps (.of main_v46) main_call5 ++ l3 ++ seluOps (.of main_v52) main_call6 ++ l4 := rfl

end Pieces

/-! ### Buffers the pieces write -/

/-- The buffer %31 is written to. -/
def w0 : List (Ref sig .tc) := [main_v31]
/-- The buffers %33 … %41 are written to. -/
def w1 : List (Ref sig .tc) := [main_v33, main_v34, main_v35, main_v36, main_v37, main_v38, main_v39, main_v40, main_v41]
/-- The buffers %43 … %46 are written to. -/
def w2 : List (Ref sig .tc) := [main_v43, main_v44, main_v45, main_v46]
/-- The buffers %48 … %52 are written to. -/
def w3 : List (Ref sig .tc) := [main_v48, main_v49, main_v50, main_v51, main_v52]
/-- The buffer %54 is written to. -/
def w4 : List (Ref sig .tc) := [main_v54]

/-- Every operation of a literal piece writes a buffer of the piece's list. -/
macro "c1_writes_in_list" : tactic =>
  `(tactic| (simp only [List.Forall, nullary_writes, unary_writes, binary_writes, ternary_writes, reshape_writes,
      Finset.singleton_subset_iff, List.mem_toFinset]
             repeat' apply And.intro
             all_goals exact List.mem_map_of_mem (by decide)))

theorem l0_writes : (l0 (F := Ideal)).Forall fun op => op.writes ⊆ (w0.map (Proc.devRef (τ := τ) .tc)).toFinset := by
  c1_writes_in_list
theorem l1_writes : (l1 (F := Ideal)).Forall fun op => op.writes ⊆ (w1.map (Proc.devRef (τ := τ) .tc)).toFinset := by
  c1_writes_in_list
theorem l2_writes : (l2 (F := Ideal)).Forall fun op => op.writes ⊆ (w2.map (Proc.devRef (τ := τ) .tc)).toFinset := by
  c1_writes_in_list
theorem l3_writes : (l3 (F := Ideal)).Forall fun op => op.writes ⊆ (w3.map (Proc.devRef (τ := τ) .tc)).toFinset := by
  c1_writes_in_list
theorem l4_writes : (l4 (F := Ideal)).Forall fun op => op.writes ⊆ (w4.map (Proc.devRef (τ := τ) .tc)).toFinset := by
  c1_writes_in_list

theorem l0_kept (W : Valuation τ sig (Elt Ideal)) {r : Ref sig .tc} (hr : r ∉ w0) :
    after (l0 (F := Ideal)) W (Proc.devRef .tc r) = W (Proc.devRef .tc r) := after_of_writes_sub _ W l0_writes hr
theorem l1_kept (W : Valuation τ sig (Elt Ideal)) {r : Ref sig .tc} (hr : r ∉ w1) :
    after (l1 (F := Ideal)) W (Proc.devRef .tc r) = W (Proc.devRef .tc r) := after_of_writes_sub _ W l1_writes hr
theorem l2_kept (W : Valuation τ sig (Elt Ideal)) {r : Ref sig .tc} (hr : r ∉ w2) :
    after (l2 (F := Ideal)) W (Proc.devRef .tc r) = W (Proc.devRef .tc r) := after_of_writes_sub _ W l2_writes hr
theorem l3_kept (W : Valuation τ sig (Elt Ideal)) {r : Ref sig .tc} (hr : r ∉ w3) :
    after (l3 (F := Ideal)) W (Proc.devRef .tc r) = W (Proc.devRef .tc r) := after_of_writes_sub _ W l3_writes hr
theorem l4_kept (W : Valuation τ sig (Elt Ideal)) {r : Ref sig .tc} (hr : r ∉ w4) :
    after (l4 (F := Ideal)) W (Proc.devRef .tc r) = W (Proc.devRef .tc r) := after_of_writes_sub _ W l4_writes hr

/-! ### The four calls of selu at their result buffers -/

/-- The call's nineteen operations leave selu of the argument in the result buffer. -/
macro "c1_selu_call_value" : tactic =>
  `(tactic| (after_results_simp
             simp only [TRef.ofBuf, TRef.toBuf, cast_eq]
             exact selu_host _ _))

theorem selu3_val (W : Valuation τ sig (Elt Ideal)) :
    after (seluOps (F := Ideal) (.of main_v31) main_call3) W (Proc.devRef .tc main_v32 : DevRef τ sig) = seluM (W (Proc.devRef .tc main_v31 : DevRef τ sig)) := by
  c1_selu_call_value
theorem selu4_val (W : Valuation τ sig (Elt Ideal)) :
    after (seluOps (F := Ideal) (.of main_v41) main_call4) W (Proc.devRef .tc main_v42 : DevRef τ sig) = seluM (W (Proc.devRef .tc main_v41 : DevRef τ sig)) := by
  c1_selu_call_value
theorem selu5_val (W : Valuation τ sig (Elt Ideal)) :
    after (seluOps (F := Ideal) (.of main_v46) main_call5) W (Proc.devRef .tc main_v47 : DevRef τ sig) = seluM (W (Proc.devRef .tc main_v46 : DevRef τ sig)) := by
  c1_selu_call_value
theorem selu6_val (W : Valuation τ sig (Elt Ideal)) :
    after (seluOps (F := Ideal) (.of main_v52) main_call6) W (Proc.devRef .tc main_v53 : DevRef τ sig) = seluM (W (Proc.devRef .tc main_v52 : DevRef τ sig)) := by
  c1_selu_call_value

/-! ### The reshapes of the stacked weights -/

/-- A stack of one matrix reshaped to a matrix is its member 0. -/
theorem reshape_member (X : Stack 1 128 128) (h : (⟨3, ![1, 128, 128]⟩ : Shape).ShapeCasts ⟨2, ![128, 128]⟩) :
    (fun i => shapeCast ⟨2, ![128, 128]⟩ X h i) = member X 0 := by
  funext i
  obtain ⟨a, b, rfl⟩ : ∃ (a : Fin 128) (b : Fin 128), i = ix2 a b := ⟨i 0, i 1, eq_ix2 i⟩
  exact shapeCast_1ab_ab_apply X h a b

/-- A matrix of one row reshaped to a vector is its row 0. -/
theorem reshape_rowOf (X : Mat 1 128) (h : (⟨2, ![1, 128]⟩ : Shape).ShapeCasts ⟨1, ![128]⟩) :
    (fun i => shapeCast ⟨1, ![128]⟩ X h i) = rowOf X 0 := by
  funext i
  obtain ⟨a, rfl⟩ : ∃ a : Fin 128, i = ix1 a := ⟨i 0, eq_ix1 i⟩
  exact shapeCast_1a_a_apply X h a

/-! ### The pieces at the buffers read later -/

theorem l0_val (W : Valuation τ sig (Elt Ideal)) :
    after (l0 (F := Ideal)) W (Proc.devRef .tc main_v31 : DevRef τ sig) = mm (W (Proc.devRef .tc main_v30 : DevRef τ sig)) (W (Proc.devRef .tc main_arg17 : DevRef τ sig)) := by
  after_results_simp
  exact dotGeneral_eq_mm _ rfl none _ _

theorem l1_v33 (W : Valuation τ sig (Elt Ideal)) :
    after (l1 (F := Ideal)) W (Proc.devRef .tc main_v33 : DevRef τ sig) = addM (W (Proc.devRef .tc main_v4 : DevRef τ sig)) (W (Proc.devRef .tc main_v32 : DevRef τ sig)) := by
  after_results_simp
  exact addf_eq_addM _ _

theorem l1_v36 (W : Valuation τ sig (Elt Ideal)) :
    after (l1 (F := Ideal)) W (Proc.devRef .tc main_v36 : DevRef τ sig) = member (W (Proc.devRef .tc main_arg22 : DevRef τ sig)) 0 := by
  after_results_simp
  exact reshape_member _ _

theorem l1_v37 (W : Valuation τ sig (Elt Ideal)) :
    after (l1 (F := Ideal)) W (Proc.devRef .tc main_v37 : DevRef τ sig) = rowOf (W (Proc.devRef .tc main_arg23 : DevRef τ sig)) 0 := by
  after_results_simp
  exact reshape_rowOf _ _

theorem l1_v41 (W : Valuation τ sig (Elt Ideal)) :
    after (l1 (F := Ideal)) W (Proc.devRef .tc main_v41 : DevRef τ sig)
      = addRow (mm (addM (W (Proc.devRef .tc main_v4 : DevRef τ sig)) (W (Proc.devRef .tc main_v32 : DevRef τ sig))) (member (W (Proc.devRef .tc main_arg20 : DevRef τ sig)) 0))
          (rowOf (W (Proc.devRef .tc main_arg21 : DevRef τ sig)) 0) := by
  after_results_simp
  exact (bias_host _ _ _ _).trans (congrArg₂ addRow
    ((dotGeneral_eq_mm _ rfl none _ _).trans (congrArg₂ mm (addf_eq_addM _ _) (reshape_member _ _))) (reshape_rowOf _ _))

theorem l2_v46 (W : Valuation τ sig (Elt Ideal)) :
    after (l2 (F := Ideal)) W (Proc.devRef .tc main_v46 : DevRef τ sig)
      = addRow (mm (W (Proc.devRef .tc main_v42 : DevRef τ sig)) (W (Proc.devRef .tc main_v36 : DevRef τ sig))) (W (Proc.devRef .tc main_v37 : DevRef τ sig)) := by
  after_results_simp
  exact (bias_host _ _ _ _).trans (congrArg₂ addRow (dotGeneral_eq_mm _ rfl none _ _) rfl)

theorem l3_v52 (W : Valuation τ sig (Elt Ideal)) :
    after (l3 (F := Ideal)) W (Proc.devRef .tc main_v52 : DevRef τ sig)
      = addRow (mm (addM (W (Proc.devRef .tc main_v33 : DevRef τ sig)) (W (Proc.devRef .tc main_v47 : DevRef τ sig))) (W (Proc.devRef .tc main_arg18 : DevRef τ sig))) (W (Proc.devRef .tc main_arg19 : DevRef τ sig)) := by
  after_results_simp
  exact (bias_host _ _ _ _).trans (congrArg₂ addRow
    ((dotGeneral_eq_mm _ rfl none _ _).trans (congrArg₂ mm (addf_eq_addM _ _) rfl)) rfl)

theorem l4_v54 (W : Valuation τ sig (Elt Ideal)) :
    after (l4 (F := Ideal)) W (Proc.devRef .tc main_v54 : DevRef τ sig) = addM (W (Proc.devRef .tc main_v53 : DevRef τ sig)) (W (Proc.devRef .tc main_arg0 : DevRef τ sig)) := by
  after_results_simp
  exact addf_eq_addM _ _

end C1

open C1

/-! ### The stretch -/

/-- After the third stretch the buffer of %54 holds e1 before its two last residual blocks. -/
theorem valC1 : after (opsC1 (F := Ideal)) V (main_v54 : DevRef τ sig)
    = stageCmid (V (main_v4 : DevRef τ sig)) (V (main_v30 : DevRef τ sig)) (V (main_arg0 : DevRef τ sig)) (V (main_arg17 : DevRef τ sig)) (V (main_arg20 : DevRef τ sig)) (V (main_arg21 : DevRef τ sig)) (V (main_arg22 : DevRef τ sig)) (V (main_arg23 : DevRef τ sig))
        (V (main_arg18 : DevRef τ sig)) (V (main_arg19 : DevRef τ sig)) := by
  rw [opsC1_eq]
  simp only [StableHlo.after_append]
  rw [
    l4_v54, selu6_val, selu_kept _ main_call6 _ (r := main_arg0) (by decide), l3_v52,
    l3_kept _ (r := main_arg0) (by decide), selu5_val, selu_kept _ main_call5 _ (r := main_v33) (by decide),
    selu_kept _ main_call5 _ (r := main_arg18) (by decide), selu_kept _ main_call5 _ (r := main_arg19) (by decide),
    selu_kept _ main_call5 _ (r := main_arg0) (by decide), l2_v46, l2_kept _ (r := main_v33) (by decide),
    l2_kept _ (r := main_arg18) (by decide), l2_kept _ (r := main_arg19) (by decide),
    l2_kept _ (r := main_arg0) (by decide), selu4_val, selu_kept _ main_call4 _ (r := main_v36) (by decide),
    selu_kept _ main_call4 _ (r := main_v37) (by decide), selu_kept _ main_call4 _ (r := main_v33) (by decide),
    selu_kept _ main_call4 _ (r := main_arg18) (by decide), selu_kept _ main_call4 _ (r := main_arg19) (by decide),
    selu_kept _ main_call4 _ (r := main_arg0) (by decide), l1_v41, l1_v36, l1_v37, l1_v33,
    l1_kept _ (r := main_arg18) (by decide), l1_kept _ (r := main_arg19) (by decide),
    l1_kept _ (r := main_arg0) (by decide), selu3_val, selu_kept _ main_call3 _ (r := main_v4) (by decide),
    selu_kept _ main_call3 _ (r := main_arg20) (by decide), selu_kept _ main_call3 _ (r := main_arg21) (by decide),
    selu_kept _ main_call3 _ (r := main_arg22) (by decide), selu_kept _ main_call3 _ (r := main_arg23) (by decide),
    selu_kept _ main_call3 _ (r := main_arg18) (by decide), selu_kept _ main_call3 _ (r := main_arg19) (by decide),
    selu_kept _ main_call3 _ (r := main_arg0) (by decide), l0_val, l0_kept _ (r := main_v4) (by decide),
    l0_kept _ (r := main_arg20) (by decide), l0_kept _ (r := main_arg21) (by decide),
    l0_kept _ (r := main_arg22) (by decide), l0_kept _ (r := main_arg23) (by decide),
    l0_kept _ (r := main_arg18) (by decide), l0_kept _ (r := main_arg19) (by decide),
    l0_kept _ (r := main_arg0) (by decide)]
  rfl

/-- Every buffer the stretch writes, in order. -/
def wC1 : List (Ref sig .tc) :=
  w0 ++ seluW main_call3 ++ w1 ++ seluW main_call4 ++ w2 ++ seluW main_call5 ++ w3 ++ seluW main_call6 ++ w4

/-- No argument array is among them. -/
theorem args_unwritten : ∀ b ∈ argRefs, b ∉ wC1 := by decide

/-- The stretch writes no argument array. -/
theorem keptC1 (b : Ref sig .tc) (hb : b ∈ argRefs) : after (opsC1 (F := Ideal)) V (b : DevRef τ sig) = V (b : DevRef τ sig) := by
  have h := args_unwritten b hb
  simp only [wC1, List.mem_append, not_or] at h
  obtain ⟨⟨⟨⟨⟨⟨⟨⟨h0, h1⟩, h2⟩, h3⟩, h4⟩, h5⟩, h6⟩, h7⟩, h8⟩ := h
  rw [opsC1_eq]
  simp only [StableHlo.after_append]
  rw [l4_kept _ h8, selu_kept _ _ _ h7, l3_kept _ h6, selu_kept _ _ _ h5, l2_kept _ h4, selu_kept _ _ _ h3,
    l1_kept _ h2, selu_kept _ _ _ h1, l0_kept _ h0]

end Cert.ReferenceIdeal.RVal

end
-- ==== Proof.RValC2.lean ====
/- The reference's last stretch (%55 … %94): the two last residual blocks, giving e1, and e2 = (rbf0·W_rbf) ⊙ e1. -/
import proofs.«426082_j5952824672726_2_alg».proof.Proof.ROps
import proofs.«426082_j5952824672726_2_alg».proof.Proof.RArgs
import proofs.«426082_j5952824672726_2_alg».proof.Proof.Spec
import proofs.«426082_j5952824672726_2_alg».proof.Proof.SpecMid
import proofs.«426082_j5952824672726_2_alg».proof.Proof.SpecOps

noncomputable section

namespace Cert.ReferenceIdeal.RVal

open Idealize.ShloMosaic Idealize.ShloMosaic.TcCoe Idealize.ShloMosaic.StableHlo Idealize.ShloMosaic.ValueIdx
open Idealize.SL.Sem
open Cert.ReferenceIdeal Cert.ReferenceIdeal.RRun Cert.Spec
open Facts₀ Facts

variable [Facts] (V : Valuation τ sig (Elt Ideal))

/-- Running two lists one after the other is running their concatenation. -/
private theorem after_append (l₁ l₂ : List (HloOp τ sig (Elt Ideal))) (W : Valuation τ sig (Elt Ideal)) :
    after (l₁ ++ l₂) W = after l₂ (after l₁ W) := by
  induction l₁ generalizing W with
  | nil => rfl
  | cons op l ih => simp only [List.cons_append, after_cons, ih]

/-- Member g of a stack, cut out as a stack of one and with the unit axis dropped. -/
private theorem reshape_slice_member {G M N : Nat} (W : Stack G M N) (o : Nat) (g : Fin G) (hg : g.val = o)
    (hs : (⟨3, ![G, M, N]⟩ : Shape).Slices ![o, 0, 0] ⟨3, ![1, M, N]⟩)
    (hc : (⟨3, ![1, M, N]⟩ : Shape).ShapeCasts ⟨2, ![M, N]⟩) :
    shapeCast ⟨2, ![M, N]⟩ (extractStridedSlice ⟨3, ![1, M, N]⟩ ![o, 0, 0] W hs) hc = member W g := by
  funext i
  obtain ⟨a, b, rfl⟩ : ∃ (a : Fin M) (b : Fin N), i = ix2 a b := ⟨i 0, i 1, eq_ix2 i⟩
  rw [shapeCast_1ab_ab_apply]
  refine (extractStridedSlice_apply _ _ hs (ix3 (0 : Fin 1) a b) (ix3 g a b) ?_).trans rfl
  intro ax
  match ax with
  | ⟨0, _⟩ => exact hg.trans (Nat.add_zero _).symm
  | ⟨1, _⟩ => exact (Nat.zero_add _).symm
  | ⟨2, _⟩ => exact (Nat.zero_add _).symm

/-- Row g of a matrix, cut out as a one-row matrix and with the unit axis dropped. -/
private theorem reshape_slice_row {G N : Nat} (B : Mat G N) (o : Nat) (g : Fin G) (hg : g.val = o)
    (hs : (⟨2, ![G, N]⟩ : Shape).Slices ![o, 0] ⟨2, ![1, N]⟩)
    (hc : (⟨2, ![1, N]⟩ : Shape).ShapeCasts ⟨1, ![N]⟩) :
    shapeCast ⟨1, ![N]⟩ (extractStridedSlice ⟨2, ![1, N]⟩ ![o, 0] B hs) hc = rowOf B g := by
  funext i
  obtain ⟨a, rfl⟩ : ∃ (a : Fin N), i = ix1 a := ⟨i 0, eq_ix1 i⟩
  rw [shapeCast_1a_a_apply]
  refine (extractStridedSlice_apply _ _ hs (ix2 (0 : Fin 1) a) (ix2 g a) ?_).trans rfl
  intro ax
  match ax with
  | ⟨0, _⟩ => exact hg.trans (Nat.add_zero _).symm
  | ⟨1, _⟩ => exact (Nat.zero_add _).symm

/-- The nineteen buffers one call of selu writes. -/
private def seluRefs (φ : fn_selu.Bufs) : List (Ref sig .tc) :=
  [φ.cst.ref, φ.call0.cst.ref, φ.call0.v0.ref, φ.call0.v1.ref, φ.call0.cst_0.ref, φ.call0.v2.ref, φ.call0.v3.ref,
   φ.call0.cst_1.ref, φ.call0.call0.v0.ref, φ.call0.call0.v1.ref, φ.call0.call0.v2.ref, φ.call0.v5.ref, φ.call0.v6.ref,
   φ.call0.v7.ref, φ.call0.v8.ref, φ.call0.call1.v0.ref, φ.cst_0.ref, φ.v1.ref, φ.v2.ref]

private theorem single_sub_of_mem {L : List (Ref sig .tc)} {y : Ref sig .tc} (h : y ∈ L) :
    ({Proc.devRef .tc y} : Finset (DevRef τ sig)) ⊆ (L.map (Proc.devRef (τ := τ) .tc)).toFinset :=
  Finset.singleton_subset_iff.mpr (List.mem_toFinset.mpr (List.mem_map_of_mem h))

/-- A buffer outside a call's record keeps its contents through the call. -/
private theorem selu_frame (x : StableHlo.TRef sig ⟨S100000x128, .f32⟩) (φ : fn_selu.Bufs) (W : Valuation τ sig (Elt Ideal))
    (r : Ref sig .tc) (hr : r ∉ seluRefs φ) :
    after (seluOps (F := Ideal) x φ) W (Proc.devRef .tc r) = W (Proc.devRef .tc r) := by
  refine after_of_writes_sub (W := seluRefs φ) _ W ?_ hr
  simp only [List.Forall, nullary_writes, unary_writes, binary_writes, ternary_writes]
  refine ⟨?_, ?_, ?_, ?_, ?_, ?_, ?_, ?_, ?_, ?_, ?_, ?_, ?_, ?_, ?_, ?_, ?_, ?_, ?_⟩ <;>
    exact single_sub_of_mem (by simp [seluRefs])

/-! Each call's last buffer holds selu of the argument. -/

private theorem selu7_val (W : Valuation τ sig (Elt Ideal)) :
    after (seluOps (F := Ideal) (.of main_v66) main_call7) W (main_v67 : DevRef τ sig) = seluM (W (main_v66 : DevRef τ sig)) := by
  after_results_simp
  exact selu_host (W (main_v66 : DevRef τ sig)) bcast_S_S100000x128

private theorem selu8_val (W : Valuation τ sig (Elt Ideal)) :
    after (seluOps (F := Ideal) (.of main_v71) main_call8) W (main_v72 : DevRef τ sig) = seluM (W (main_v71 : DevRef τ sig)) := by
  after_results_simp
  exact selu_host (W (main_v71 : DevRef τ sig)) bcast_S_S100000x128

private theorem selu9_val (W : Valuation τ sig (Elt Ideal)) :
    after (seluOps (F := Ideal) (.of main_v85) main_call9) W (main_v86 : DevRef τ sig) = seluM (W (main_v85 : DevRef τ sig)) := by
  after_results_simp
  exact selu_host (W (main_v85 : DevRef τ sig)) bcast_S_S100000x128

private theorem selu10_val (W : Valuation τ sig (Elt Ideal)) :
    after (seluOps (F := Ideal) (.of main_v90) main_call10) W (main_v91 : DevRef τ sig) = seluM (W (main_v90 : DevRef τ sig)) := by
  after_results_simp
  exact selu_host (W (main_v90 : DevRef τ sig)) bcast_S_S100000x128

/-! The four calls, each as one named list. -/
private def S7 : List (HloOp τ sig (Elt Ideal)) := seluOps (.of main_v66) main_call7
private def S8 : List (HloOp τ sig (Elt Ideal)) := seluOps (.of main_v71) main_call8
private def S9 : List (HloOp τ sig (Elt Ideal)) := seluOps (.of main_v85) main_call9
private def S10 : List (HloOp τ sig (Elt Ideal)) := seluOps (.of main_v90) main_call10
private theorem S7_def : seluOps (F := Ideal) (.of main_v66) main_call7 = S7 := rfl
private theorem S8_def : seluOps (F := Ideal) (.of main_v71) main_call8 = S8 := rfl
private theorem S9_def : seluOps (F := Ideal) (.of main_v85) main_call9 = S9 := rfl
private theorem S10_def : seluOps (F := Ideal) (.of main_v90) main_call10 = S10 := rfl
private theorem S7_val (W : Valuation τ sig (Elt Ideal)) :
    after S7 W (no_index (Proc.devRef .tc main_v67)) = seluM (W (Proc.devRef .tc main_v66)) := selu7_val W
private theorem S7_frame (W : Valuation τ sig (Elt Ideal)) (r : Ref sig .tc) (hr : r ∉ seluRefs main_call7) :
    after S7 W (no_index (Proc.devRef .tc r)) = W (Proc.devRef .tc r) := selu_frame _ _ W r hr
private theorem S8_val (W : Valuation τ sig (Elt Ideal)) :
    after S8 W (no_index (Proc.devRef .tc main_v72)) = seluM (W (Proc.devRef .tc main_v71)) := selu8_val W
private theorem S8_frame (W : Valuation τ sig (Elt Ideal)) (r : Ref sig .tc) (hr : r ∉ seluRefs main_call8) :
    after S8 W (no_index (Proc.devRef .tc r)) = W (Proc.devRef .tc r) := selu_frame _ _ W r hr
private theorem S9_val (W : Valuation τ sig (Elt Ideal)) :
    after S9 W (no_index (Proc.devRef .tc main_v86)) = seluM (W (Proc.devRef .tc main_v85)) := selu9_val W
private theorem S9_frame (W : Valuation τ sig (Elt Ideal)) (r : Ref sig .tc) (hr : r ∉ seluRefs main_call9) :
    after S9 W (no_index (Proc.devRef .tc r)) = W (Proc.devRef .tc r) := selu_frame _ _ W r hr
private theorem S10_val (W : Valuation τ sig (Elt Ideal)) :
    after S10 W (no_index (Proc.devRef .tc main_v91)) = seluM (W (Proc.devRef .tc main_v90)) := selu10_val W
private theorem S10_frame (W : Valuation τ sig (Elt Ideal)) (r : Ref sig .tc) (hr : r ∉ seluRefs main_call10) :
    after S10 W (no_index (Proc.devRef .tc r)) = W (Proc.devRef .tc r) := selu_frame _ _ W r hr

/-- The stretch run piece by piece. -/
private theorem chain (A0 A B C D E T7 T8 T9 T10 : List (HloOp τ sig (Elt Ideal))) (W : Valuation τ sig (Elt Ideal)) :
    after (A0 ++ (A ++ T7 ++ B ++ T8 ++ C ++ T9 ++ D ++ T10 ++ E)) W
      = after E (after T10 (after D (after T9 (after C (after T8 (after B (after T7 (after A (after A0 W))))))))) := by
  simp only [after_append]

/-! The printed spellings, as functions of the arrays they read. -/

/-- A residual block as the reference spells it. -/
private def pRes (X : Mat 100000 128) (W1 : Mat 128 128) (b1 : Row 128) (W2 : Mat 128 128) (b2 : Row 128) : Mat 100000 128 :=
  addf (F := Ideal) X (seluM (addf (F := Ideal)
    (Host.dotGeneral (F := Ideal) dot_S100000x128_S128x128_S100000x128_1_0_0_1_n_n none
      (seluM (addf (F := Ideal) (Host.dotGeneral (F := Ideal) dot_S100000x128_S128x128_S100000x128_1_0_0_1_n_n none X W1)
        (broadcastInDim S100000x128 ![0, 1] bcast_S1x128_S100000x128_0_1 (broadcastInDim S1x128 ![1] bcast_S128_S1x128_1 b1))))
      W2)
    (broadcastInDim S100000x128 ![0, 1] bcast_S1x128_S100000x128_0_1 (broadcastInDim S1x128 ![1] bcast_S128_S1x128_1 b2))))

private theorem pRes_eq (X : Mat 100000 128) (W1 : Mat 128 128) (b1 : Row 128) (W2 : Mat 128 128) (b2 : Row 128) :
    pRes X W1 b1 W2 b2 = resBlock X W1 b1 W2 b2 := by
  unfold pRes
  rw [dotGeneral_eq_mm dot_S100000x128_S128x128_S100000x128_1_0_0_1_n_n rfl, bias_host,
    dotGeneral_eq_mm dot_S100000x128_S128x128_S100000x128_1_0_0_1_n_n rfl, bias_host, addf_eq_addM]
  rfl

/-- A member of a stack of two matrices as the reference spells it. -/
private def pMem (W : Stack 2 128 128) (o : Nat) (hs : S2x128x128.Slices ![o, 0, 0] S1x128x128) : Mat 128 128 :=
  fun i => shapeCast S128x128 (extractStridedSlice S1x128x128 ![o, 0, 0] W hs) shapeCasts_S1x128x128_S128x128 i

private theorem pMem_eq (W : Stack 2 128 128) (o : Nat) (g : Fin 2) (hg : g.val = o) (hs : S2x128x128.Slices ![o, 0, 0] S1x128x128) :
    pMem W o hs = member W g :=
  reshape_slice_member W o g hg hs shapeCasts_S1x128x128_S128x128

/-- A row of a two-row matrix as the reference spells it. -/
private def pRow (B : Mat 2 128) (o : Nat) (hs : S2x128.Slices ![o, 0] S1x128) : Row 128 :=
  fun i => shapeCast S128 (extractStridedSlice S1x128 ![o, 0] B hs) shapeCasts_S1x128_S128 i

private theorem pRow_eq (B : Mat 2 128) (o : Nat) (g : Fin 2) (hg : g.val = o) (hs : S2x128.Slices ![o, 0] S1x128) :
    pRow B o hs = rowOf B g :=
  reshape_slice_row B o g hg hs shapeCasts_S1x128_S128

/-- The two last residual blocks as the reference spells them. -/
private theorem c2_printed (X : Mat 100000 128) (W24 : Stack 2 128 128) (b25 : Mat 2 128) (W26 : Stack 2 128 128) (b27 : Mat 2 128) :
    pRes (pRes X (pMem W24 0 slices_S2x128x128_S1x128x128_0_0_0) (pRow b25 0 slices_S2x128_S1x128_0_0)
        (pMem W26 0 slices_S2x128x128_S1x128x128_0_0_0) (pRow b27 0 slices_S2x128_S1x128_0_0))
      (pMem W24 1 slices_S2x128x128_S1x128x128_1_0_0) (pRow b25 1 slices_S2x128_S1x128_1_0)
      (pMem W26 1 slices_S2x128x128_S1x128x128_1_0_0) (pRow b27 1 slices_S2x128_S1x128_1_0)
    = resBlock (resBlock X (member W24 0) (rowOf b25 0) (member W26 0) (rowOf b27 0))
        (member W24 1) (rowOf b25 1) (member W26 1) (rowOf b27 1) := by
  rw [pRes_eq, pRes_eq, pMem_eq W24 0 0 rfl, pMem_eq W26 0 0 rfl, pMem_eq W24 1 1 rfl, pMem_eq W26 1 1 rfl,
    pRow_eq b25 0 0 rfl, pRow_eq b27 0 0 rfl, pRow_eq b25 1 1 rfl, pRow_eq b27 1 1 rfl]

/-- The last product as the reference spells it. -/
private theorem c2e2_printed (R : Mat 100000 6) (Wr : Mat 6 128) (E : Mat 100000 128) :
    mulf (F := Ideal) (Host.dotGeneral (F := Ideal) dot_S100000x6_S6x128_S100000x128_1_0_0_1_n_n none R Wr) E = stageC2 R Wr E := by
  rw [dotGeneral_eq_mm dot_S100000x6_S6x128_S100000x128_1_0_0_1_n_n rfl, mulf_eq_mulM]
  rfl

/-- After the last stretch the buffer of %92 holds the two last residual blocks applied to the buffer of %54. -/
theorem valC2_e1 : after (opsC2 (F := Ideal)) V (main_v92 : DevRef τ sig)
    = resBlock (resBlock (V (main_v54 : DevRef τ sig))
        (member (V (main_arg24 : DevRef τ sig)) 0) (rowOf (V (main_arg25 : DevRef τ sig)) 0) (member (V (main_arg26 : DevRef τ sig)) 0) (rowOf (V (main_arg27 : DevRef τ sig)) 0))
        (member (V (main_arg24 : DevRef τ sig)) 1) (rowOf (V (main_arg25 : DevRef τ sig)) 1) (member (V (main_arg26 : DevRef τ sig)) 1) (rowOf (V (main_arg27 : DevRef τ sig)) 1) := by
  rw [chain, S7_def, S8_def, S9_def, S10_def]
  simp (disch := decide) only [after_cons, after_nil, unary_result', binary_result', reshape_result',
    unary_result_ne', binary_result_ne', reshape_result_ne',
    S7_val, S7_frame, S8_val, S8_frame, S9_val, S9_frame, S10_val, S10_frame]
  exact c2_printed (V (main_v54 : DevRef τ sig)) (V (main_arg24 : DevRef τ sig)) (V (main_arg25 : DevRef τ sig))
    (V (main_arg26 : DevRef τ sig)) (V (main_arg27 : DevRef τ sig))

/-- … and the buffer of %94 holds (rbf0·W_rbf) ⊙ that. -/
theorem valC2_e2 : after (opsC2 (F := Ideal)) V (main_v94 : DevRef τ sig)
    = stageC2 (V (main_arg1 : DevRef τ sig)) (V (main_arg11 : DevRef τ sig))
        (resBlock (resBlock (V (main_v54 : DevRef τ sig))
          (member (V (main_arg24 : DevRef τ sig)) 0) (rowOf (V (main_arg25 : DevRef τ sig)) 0) (member (V (main_arg26 : DevRef τ sig)) 0) (rowOf (V (main_arg27 : DevRef τ sig)) 0))
          (member (V (main_arg24 : DevRef τ sig)) 1) (rowOf (V (main_arg25 : DevRef τ sig)) 1) (member (V (main_arg26 : DevRef τ sig)) 1) (rowOf (V (main_arg27 : DevRef τ sig)) 1)) := by
  rw [chain, S7_def, S8_def, S9_def, S10_def]
  simp (disch := decide) only [after_cons, after_nil, unary_result', binary_result', reshape_result',
    unary_result_ne', binary_result_ne', reshape_result_ne',
    S7_val, S7_frame, S8_val, S8_frame, S9_val, S9_frame, S10_val, S10_frame]
  refine (c2e2_printed (V (main_arg1 : DevRef τ sig)) (V (main_arg11 : DevRef τ sig)) _).trans ?_
  exact congrArg (stageC2 (V (main_arg1 : DevRef τ sig)) (V (main_arg11 : DevRef τ sig)))
    (c2_printed (V (main_v54 : DevRef τ sig)) (V (main_arg24 : DevRef τ sig)) (V (main_arg25 : DevRef τ sig))
      (V (main_arg26 : DevRef τ sig)) (V (main_arg27 : DevRef τ sig)))

/-- The stretch writes no argument array. -/
theorem keptC2 (b : Ref sig .tc) (hb : b ∈ argRefs) : after (opsC2 (F := Ideal)) V (b : DevRef τ sig) = V (b : DevRef τ sig) := by
  refine after_of_forall_not_mem _ V (List.forall_iff_forall_mem.mp ?_)
  simp only [opsC2, opsC2a, opsC2b, seluOps, List.cons_append, List.nil_append, List.append_assoc, List.Forall,
    nullary_writes, unary_writes, binary_writes, ternary_writes, reshape_writes, Finset.mem_singleton]
  repeat' apply And.intro
  all_goals exact devRef_ne_of_ne (ne_of_mem_of_not_mem hb (by decide))

end Cert.ReferenceIdeal.RVal

end
-- ==== Proof.RChain.lean ====
/- The idealized reference program's two results as ONE function of its argument arrays: the values of the
   four stretches of its operations chained — stage A and x_ji, the wrapped-index gather, stage B and the segment
   sum, stage C — and every argument array left as it was. -/
import proofs.«426082_j5952824672726_2_alg».proof.Proof.ROps
import proofs.«426082_j5952824672726_2_alg».proof.Proof.RArgs
import proofs.«426082_j5952824672726_2_alg».proof.Proof.RValA
import proofs.«426082_j5952824672726_2_alg».proof.Proof.RValB
import proofs.«426082_j5952824672726_2_alg».proof.Proof.RValC1
import proofs.«426082_j5952824672726_2_alg».proof.Proof.RValC2
import proofs.«426082_j5952824672726_2_alg».proof.Proof.Spec
import proofs.«426082_j5952824672726_2_alg».proof.Proof.SpecMid

noncomputable section

namespace Cert.ReferenceIdeal.RVal

open Idealize.ShloMosaic Idealize.ShloMosaic.TcCoe Idealize.ShloMosaic.StableHlo Idealize.ShloMosaic.ValueIdx
open Idealize.SL.Sem
open Cert.ReferenceIdeal Cert.ReferenceIdeal.RRun Cert.Spec
open Facts₀ Facts

variable [Facts] (V : Valuation τ sig (Elt Ideal))

/-- Running a concatenation is running its parts in turn. -/
private theorem after_append {Val : EltTy → Type} (l₁ l₂ : List (HloOp τ sig Val)) (W : Valuation τ sig Val) :
    after (l₁ ++ l₂) W = after l₂ (after l₁ W) := by
  induction l₁ generalizing W with
  | nil => rfl
  | cons op l ih => simp only [List.cons_append, after_cons, ih]

/-- The whole program is its four stretches in turn. -/
private theorem after_ops :
    after (ops (F := Ideal)) V
      = after (opsC2 (F := Ideal)) (after (opsC1 (F := Ideal)) (after (opsB (F := Ideal)) (after (opsA (F := Ideal)) V))) := by
  rw [show (ops (F := Ideal) : List (HloOp τ sig (Elt Ideal))) = (opsA ++ opsB) ++ (opsC1 ++ opsC2) from rfl,
    after_append (opsA ++ opsB) (opsC1 ++ opsC2), after_append opsA opsB, after_append opsC1 opsC2]

/-- No stretch writes an argument array: through the first two stretches … -/
private theorem kept2 (b : Ref sig .tc) (hb : b ∈ argRefs) :
    after (opsB (F := Ideal)) (after (opsA (F := Ideal)) V) (b : DevRef τ sig) = V (b : DevRef τ sig) := by
  rw [keptB _ b (List.mem_cons_of_mem _ hb), keptA _ b hb]

/-- … through the first three … -/
private theorem kept3 (b : Ref sig .tc) (hb : b ∈ argRefs) :
    after (opsC1 (F := Ideal)) (after (opsB (F := Ideal)) (after (opsA (F := Ideal)) V)) (b : DevRef τ sig) = V (b : DevRef τ sig) := by
  rw [keptC1 _ b hb, kept2 V b hb]

/-- … and through all four. -/
private theorem kept (b : Ref sig .tc) (hb : b ∈ argRefs) :
    after (ops (F := Ideal)) V (b : DevRef τ sig) = V (b : DevRef τ sig) := by
  rw [after_ops, keptC2 _ b hb, kept3 V b hb]

/-- Membership of a named argument buffer in the list of the thirty. -/
local macro "arg_mem" : tactic =>
  `(tactic| simp only [argRefs, List.mem_cons, List.mem_nil_iff, true_or, or_true, or_false])

/-- Stage A of the argument arrays: x_kj_down. -/
def edgeR : Mat 100000 64 :=
  stageA (V (main_arg0 : DevRef τ sig)) (V (main_arg1 : DevRef τ sig)) (V (main_arg12 : DevRef τ sig)) (V (main_arg13 : DevRef τ sig)) (V (main_arg5 : DevRef τ sig)) (V (main_arg6 : DevRef τ sig)) (V (main_arg16 : DevRef τ sig))

/-- idx_kj with its negative entries wrapped by +100000, as x[idx] does before it gathers. -/
def wrapped : IVec S500000 32 :=
  select (cmpi .slt (V (main_arg28 : DevRef τ sig)) (broadcastInDim S500000 ![] bcast_S_S500000 (constantI S_ 32 0#32)))
    (addi (V (main_arg28 : DevRef τ sig)) (broadcastInDim S500000 ![] bcast_S_S500000 (constantI S_ 32 100000#32))) (V (main_arg28 : DevRef τ sig))

/-- The rows of stage A gathered by the wrapped indices. -/
def gatheredR : Mat 500000 64 :=
  Host.gather gather_S100000x64_S500000x1_S500000x64_1_0_n_n_0_1_164 (edgeR V)
    (broadcastInDim S500000x1 ![0] bcast_S500000_S500000x1_0 (wrapped V))

/-- Stage B: the per-triplet message. -/
def messageR : Mat 500000 64 :=
  stageB (V (main_arg2 : DevRef τ sig)) (V (main_arg3 : DevRef τ sig)) (gatheredR V) (V (main_arg7 : DevRef τ sig)) (V (main_arg8 : DevRef τ sig)) (V (main_arg9 : DevRef τ sig)) (V (main_arg10 : DevRef τ sig))

/-- The messages summed into their segments by idx_ji. -/
def summedR : Mat 100000 64 :=
  Host.scatterAdd (F := Ideal) scatter_S100000x64_S500000x1_S500000x64_1_0_0_1
    (broadcastInDim S100000x64 ![] bcast_S_S100000x64 (constant S_ .f32 0x00000000#32))
    (broadcastInDim S500000x1 ![0] bcast_S500000_S500000x1_0 (V (main_arg29 : DevRef τ sig)))
    (messageR V)

/-- Stage C's e1. -/
def e1R : Mat 100000 128 :=
  stageC1 (summedR V) (V (main_arg0 : DevRef τ sig)) (V (main_arg14 : DevRef τ sig)) (V (main_arg15 : DevRef τ sig)) (V (main_arg17 : DevRef τ sig)) (V (main_arg20 : DevRef τ sig)) (V (main_arg21 : DevRef τ sig)) (V (main_arg22 : DevRef τ sig)) (V (main_arg23 : DevRef τ sig)) (V (main_arg18 : DevRef τ sig)) (V (main_arg19 : DevRef τ sig))
    (V (main_arg24 : DevRef τ sig)) (V (main_arg25 : DevRef τ sig)) (V (main_arg26 : DevRef τ sig)) (V (main_arg27 : DevRef τ sig))

/-- Stage C's e2. -/
def e2R : Mat 100000 128 := stageC2 (V (main_arg1 : DevRef τ sig)) (V (main_arg11 : DevRef τ sig)) (e1R V)

/-- After the first three stretches the buffer of %54 holds e1 before its two last residual blocks. -/
private theorem mid3 :
    after (opsC1 (F := Ideal)) (after (opsB (F := Ideal)) (after (opsA (F := Ideal)) V)) (main_v54 : DevRef τ sig)
      = stageCmid (xji (V (main_arg0 : DevRef τ sig)) (V (main_arg14 : DevRef τ sig)) (V (main_arg15 : DevRef τ sig)))
          (summedR V) (V (main_arg0 : DevRef τ sig)) (V (main_arg17 : DevRef τ sig)) (V (main_arg20 : DevRef τ sig)) (V (main_arg21 : DevRef τ sig)) (V (main_arg22 : DevRef τ sig)) (V (main_arg23 : DevRef τ sig))
          (V (main_arg18 : DevRef τ sig)) (V (main_arg19 : DevRef τ sig)) := by
  rw [valC1, keptB _ main_v4 List.mem_cons_self, valA_xji, valB, valA_xkj,
    kept2 V main_arg0 (by arg_mem), kept2 V main_arg17 (by arg_mem), kept2 V main_arg18 (by arg_mem),
    kept2 V main_arg19 (by arg_mem), kept2 V main_arg20 (by arg_mem), kept2 V main_arg21 (by arg_mem),
    kept2 V main_arg22 (by arg_mem), kept2 V main_arg23 (by arg_mem),
    keptA V main_arg2 (by arg_mem), keptA V main_arg3 (by arg_mem), keptA V main_arg7 (by arg_mem),
    keptA V main_arg8 (by arg_mem), keptA V main_arg9 (by arg_mem), keptA V main_arg10 (by arg_mem),
    keptA V main_arg28 (by arg_mem), keptA V main_arg29 (by arg_mem),
    summedR, messageR, gatheredR, wrapped, edgeR]

/-- e1 of the arguments is the two last residual blocks applied to that value. -/
private theorem e1R_eq :
    e1R V = resBlock (resBlock
        (stageCmid (xji (V (main_arg0 : DevRef τ sig)) (V (main_arg14 : DevRef τ sig)) (V (main_arg15 : DevRef τ sig)))
          (summedR V) (V (main_arg0 : DevRef τ sig)) (V (main_arg17 : DevRef τ sig)) (V (main_arg20 : DevRef τ sig)) (V (main_arg21 : DevRef τ sig)) (V (main_arg22 : DevRef τ sig)) (V (main_arg23 : DevRef τ sig))
          (V (main_arg18 : DevRef τ sig)) (V (main_arg19 : DevRef τ sig)))
        (member (V (main_arg24 : DevRef τ sig)) 0) (rowOf (V (main_arg25 : DevRef τ sig)) 0) (member (V (main_arg26 : DevRef τ sig)) 0) (rowOf (V (main_arg27 : DevRef τ sig)) 0))
        (member (V (main_arg24 : DevRef τ sig)) 1) (rowOf (V (main_arg25 : DevRef τ sig)) 1) (member (V (main_arg26 : DevRef τ sig)) 1) (rowOf (V (main_arg27 : DevRef τ sig)) 1) := by
  rw [e1R, stageC1, stageC1core_eq]

/-- The reference's first result is e1 of its arguments. -/
theorem out0 : after (ops (F := Ideal)) V (main_v92 : DevRef τ sig) = e1R V := by
  rw [after_ops, valC2_e1, mid3, e1R_eq,
    kept3 V main_arg24 (by arg_mem), kept3 V main_arg25 (by arg_mem), kept3 V main_arg26 (by arg_mem),
    kept3 V main_arg27 (by arg_mem)]

/-- The reference's second result is e2 of its arguments. -/
theorem out1 : after (ops (F := Ideal)) V (main_v94 : DevRef τ sig) = e2R V := by
  rw [after_ops, valC2_e2, mid3, e2R, e1R_eq,
    kept3 V main_arg1 (by arg_mem), kept3 V main_arg11 (by arg_mem),
    kept3 V main_arg24 (by arg_mem), kept3 V main_arg25 (by arg_mem), kept3 V main_arg26 (by arg_mem),
    kept3 V main_arg27 (by arg_mem)]

theorem kept_main_arg0 : after (ops (F := Ideal)) V (main_arg0 : DevRef τ sig) = V (main_arg0 : DevRef τ sig) :=
  kept V main_arg0 (by arg_mem)
theorem kept_main_arg1 : after (ops (F := Ideal)) V (main_arg1 : DevRef τ sig) = V (main_arg1 : DevRef τ sig) :=
  kept V main_arg1 (by arg_mem)
theorem kept_main_arg2 : after (ops (F := Ideal)) V (main_arg2 : DevRef τ sig) = V (main_arg2 : DevRef τ sig) :=
  kept V main_arg2 (by arg_mem)
theorem kept_main_arg3 : after (ops (F := Ideal)) V (main_arg3 : DevRef τ sig) = V (main_arg3 : DevRef τ sig) :=
  kept V main_arg3 (by arg_mem)
theorem kept_main_arg4 : after (ops (F := Ideal)) V (main_arg4 : DevRef τ sig) = V (main_arg4 : DevRef τ sig) :=
  kept V main_arg4 (by arg_mem)
theorem kept_main_arg5 : after (ops (F := Ideal)) V (main_arg5 : DevRef τ sig) = V (main_arg5 : DevRef τ sig) :=
  kept V main_arg5 (by arg_mem)
theorem kept_main_arg6 : after (ops (F := Ideal)) V (main_arg6 : DevRef τ sig) = V (main_arg6 : DevRef τ sig) :=
  kept V main_arg6 (by arg_mem)
theorem kept_main_arg7 : after (ops (F := Ideal)) V (main_arg7 : DevRef τ sig) = V (main_arg7 : DevRef τ sig) :=
  kept V main_arg7 (by arg_mem)
theorem kept_main_arg8 : after (ops (F := Ideal)) V (main_arg8 : DevRef τ sig) = V (main_arg8 : DevRef τ sig) :=
  kept V main_arg8 (by arg_mem)
theorem kept_main_arg9 : after (ops (F := Ideal)) V (main_arg9 : DevRef τ sig) = V (main_arg9 : DevRef τ sig) :=
  kept V main_arg9 (by arg_mem)
theorem kept_main_arg10 : after (ops (F := Ideal)) V (main_arg10 : DevRef τ sig) = V (main_arg10 : DevRef τ sig) :=
  kept V main_arg10 (by arg_mem)
theorem kept_main_arg11 : after (ops (F := Ideal)) V (main_arg11 : DevRef τ sig) = V (main_arg11 : DevRef τ sig) :=
  kept V main_arg11 (by arg_mem)
theorem kept_main_arg12 : after (ops (F := Ideal)) V (main_arg12 : DevRef τ sig) = V (main_arg12 : DevRef τ sig) :=
  kept V main_arg12 (by arg_mem)
theorem kept_main_arg13 : after (ops (F := Ideal)) V (main_arg13 : DevRef τ sig) = V (main_arg13 : DevRef τ sig) :=
  kept V main_arg13 (by arg_mem)
theorem kept_main_arg14 : after (ops (F := Ideal)) V (main_arg14 : DevRef τ sig) = V (main_arg14 : DevRef τ sig) :=
  kept V main_arg14 (by arg_mem)
theorem kept_main_arg15 : after (ops (F := Ideal)) V (main_arg15 : DevRef τ sig) = V (main_arg15 : DevRef τ sig) :=
  kept V main_arg15 (by arg_mem)
theorem kept_main_arg16 : after (ops (F := Ideal)) V (main_arg16 : DevRef τ sig) = V (main_arg16 : DevRef τ sig) :=
  kept V main_arg16 (by arg_mem)
theorem kept_main_arg17 : after (ops (F := Ideal)) V (main_arg17 : DevRef τ sig) = V (main_arg17 : DevRef τ sig) :=
  kept V main_arg17 (by arg_mem)
theorem kept_main_arg18 : after (ops (F := Ideal)) V (main_arg18 : DevRef τ sig) = V (main_arg18 : DevRef τ sig) :=
  kept V main_arg18 (by arg_mem)
theorem kept_main_arg19 : after (ops (F := Ideal)) V (main_arg19 : DevRef τ sig) = V (main_arg19 : DevRef τ sig) :=
  kept V main_arg19 (by arg_mem)
theorem kept_main_arg20 : after (ops (F := Ideal)) V (main_arg20 : DevRef τ sig) = V (main_arg20 : DevRef τ sig) :=
  kept V main_arg20 (by arg_mem)
theorem kept_main_arg21 : after (ops (F := Ideal)) V (main_arg21 : DevRef τ sig) = V (main_arg21 : DevRef τ sig) :=
  kept V main_arg21 (by arg_mem)
theorem kept_main_arg22 : after (ops (F := Ideal)) V (main_arg22 : DevRef τ sig) = V (main_arg22 : DevRef τ sig) :=
  kept V main_arg22 (by arg_mem)
theorem kept_main_arg23 : after (ops (F := Ideal)) V (main_arg23 : DevRef τ sig) = V (main_arg23 : DevRef τ sig) :=
  kept V main_arg23 (by arg_mem)
theorem kept_main_arg24 : after (ops (F := Ideal)) V (main_arg24 : DevRef τ sig) = V (main_arg24 : DevRef τ sig) :=
  kept V main_arg24 (by arg_mem)
theorem kept_main_arg25 : after (ops (F := Ideal)) V (main_arg25 : DevRef τ sig) = V (main_arg25 : DevRef τ sig) :=
  kept V main_arg25 (by arg_mem)
theorem kept_main_arg26 : after (ops (F := Ideal)) V (main_arg26 : DevRef τ sig) = V (main_arg26 : DevRef τ sig) :=
  kept V main_arg26 (by arg_mem)
theorem kept_main_arg27 : after (ops (F := Ideal)) V (main_arg27 : DevRef τ sig) = V (main_arg27 : DevRef τ sig) :=
  kept V main_arg27 (by arg_mem)
theorem kept_main_arg28 : after (ops (F := Ideal)) V (main_arg28 : DevRef τ sig) = V (main_arg28 : DevRef τ sig) :=
  kept V main_arg28 (by arg_mem)
theorem kept_main_arg29 : after (ops (F := Ideal)) V (main_arg29 : DevRef τ sig) = V (main_arg29 : DevRef τ sig) :=
  kept V main_arg29 (by arg_mem)

end Cert.ReferenceIdeal.RVal

end
-- ==== Proof.PreIdx.lean ====
/-
  The index-range conjuncts of the precondition, read back. The precondition is a conjunction of
  one-bit words; its last two conjuncts say that every entry of the index vector is at least 0 and
  less than 100000. From the conjunction being 1 each entry's signed value lies in [0, 100000), and a
  non-negative index is left unchanged by the wrap "add 100000 where negative".
-/
import proofs.«426082_j5952824672726_2_alg».proof.Pre_finite_inputs
import proofs.«426082_j5952824672726_2_alg».proof.Proof.Gen.Pre_finite_inputs
import Idealize.ShloMosaic.Lib.ReduceAll
import Idealize.ShloMosaic.Lib.StableHlo.Predicate
import Idealize.ShloMosaic.PureOps.Ideal

noncomputable section

namespace Cert.PreIdx

open Idealize.ShloMosaic Cert.Pre_finite_inputs

/-- The shape of rank 0 has one index. -/
instance : Subsingleton S_.Idx := ⟨fun a b => funext fun d => d.elim0⟩

/-- The last part of the precondition: if the conjunction is 1 then both range conjuncts hold at every entry. -/
theorem part8_bounds [Facts] {F : FTy → Type} [FloatOps F] (a28 : IVec S500000 32) (p : IVec S_ 1) (q : IVec S2x128 1)
    (j : S_.Idx) (h : fn_part8 (F := F) a28 p q j = 1#1) :
    ∀ i : S500000.Idx, 0 ≤ (a28 i).toInt ∧ (a28 i).toInt < 100000 := by
  unfold fn_part8 at h
  simp only [andi, IntOp.andi_eq_one] at h
  obtain ⟨⟨-, hge⟩, hlt⟩ := h
  intro i
  have h1 := Host.reduce_andi_all _ _ _ _ _ hge i
  have h2 := Host.reduce_andi_all _ _ _ _ _ hlt i
  constructor
  · have h1' : IntOp.cmpi .sge (a28 i) 0#32 = 1#1 := h1
    rw [IntOp.cmpi_sge] at h1'
    exact h1'
  · have h2' : IntOp.cmpi .slt (a28 i) 100000#32 = 1#1 := h2
    rw [IntOp.cmpi_slt] at h2'
    exact h2'

/-- The precondition is its last part at the index vector and two one-bit words built from the float inputs. -/
theorem fn_eq_part8 [Facts]
    (a0 : FVec Ideal S100000x128 .f32) (a1 : FVec Ideal S100000x6 .f32) (a2 : FVec Ideal S500000x42 .f32)
    (a3 : FVec Ideal S500000x294 .f32) (a4 : FVec Ideal S100000x1 .f32) (a5 : FVec Ideal S6x8 .f32)
    (a6 : FVec Ideal S8x128 .f32) (a7 : FVec Ideal S42x8 .f32) (a8 : FVec Ideal S8x64 .f32)
    (a9 : FVec Ideal S294x8 .f32) (a10 : FVec Ideal S8x64 .f32) (a11 : FVec Ideal S6x128 .f32)
    (a12 : FVec Ideal S128x128 .f32) (a13 : FVec Ideal S128 .f32) (a14 : FVec Ideal S128x128 .f32)
    (a15 : FVec Ideal S128 .f32) (a16 : FVec Ideal S128x64 .f32) (a17 : FVec Ideal S64x128 .f32)
    (a18 : FVec Ideal S128x128 .f32) (a19 : FVec Ideal S128 .f32) (a20 : FVec Ideal S1x128x128 .f32)
    (a21 : FVec Ideal S1x128 .f32) (a22 : FVec Ideal S1x128x128 .f32) (a23 : FVec Ideal S1x128 .f32)
    (a24 : FVec Ideal S2x128x128 .f32) (a25 : FVec Ideal S2x128 .f32) (a26 : FVec Ideal S2x128x128 .f32)
    (a27 : FVec Ideal S2x128 .f32) (a28 : IVec S500000 32) (a29 : IVec S500000 32) :
    ∃ (p : IVec S_ 1) (q : IVec S2x128 1),
      fn (F := Ideal) a0 a1 a2 a3 a4 a5 a6 a7 a8 a9 a10 a11 a12 a13 a14 a15 a16 a17 a18 a19 a20 a21 a22 a23 a24 a25 a26 a27 a28 a29 = fn_part8 (F := Ideal) a28 p q :=
  ⟨_, _, rfl⟩

/-- Under the precondition every index is non-negative. -/
theorem idx_nonneg [Facts]
    (a0 : FVec Ideal S100000x128 .f32) (a1 : FVec Ideal S100000x6 .f32) (a2 : FVec Ideal S500000x42 .f32)
    (a3 : FVec Ideal S500000x294 .f32) (a4 : FVec Ideal S100000x1 .f32) (a5 : FVec Ideal S6x8 .f32)
    (a6 : FVec Ideal S8x128 .f32) (a7 : FVec Ideal S42x8 .f32) (a8 : FVec Ideal S8x64 .f32)
    (a9 : FVec Ideal S294x8 .f32) (a10 : FVec Ideal S8x64 .f32) (a11 : FVec Ideal S6x128 .f32)
    (a12 : FVec Ideal S128x128 .f32) (a13 : FVec Ideal S128 .f32) (a14 : FVec Ideal S128x128 .f32)
    (a15 : FVec Ideal S128 .f32) (a16 : FVec Ideal S128x64 .f32) (a17 : FVec Ideal S64x128 .f32)
    (a18 : FVec Ideal S128x128 .f32) (a19 : FVec Ideal S128 .f32) (a20 : FVec Ideal S1x128x128 .f32)
    (a21 : FVec Ideal S1x128 .f32) (a22 : FVec Ideal S1x128x128 .f32) (a23 : FVec Ideal S1x128 .f32)
    (a24 : FVec Ideal S2x128x128 .f32) (a25 : FVec Ideal S2x128 .f32) (a26 : FVec Ideal S2x128x128 .f32)
    (a27 : FVec Ideal S2x128 .f32) (a28 : IVec S500000 32) (a29 : IVec S500000 32)
    (h : fn (F := Ideal) a0 a1 a2 a3 a4 a5 a6 a7 a8 a9 a10 a11 a12 a13 a14 a15 a16 a17 a18 a19 a20 a21 a22 a23 a24 a25 a26 a27 a28 a29 = fun _ => 1#1) :
    ∀ i : S500000.Idx, 0 ≤ (a28 i).toInt := by
  obtain ⟨p, q, e⟩ := fn_eq_part8 a0 a1 a2 a3 a4 a5 a6 a7 a8 a9 a10 a11 a12 a13 a14 a15 a16 a17 a18 a19 a20 a21 a22 a23 a24 a25 a26 a27 a28 a29
  rw [e] at h
  exact fun i => (part8_bounds a28 p q (fun d => d.elim0) (congrFun h _) i).1

/-- Under the precondition every index is below the number of table rows. -/
theorem idx_lt [Facts]
    (a0 : FVec Ideal S100000x128 .f32) (a1 : FVec Ideal S100000x6 .f32) (a2 : FVec Ideal S500000x42 .f32)
    (a3 : FVec Ideal S500000x294 .f32) (a4 : FVec Ideal S100000x1 .f32) (a5 : FVec Ideal S6x8 .f32)
    (a6 : FVec Ideal S8x128 .f32) (a7 : FVec Ideal S42x8 .f32) (a8 : FVec Ideal S8x64 .f32)
    (a9 : FVec Ideal S294x8 .f32) (a10 : FVec Ideal S8x64 .f32) (a11 : FVec Ideal S6x128 .f32)
    (a12 : FVec Ideal S128x128 .f32) (a13 : FVec Ideal S128 .f32) (a14 : FVec Ideal S128x128 .f32)
    (a15 : FVec Ideal S128 .f32) (a16 : FVec Ideal S128x64 .f32) (a17 : FVec Ideal S64x128 .f32)
    (a18 : FVec Ideal S128x128 .f32) (a19 : FVec Ideal S128 .f32) (a20 : FVec Ideal S1x128x128 .f32)
    (a21 : FVec Ideal S1x128 .f32) (a22 : FVec Ideal S1x128x128 .f32) (a23 : FVec Ideal S1x128 .f32)
    (a24 : FVec Ideal S2x128x128 .f32) (a25 : FVec Ideal S2x128 .f32) (a26 : FVec Ideal S2x128x128 .f32)
    (a27 : FVec Ideal S2x128 .f32) (a28 : IVec S500000 32) (a29 : IVec S500000 32)
    (h : fn (F := Ideal) a0 a1 a2 a3 a4 a5 a6 a7 a8 a9 a10 a11 a12 a13 a14 a15 a16 a17 a18 a19 a20 a21 a22 a23 a24 a25 a26 a27 a28 a29 = fun _ => 1#1) :
    ∀ i : S500000.Idx, (a28 i).toInt < 100000 := by
  obtain ⟨p, q, e⟩ := fn_eq_part8 a0 a1 a2 a3 a4 a5 a6 a7 a8 a9 a10 a11 a12 a13 a14 a15 a16 a17 a18 a19 a20 a21 a22 a23 a24 a25 a26 a27 a28 a29
  rw [e] at h
  exact fun i => (part8_bounds a28 p q (fun d => d.elim0) (congrFun h _) i).2

/-- Adding the table height where the index is negative changes nothing when no index is negative. -/
theorem wrap_eq (a28 : IVec ⟨1, ![500000]⟩ 32) (hb : (⟨0, ![]⟩ : Shape).BroadcastsInDim ⟨1, ![500000]⟩ ![])
    (h : ∀ i, 0 ≤ (a28 i).toInt) :
    select (cmpi .slt a28 (broadcastInDim ⟨1, ![500000]⟩ ![] hb (constantI ⟨0, ![]⟩ 32 0#32)))
      (addi a28 (broadcastInDim ⟨1, ![500000]⟩ ![] hb (constantI ⟨0, ![]⟩ 32 100000#32))) a28 = a28 := by
  funext i
  have hc : IntOp.cmpi .slt (a28 i) 0#32 ≠ 1#1 := by
    rw [Ne, IntOp.cmpi_slt]
    exact not_lt.2 (h i)
  show Scalar.select (IntOp.cmpi .slt (a28 i) 0#32) _ (a28 i) = a28 i
  exact if_neg hc

end Cert.PreIdx

end
-- ==== Proof.lean ====
/-
  The certificate of the GNN edge-update kernel against its jnp reference, over the extended reals.
  Both programs compute, row by row, stage A (selu((selu(x1·W_kj + b_kj) ⊙ ((rbf0·W_rbf1)·W_rbf2))·W_down)), gather its
  rows by idx_kj, multiply by the two projected bases (stage B), sum the messages into their segments by idx_ji, and run
  the residual network of stage C on selu(x1·W_ji + b_ji) + selu(S·W_up), giving e1 and e2 = (rbf0·W_rbf) ⊙ e1.
  The kernel does the three stages in three pallas_calls over blocks of 2000 or 4000 rows, the gather and the segment sum
  on the host between them; the reference is one host program. Every stage acts row by row, so a block of rows of the
  whole-array function is the function of the block of rows; the matrix products are the same sums at the ideal values
  whatever the float format of their operands; the kernel's selu (exp x − 1) and the reference's (expm1 of the argument
  masked to x ≤ 0) are one function. The one place the two differ is the gather: the kernel clamps a negative index to
  row 0 where the reference wraps it by +100000, so the precondition asks 0 ≤ idx_kj < 100000, under which the wrapped
  index vector is idx_kj itself. No algebraic law that needs finiteness is used.
-/
import proofs.«426082_j5952824672726_2_alg».proof.Defs
import proofs.«426082_j5952824672726_2_alg».proof.Proof.Gen.Kernel
import proofs.«426082_j5952824672726_2_alg».proof.Proof.Gen.Kernel.Skeleton
import proofs.«426082_j5952824672726_2_alg».proof.Proof.Gen.Kernel.Launch
import proofs.«426082_j5952824672726_2_alg».proof.Proof.Gen.Kernel.Points
import proofs.«426082_j5952824672726_2_alg».proof.Proof.Gen.Kernel.Frame
import proofs.«426082_j5952824672726_2_alg».proof.Proof.Gen.KernelIdeal
import proofs.«426082_j5952824672726_2_alg».proof.Proof.Gen.KernelIdeal.Skeleton
import proofs.«426082_j5952824672726_2_alg».proof.Proof.Gen.KernelIdeal.Launch
import proofs.«426082_j5952824672726_2_alg».proof.Proof.Gen.KernelIdeal.Points
import proofs.«426082_j5952824672726_2_alg».proof.Proof.Gen.KernelIdeal.Frame
import proofs.«426082_j5952824672726_2_alg».proof.Proof.Gen.ReferenceIdeal
import proofs.«426082_j5952824672726_2_alg».proof.Proof.Gen.Pre_finite_inputs
import proofs.«426082_j5952824672726_2_alg».proof.Proof.KRun
import proofs.«426082_j5952824672726_2_alg».proof.Proof.KChain
import proofs.«426082_j5952824672726_2_alg».proof.Proof.RRun
import proofs.«426082_j5952824672726_2_alg».proof.Proof.RChain
import proofs.«426082_j5952824672726_2_alg».proof.Proof.PreIdx
import Idealize.ShloMosaic.Adequacy
import Idealize.ShloMosaic.Init

noncomputable section

namespace Cert.Proof

open Idealize.ShloMosaic Idealize.ShloMosaic.TcCoe Idealize.SL.Sem

/-! ## The two programs' result functions agree on agreeing arguments with in-range gather indices -/

section Bridge

open Cert.KernelIdeal.KVal Cert.ReferenceIdeal.RVal

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's e1 and e2 at its launch contents are the kernel's at its own, when the arguments agree and idx_kj
    is non-negative: the wrapped index vector is then idx_kj, and everything else is the same function of the same
    arrays. -/
theorem results_agree (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29))
    (hidx : ∀ i, 0 ≤ ((m ((c.tc : Thread Cert.KernelIdeal.nD Cert.KernelIdeal.τ).loc Cert.KernelIdeal.main_arg28) : IVec Cert.KernelIdeal.S500000 32) i).toInt) :
    e1R (StableHlo.launchContents m' c) = e1 m c ∧ e2R (StableHlo.launchContents m' c) = e2 m c := by
  obtain ⟨h0, h1, h2, h3, h4, h5, h6, h7, h8, h9, h10, h11, h12, h13, h14, h15, h16, h17, h18, h19, h20, h21, h22, h23, h24, h25, h26, h27, h28, h29⟩ := hagree
  have h0' : StableHlo.launchContents m' c (Cert.ReferenceIdeal.main_arg0 : DevRef Cert.ReferenceIdeal.τ Cert.ReferenceIdeal.sig) = m ((c.tc : Thread Cert.KernelIdeal.nD Cert.KernelIdeal.τ).loc Cert.KernelIdeal.main_arg0) := h0
  have h1' : StableHlo.launchContents m' c (Cert.ReferenceIdeal.main_arg1 : DevRef Cert.ReferenceIdeal.τ Cert.ReferenceIdeal.sig) = m ((c.tc : Thread Cert.KernelIdeal.nD Cert.KernelIdeal.τ).loc Cert.KernelIdeal.main_arg1) := h1
  have h2' : StableHlo.launchContents m' c (Cert.ReferenceIdeal.main_arg2 : DevRef Cert.ReferenceIdeal.τ Cert.ReferenceIdeal.sig) = m ((c.tc : Thread Cert.KernelIdeal.nD Cert.KernelIdeal.τ).loc Cert.KernelIdeal.main_arg2) := h2
  have h3' : StableHlo.launchContents m' c (Cert.ReferenceIdeal.main_arg3 : DevRef Cert.ReferenceIdeal.τ Cert.ReferenceIdeal.sig) = m ((c.tc : Thread Cert.KernelIdeal.nD Cert.KernelIdeal.τ).loc Cert.KernelIdeal.main_arg3) := h3
  have h4' : StableHlo.launchContents m' c (Cert.ReferenceIdeal.main_arg4 : DevRef Cert.ReferenceIdeal.τ Cert.ReferenceIdeal.sig) = m ((c.tc : Thread Cert.KernelIdeal.nD Cert.KernelIdeal.τ).loc Cert.KernelIdeal.main_arg4) := h4
  have h5' : StableHlo.launchContents m' c (Cert.ReferenceIdeal.main_arg5 : DevRef Cert.ReferenceIdeal.τ Cert.ReferenceIdeal.sig) = m ((c.tc : Thread Cert.KernelIdeal.nD Cert.KernelIdeal.τ).loc Cert.KernelIdeal.main_arg5) := h5
  have h6' : StableHlo.launchContents m' c (Cert.ReferenceIdeal.main_arg6 : DevRef Cert.ReferenceIdeal.τ Cert.ReferenceIdeal.sig) = m ((c.tc : Thread Cert.KernelIdeal.nD Cert.KernelIdeal.τ).loc Cert.KernelIdeal.main_arg6) := h6
  have h7' : StableHlo.launchContents m' c (Cert.ReferenceIdeal.main_arg7 : DevRef Cert.ReferenceIdeal.τ Cert.ReferenceIdeal.sig) = m ((c.tc : Thread Cert.KernelIdeal.nD Cert.KernelIdeal.τ).loc Cert.KernelIdeal.main_arg7) := h7
  have h8' : StableHlo.launchContents m' c (Cert.ReferenceIdeal.main_arg8 : DevRef Cert.ReferenceIdeal.τ Cert.ReferenceIdeal.sig) = m ((c.tc : Thread Cert.KernelIdeal.nD Cert.KernelIdeal.τ).loc Cert.KernelIdeal.main_arg8) := h8
  have h9' : StableHlo.launchContents m' c (Cert.ReferenceIdeal.main_arg9 : DevRef Cert.ReferenceIdeal.τ Cert.ReferenceIdeal.sig) = m ((c.tc : Thread Cert.KernelIdeal.nD Cert.KernelIdeal.τ).loc Cert.KernelIdeal.main_arg9) := h9
  have h10' : StableHlo.launchContents m' c (Cert.ReferenceIdeal.main_arg10 : DevRef Cert.ReferenceIdeal.τ Cert.ReferenceIdeal.sig) = m ((c.tc : Thread Cert.KernelIdeal.nD Cert.KernelIdeal.τ).loc Cert.KernelIdeal.main_arg10) := h10
  have h11' : StableHlo.launchContents m' c (Cert.ReferenceIdeal.main_arg11 : DevRef Cert.ReferenceIdeal.τ Cert.ReferenceIdeal.sig) = m ((c.tc : Thread Cert.KernelIdeal.nD Cert.KernelIdeal.τ).loc Cert.KernelIdeal.main_arg11) := h11
  have h12' : StableHlo.launchContents m' c (Cert.ReferenceIdeal.main_arg12 : DevRef Cert.ReferenceIdeal.τ Cert.ReferenceIdeal.sig) = m ((c.tc : Thread Cert.KernelIdeal.nD Cert.KernelIdeal.τ).loc Cert.KernelIdeal.main_arg12) := h12
  have h13' : StableHlo.launchContents m' c (Cert.ReferenceIdeal.main_arg13 : DevRef Cert.ReferenceIdeal.τ Cert.ReferenceIdeal.sig) = m ((c.tc : Thread Cert.KernelIdeal.nD Cert.KernelIdeal.τ).loc Cert.KernelIdeal.main_arg13) := h13
  have h14' : StableHlo.launchContents m' c (Cert.ReferenceIdeal.main_arg14 : DevRef Cert.ReferenceIdeal.τ Cert.ReferenceIdeal.sig) = m ((c.tc : Thread Cert.KernelIdeal.nD Cert.KernelIdeal.τ).loc Cert.KernelIdeal.main_arg14) := h14
  have h15' : StableHlo.launchContents m' c (Cert.ReferenceIdeal.main_arg15 : DevRef Cert.ReferenceIdeal.τ Cert.ReferenceIdeal.sig) = m ((c.tc : Thread Cert.KernelIdeal.nD Cert.KernelIdeal.τ).loc Cert.KernelIdeal.main_arg15) := h15
  have h16' : StableHlo.launchContents m' c (Cert.ReferenceIdeal.main_arg16 : DevRef Cert.ReferenceIdeal.τ Cert.ReferenceIdeal.sig) = m ((c.tc : Thread Cert.KernelIdeal.nD Cert.KernelIdeal.τ).loc Cert.KernelIdeal.main_arg16) := h16
  have h17' : StableHlo.launchContents m' c (Cert.ReferenceIdeal.main_arg17 : DevRef Cert.ReferenceIdeal.τ Cert.ReferenceIdeal.sig) = m ((c.tc : Thread Cert.KernelIdeal.nD Cert.KernelIdeal.τ).loc Cert.KernelIdeal.main_arg17) := h17
  have h18' : StableHlo.launchContents m' c (Cert.ReferenceIdeal.main_arg18 : DevRef Cert.ReferenceIdeal.τ Cert.ReferenceIdeal.sig) = m ((c.tc : Thread Cert.KernelIdeal.nD Cert.KernelIdeal.τ).loc Cert.KernelIdeal.main_arg18) := h18
  have h19' : StableHlo.launchContents m' c (Cert.ReferenceIdeal.main_arg19 : DevRef Cert.ReferenceIdeal.τ Cert.ReferenceIdeal.sig) = m ((c.tc : Thread Cert.KernelIdeal.nD Cert.KernelIdeal.τ).loc Cert.KernelIdeal.main_arg19) := h19
  have h20' : StableHlo.launchContents m' c (Cert.ReferenceIdeal.main_arg20 : DevRef Cert.ReferenceIdeal.τ Cert.ReferenceIdeal.sig) = m ((c.tc : Thread Cert.KernelIdeal.nD Cert.KernelIdeal.τ).loc Cert.KernelIdeal.main_arg20) := h20
  have h21' : StableHlo.launchContents m' c (Cert.ReferenceIdeal.main_arg21 : DevRef Cert.ReferenceIdeal.τ Cert.ReferenceIdeal.sig) = m ((c.tc : Thread Cert.KernelIdeal.nD Cert.KernelIdeal.τ).loc Cert.KernelIdeal.main_arg21) := h21
  have h22' : StableHlo.launchContents m' c (Cert.ReferenceIdeal.main_arg22 : DevRef Cert.ReferenceIdeal.τ Cert.ReferenceIdeal.sig) = m ((c.tc : Thread Cert.KernelIdeal.nD Cert.KernelIdeal.τ).loc Cert.KernelIdeal.main_arg22) := h22
  have h23' : StableHlo.launchContents m' c (Cert.ReferenceIdeal.main_arg23 : DevRef Cert.ReferenceIdeal.τ Cert.ReferenceIdeal.sig) = m ((c.tc : Thread Cert.KernelIdeal.nD Cert.KernelIdeal.τ).loc Cert.KernelIdeal.main_arg23) := h23
  have h24' : StableHlo.launchContents m' c (Cert.ReferenceIdeal.main_arg24 : DevRef Cert.ReferenceIdeal.τ Cert.ReferenceIdeal.sig) = m ((c.tc : Thread Cert.KernelIdeal.nD Cert.KernelIdeal.τ).loc Cert.KernelIdeal.main_arg24) := h24
  have h25' : StableHlo.launchContents m' c (Cert.ReferenceIdeal.main_arg25 : DevRef Cert.ReferenceIdeal.τ Cert.ReferenceIdeal.sig) = m ((c.tc : Thread Cert.KernelIdeal.nD Cert.KernelIdeal.τ).loc Cert.KernelIdeal.main_arg25) := h25
  have h26' : StableHlo.launchContents m' c (Cert.ReferenceIdeal.main_arg26 : DevRef Cert.ReferenceIdeal.τ Cert.ReferenceIdeal.sig) = m ((c.tc : Thread Cert.KernelIdeal.nD Cert.KernelIdeal.τ).loc Cert.KernelIdeal.main_arg26) := h26
  have h27' : StableHlo.launchContents m' c (Cert.ReferenceIdeal.main_arg27 : DevRef Cert.ReferenceIdeal.τ Cert.ReferenceIdeal.sig) = m ((c.tc : Thread Cert.KernelIdeal.nD Cert.KernelIdeal.τ).loc Cert.KernelIdeal.main_arg27) := h27
  have h28' : StableHlo.launchContents m' c (Cert.ReferenceIdeal.main_arg28 : DevRef Cert.ReferenceIdeal.τ Cert.ReferenceIdeal.sig) = m ((c.tc : Thread Cert.KernelIdeal.nD Cert.KernelIdeal.τ).loc Cert.KernelIdeal.main_arg28) := h28
  have h29' : StableHlo.launchContents m' c (Cert.ReferenceIdeal.main_arg29 : DevRef Cert.ReferenceIdeal.τ Cert.ReferenceIdeal.sig) = m ((c.tc : Thread Cert.KernelIdeal.nD Cert.KernelIdeal.τ).loc Cert.KernelIdeal.main_arg29) := h29
  have hw : wrapped (StableHlo.launchContents m' c) = m ((c.tc : Thread Cert.KernelIdeal.nD Cert.KernelIdeal.τ).loc Cert.KernelIdeal.main_arg28) := by
    unfold wrapped
    rw [h28']
    exact Cert.PreIdx.wrap_eq _ _ hidx
  have hedge : edgeR (StableHlo.launchContents m' c) = edge m c := by
    unfold edgeR edge
    rw [h0', h1', h12', h13', h5', h6', h16']
  have hgath : gatheredR (StableHlo.launchContents m' c) = gathered m c := by
    unfold gatheredR gathered
    rw [hedge, hw]
    rfl
  have hmsg : messageR (StableHlo.launchContents m' c) = message m c := by
    unfold messageR message
    rw [hgath, h2', h3', h7', h8', h9', h10']
  have hsum : summedR (StableHlo.launchContents m' c) = summed m c := by
    unfold summedR summed
    rw [hmsg, h29']
    rfl
  have he1 : e1R (StableHlo.launchContents m' c) = e1 m c := by
    unfold e1R e1
    rw [hsum, h0', h14', h15', h17', h20', h21', h22', h23', h18', h19', h24', h25', h26', h27']
  refine ⟨he1, ?_⟩
  unfold e2R e2
  rw [he1, h1', h11']

end Bridge

/-! ## The claims -/

open Cert.KernelIdeal.KVal Cert.ReferenceIdeal.RVal

/-- The printed kernel runs and leaves its arguments as they were: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations, none of which writes an argument array. -/
theorem frame_ri : Cert.frame_ReferenceIdeal := fun m ρ _ =>
  (θ_run Cert.ReferenceIdeal.defs _ _).mono (fun r h c =>
    ⟨(h c _).trans (kept_main_arg0 _),
     (h c _).trans (kept_main_arg1 _),
     (h c _).trans (kept_main_arg2 _),
     (h c _).trans (kept_main_arg3 _),
     (h c _).trans (kept_main_arg4 _),
     (h c _).trans (kept_main_arg5 _),
     (h c _).trans (kept_main_arg6 _),
     (h c _).trans (kept_main_arg7 _),
     (h c _).trans (kept_main_arg8 _),
     (h c _).trans (kept_main_arg9 _),
     (h c _).trans (kept_main_arg10 _),
     (h c _).trans (kept_main_arg11 _),
     (h c _).trans (kept_main_arg12 _),
     (h c _).trans (kept_main_arg13 _),
     (h c _).trans (kept_main_arg14 _),
     (h c _).trans (kept_main_arg15 _),
     (h c _).trans (kept_main_arg16 _),
     (h c _).trans (kept_main_arg17 _),
     (h c _).trans (kept_main_arg18 _),
     (h c _).trans (kept_main_arg19 _),
     (h c _).trans (kept_main_arg20 _),
     (h c _).trans (kept_main_arg21 _),
     (h c _).trans (kept_main_arg22 _),
     (h c _).trans (kept_main_arg23 _),
     (h c _).trans (kept_main_arg24 _),
     (h c _).trans (kept_main_arg25 _),
     (h c _).trans (kept_main_arg26 _),
     (h c _).trans (kept_main_arg27 _),
     (h c _).trans (kept_main_arg28 _),
     (h c _).trans (kept_main_arg29 _)⟩)
    (Cert.ReferenceIdeal.RRun.run_main (F := Ideal) m ρ)

/-- The ideal pass rewrote nothing. -/
theorem preserves : Cert.preserves_Kernel_KernelIdeal := trivial

/-- From memories agreeing on the arguments, with idx_kj in range, both programs end with e1 and e2 of the
    kernel's arguments: the kernel by its three regions' values chained through the host gather and segment sum,
    the reference by its four stretches of host operations, and the two result functions agree. -/
theorem algebraic : Cert.algebraic_KernelIdeal_ReferenceIdeal := by
  intro m ρ m' ρ' hpre hagree
  have hidx : ∀ (c : Dev Cert.KernelIdeal.nD) i, 0 ≤ ((m ((c.tc : Thread Cert.KernelIdeal.nD Cert.KernelIdeal.τ).loc Cert.KernelIdeal.main_arg28) : IVec Cert.KernelIdeal.S500000 32) i).toInt :=
    fun c => Cert.PreIdx.idx_nonneg _ _ _ _ _ _ _ _ _ _ _ _ _ _ _ _ _ _ _ _ _ _ _ _ _ _ _ _ _ _ (hpre c)
  refine ⟨fun c => e1 m c, fun c => e2 m c, ?_, ?_⟩
  · exact (θ_run Cert.KernelIdeal.defs _ _).mono
      (fun r h c => ⟨(h c).1.trans (W5_out0 m ρ c), (h c).2.1.trans (W5_out1 m ρ c), (h c).2.2⟩)
      (Cert.KernelIdeal.KRun.run (F := Ideal) m ρ)
  · refine (θ_run Cert.ReferenceIdeal.defs _ _).mono (fun r h c => ?_) (Cert.ReferenceIdeal.RRun.run_main (F := Ideal) m' ρ')
    obtain ⟨he1, he2⟩ := results_agree m m' c (hagree c) (hidx c)
    exact ⟨((h c _).trans (out0 _)).trans he1, ((h c _).trans (out1 _)).trans he2,
     (h c _).trans (kept_main_arg0 _),
     (h c _).trans (kept_main_arg1 _),
     (h c _).trans (kept_main_arg2 _),
     (h c _).trans (kept_main_arg3 _),
     (h c _).trans (kept_main_arg4 _),
     (h c _).trans (kept_main_arg5 _),
     (h c _).trans (kept_main_arg6 _),
     (h c _).trans (kept_main_arg7 _),
     (h c _).trans (kept_main_arg8 _),
     (h c _).trans (kept_main_arg9 _),
     (h c _).trans (kept_main_arg10 _),
     (h c _).trans (kept_main_arg11 _),
     (h c _).trans (kept_main_arg12 _),
     (h c _).trans (kept_main_arg13 _),
     (h c _).trans (kept_main_arg14 _),
     (h c _).trans (kept_main_arg15 _),
     (h c _).trans (kept_main_arg16 _),
     (h c _).trans (kept_main_arg17 _),
     (h c _).trans (kept_main_arg18 _),
     (h c _).trans (kept_main_arg19 _),
     (h c _).trans (kept_main_arg20 _),
     (h c _).trans (kept_main_arg21 _),
     (h c _).trans (kept_main_arg22 _),
     (h c _).trans (kept_main_arg23 _),
     (h c _).trans (kept_main_arg24 _),
     (h c _).trans (kept_main_arg25 _),
     (h c _).trans (kept_main_arg26 _),
     (h c _).trans (kept_main_arg27 _),
     (h c _).trans (kept_main_arg28 _),
     (h c _).trans (kept_main_arg29 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
